-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x64 : Shape := ⟨2, ![16384, 64]⟩
abbrev S16384x16384 : Shape := ⟨2, ![16384, 16384]⟩
abbrev S128x64 : Shape := ⟨2, ![128, 64]⟩
abbrev S64 : Shape := ⟨1, ![64]⟩
abbrev S_ : Shape := ⟨0, ![]⟩

class Facts : Prop where
  bcast_S_S16384x64 : S_.BroadcastsInDim S16384x64 (![] : Fin 0 → Fin S16384x64.rank)
  reducesTo_S16384x64_S_d0_1 : S16384x64.ReducesTo [0, 1] S_
  h_S_ : 0 < S_.numel
  bcast_S_S16384x16384 : S_.BroadcastsInDim S16384x16384 (![] : Fin 0 → Fin S16384x16384.rank)
  reducesTo_S16384x16384_S_d0_1 : S16384x16384.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S16384x64 .f32) (main_arg1 : FVec F S16384x16384 .f32) (main_arg2 : FVec F S128x64 .f32) (main_arg3 : FVec F S64 .f32) : IVec S_ 1 :=
  let main_v0 : FVec F S16384x64 .f32 := Host.absf main_arg0
  let main_cst : FVec F S_ .f32 := constant S_ .f32 0x7F800000#32
  let main_v1 : FVec F S16384x64 .f32 := broadcastInDim S16384x64 ![] bcast_S_S16384x64 main_cst
  let main_v2 : IVec S16384x64 1 := cmpf .olt main_v0 main_v1
  let main_c : IVec S_ 1 := constantI S_ 1 1#1
  let main_v3 : IVec S_ 1 := (fun x v => Host.reduce IntOp.andi x v reducesTo_S16384x64_S_d0_1 h_S_) main_v2 main_c
  let main_v4 : FVec F S16384x16384 .f32 := Host.absf main_arg1
  let main_cst_0 : FVec F S_ .f32 := constant S_ .f32 0x7F800000#32
  let main_v5 : FVec F S16384x16384 .f32 := broadcastInDim S16384x16384 ![] bcast_S_S16384x16384 main_cst_0
  let main_v6 : IVec S16384x16384 1 := cmpf .olt main_v4 main_v5
  let main_c_1 : IVec S_ 1 := constantI S_ 1 1#1
  let main_v7 : IVec S_ 1 := (fun x v => Host.reduce IntOp.andi x v reducesTo_S16384x16384_S_d0_1 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S16384x64 : Shape := ⟨2, ![16384, 64]⟩
abbrev S16384x16384 : Shape := ⟨2, ![16384, 16384]⟩
abbrev S128x64 : Shape := ⟨2, ![128, 64]⟩
abbrev S64 : Shape := ⟨1, ![64]⟩
abbrev S1024x2048 : Shape := ⟨2, ![1024, 2048]⟩
abbrev S2048x64 : Shape := ⟨2, ![2048, 64]⟩
abbrev S1024x64 : Shape := ⟨2, ![1024, 64]⟩
abbrev S1024x1 : Shape := ⟨2, ![1024, 1]⟩
abbrev S1024 : Shape := ⟨1, ![1024]⟩
abbrev S64x64 : Shape := ⟨2, ![64, 64]⟩
abbrev S1x64 : Shape := ⟨2, ![1, 64]⟩

abbrev nBuf : Space → Nat
  | .hbm => 5
  | .vmem => 12
  | .smem => 0
  | _ => 0

abbrev bufTy : (tb : Table) → Fin (tcTables nBuf tb) → BufTy
  | .hbm, ⟨0, _⟩ => ⟨S16384x64, .f32⟩
  | .hbm, ⟨1, _⟩ => ⟨S16384x16384, .f32⟩
  | .hbm, ⟨2, _⟩ => ⟨S128x64, .f32⟩
  | .hbm, ⟨3, _⟩ => ⟨S64, .f32⟩
  | .hbm, ⟨4, _⟩ => ⟨S16384x64, .f32⟩
  | .local _ .vmem, ⟨0, _⟩ => ⟨S1024x2048, .f32⟩
  | .local _ .vmem, ⟨1, _⟩ => ⟨S1024x2048, .f32⟩
  | .local _ .vmem, ⟨2, _⟩ => ⟨S2048x64, .f32⟩
  | .local _ .vmem, ⟨3, _⟩ => ⟨S2048x64, .f32⟩
  | .local _ .vmem, ⟨4, _⟩ => ⟨S1024x64, .f32⟩
  | .local _ .vmem, ⟨5, _⟩ => ⟨S1024x64, .f32⟩
  | .local _ .vmem, ⟨6, _⟩ => ⟨S128x64, .f32⟩
  | .local _ .vmem, ⟨7, _⟩ => ⟨S64, .f32⟩
  | .local _ .vmem, ⟨8, _⟩ => ⟨S1024x64, .f32⟩
  | .local _ .vmem, ⟨9, _⟩ => ⟨S1024x64, .f32⟩
  | .local _ .vmem, ⟨10, _⟩ => ⟨S1024x64, .f32⟩
  | .local _ .vmem, ⟨11, _⟩ => ⟨S1024x1, .f32⟩
  | _, _ => ⟨S16384x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v20 : BitVec 1 := Scalar.cmpi .eq arg1 c7_i32
  let v21 : BitVec 32 := Scalar.extui v20
  let c0_i32_13 : BitVec 32 := 0#32
  let v22 : BitVec 1 := Scalar.cmpi .ne v21 c0_i32_13
  v22

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x2048_S1024x2048_0_0 : ∀ a, (![0, 0] : Fin 2 → Nat) a + S1024x2048.size a ≤ S1024x2048.size a
  h_S1024x2048 : 0 < S1024x2048.numel
  inb_S2048x64_S2048x64_0_0 : ∀ a, (![0, 0] : Fin 2 → Nat) a + S2048x64.size a ≤ S2048x64.size a
  h_S2048x64 : 0 < S2048x64.numel
  bitsLt_bf16_f32 : FTy.bits .bf16 < FTy.bits .f32
  reduces_S1024x2048_S1024 : S1024x2048.Reduces [1] S1024
  shapeCasts_S1024_S1024x1 : S1024.ShapeCasts S1024x1
  broadcasts_S1024x1_S1024x64 : S1024x1.Broadcasts S1024x64
  inb_S128x64_S128x64_0_0 : ∀ a, (![0, 0] : Fin 2 → Nat) a + S128x64.size a ≤ S128x64.size a
  h_S128x64 : 0 < S128x64.numel
  slices_S128x64_o0_0_S64x64 : S128x64.Slices ![0, 0] S64x64
  slices_S128x64_o64_0_S64x64 : S128x64.Slices ![64, 0] S64x64
  inb_S64_S64_0 : ∀ a, (![0] : Fin 1 → Nat) a + S64.size a ≤ S64.size a
  h_S64 : 0 < S64.numel
  shapeCasts_S64_S1x64 : S64.ShapeCasts S1x64
  broadcasts_S1x64_S1024x64 : S1x64.Broadcasts S1024x64
  reduces_S1024x64_S1024 : S1024x64.Reduces [1] S1024
  dot_S1024x2048_S2048x64_S1024x64_1_0_0_1_n_n_wf : DotDims.WF S1024x2048 S2048x64 S1024x64 [1] [0] [0] [1] [] []
  dot_S1024x64_S64x64_S1024x64_1_0_0_1_n_n_wf : DotDims.WF S1024x64 S64x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S16384x16384.size a
  hwx0_0 : ∀ i : grid0.Coords, EltTy.bits .f32 = 32 ∨ (Rect.block (s := S16384x16384) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x64.size a ≤ S16384x64.size a
  hwx0_1 : ∀ i : grid0.Coords, EltTy.bits .f32 = 32 ∨ (Rect.block (s := S16384x64) S2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x64.size a ≤ S16384x64.size a
  hwx0_2 : ∀ i : grid0.Coords, EltTy.bits .f32 = 32 ∨ (Rect.block (s := S16384x64) S1024x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .f32 = 32 ∨ (Rect.block (s := S128x64) S128x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x64.size a ≤ S16384x64.size a
  hwx0_5 : ∀ i : grid0.Coords, EltTy.bits .f32 = 32 ∨ (Rect.block (s := S16384x64) S1024x64.size (cc0_transform_5 i) (hinb0_5 i)).WholeWords (EltTy.packing .f32)

variable [Facts₀]

def dot_S1024x2048_S2048x64_S1024x64_1_0_0_1_n_n : DotDims S1024x2048 S2048x64 S1024x64 where
  lhsContracting := [1]
  rhsContracting := [0]
  lhsNonContracting := [0]
  rhsNonContracting := [1]
  lhsBatch := []
  rhsBatch := []
  wf := dot_S1024x2048_S2048x64_S1024x64_1_0_0_1_n_n_wf
def dot_S1024x64_S64x64_S1024x64_1_0_0_1_n_n : DotDims S1024x64 S64x64 S1024x64 where
  lhsContracting := [1]
  rhsContracting := [0]
  lhsNonContracting := [0]
  rhsNonContracting := [1]
  lhsBatch := []
  rhsBatch := []
  wf := dot_S1024x64_S64x64_S1024x64_1_0_0_1_n_n_wf

abbrev win0_0 : Pipeline.Window sig grid0 :=
  Pipeline.Window.ofSpec (Memref.whole main_arg1) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S1024x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1024x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S16384x64 : Shape := ⟨2, ![16384, 64]⟩
abbrev S16384x16384 : Shape := ⟨2, ![16384, 16384]⟩
abbrev S128x64 : Shape := ⟨2, ![128, 64]⟩
abbrev S64 : Shape := ⟨1, ![64]⟩
abbrev S_ : Shape := ⟨0, ![]⟩
abbrev S16384 : Shape := ⟨1, ![16384]⟩
abbrev S16384x1 : Shape := ⟨2, ![16384, 1]⟩
abbrev S16384x128 : Shape := ⟨2, ![16384, 128]⟩
abbrev S1x64 : Shape := ⟨2, ![1, 64]⟩

abbrev nBuf : Space → Nat
  | .hbm => 36
  | .vmem => 0
  | .smem => 0
  | _ => 0

abbrev bufTy : (tb : Table) → Fin (tcTables nBuf tb) → BufTy
  | .hbm, ⟨0, _⟩ => ⟨S16384x64, .f32⟩
  | .hbm, ⟨1, _⟩ => ⟨S16384x16384, .f32⟩
  | .hbm, ⟨2, _⟩ => ⟨S128x64, .f32⟩
  | .hbm, ⟨3, _⟩ => ⟨S64, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x64, .f32⟩
  | .hbm, ⟨15, _⟩ => ⟨S16384x64, .f32⟩
  | .hbm, ⟨16, _⟩ => ⟨S16384x64, .f32⟩
  | .hbm, ⟨17, _⟩ => ⟨S16384x64, .f32⟩
  | .hbm, ⟨18, _⟩ => ⟨S16384x128, .f32⟩
  | .hbm, ⟨19, _⟩ => ⟨S16384x64, .f32⟩
  | .hbm, ⟨20, _⟩ => ⟨S1x64, .f32⟩
  | .hbm, ⟨21, _⟩ => ⟨S16384x64, .f32⟩
  | .hbm, ⟨22, _⟩ => ⟨S16384x64, .f32⟩
  | .hbm, ⟨23, _⟩ => ⟨S_, .f32⟩
  | .hbm, ⟨24, _⟩ => ⟨S16384x64, .f32⟩
  | .hbm, ⟨25, _⟩ => ⟨S16384x64, .f32⟩
  | .hbm, ⟨26, _⟩ => ⟨S16384x64, .f32⟩
  | .hbm, ⟨27, _⟩ => ⟨S_, .f32⟩
  | .hbm, ⟨28, _⟩ => ⟨S16384, .f32⟩
  | .hbm, ⟨29, _⟩ => ⟨S16384x1, .f32⟩
  | .hbm, ⟨30, _⟩ => ⟨S16384x1, .f32⟩
  | .hbm, ⟨31, _⟩ => ⟨S_, .f32⟩
  | .hbm, ⟨32, _⟩ => ⟨S16384x1, .f32⟩
  | .hbm, ⟨33, _⟩ => ⟨S16384x1, .f32⟩
  | .hbm, ⟨34, _⟩ => ⟨S16384x64, .f32⟩
  | .hbm, ⟨35, _⟩ => ⟨S16384x64, .f32⟩
  | _, _ => ⟨S16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_call0_v0 : Ref sig .tc := ⟨.hbm, 11, rfl⟩
abbrev main_call0_v1 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call1_cst : Ref sig .tc := ⟨.hbm, 23, rfl⟩
abbrev main_call1_v0 : Ref sig .tc := ⟨.hbm, 24, rfl⟩
abbrev main_v14 : Ref sig .tc := ⟨.hbm, 25, rfl⟩
abbrev main_call2_v0 : Ref sig .tc := ⟨.hbm, 26, rfl⟩
abbrev main_call2_cst : Ref sig .tc := ⟨.hbm, 27, rfl⟩
abbrev main_call2_v1 : Ref sig .tc := ⟨.hbm, 28, rfl⟩
abbrev main_call2_v2 : Ref sig .tc := ⟨.hbm, 29, rfl⟩
abbrev main_v15 : Ref sig .tc := ⟨.hbm, 30, rfl⟩
abbrev main_cst_2 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩

abbrev nD : Nat := 1
abbrev τ : Topo := Topo.v7x

variable {F : FTy → Type} [FloatOps F]

class Facts₀ : Prop where
  reducesTo_S16384x16384_S16384_d1 : S16384x16384.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x64_0_1 : S16384x1.BroadcastsInDim S16384x64 (![0, 1] : Fin 2 → Fin S16384x64.rank)
  concatenates_S16384x64_S16384x64_S16384x128_d1 : Shape.Concatenates [S16384x64, S16384x64] S16384x128 1
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  bcast_S_S16384x64 : S_.BroadcastsInDim S16384x64 (![] : Fin 0 → Fin S16384x64.rank)
  reducesTo_S16384x64_S16384_d1 : S16384x64.ReducesTo [1] S16384
  dot_S16384x16384_S16384x64_S16384x64_1_0_0_1_n_n_wf : DotDims.WF S16384x16384 S16384x64 S16384x64 [1] [0] [0] [1] [] []
  dot_S16384x128_S128x64_S16384x64_1_0_0_1_n_n_wf : DotDims.WF S16384x128 S128x64 S16384x64 [1] [0] [0] [1] [] []

variable [Facts₀]

def dot_S16384x16384_S16384x64_S16384x64_1_0_0_1_n_n : DotDims S16384x16384 S16384x64 S16384x64 where
  lhsContracting := [1]
  rhsContracting := [0]
  lhsNonContracting := [0]
  rhsNonContracting := [1]
  lhsBatch := []
  rhsBatch := []
  wf := dot_S16384x16384_S16384x64_S16384x64_1_0_0_1_n_n_wf
def dot_S16384x128_S128x64_S16384x64_1_0_0_1_n_n : DotDims S16384x128 S128x64 S16384x64 where
  lhsContracting := [1]
  rhsContracting := [0]
  lhsNonContracting := [0]
  rhsNonContracting := [1]
  lhsBatch := []
  rhsBatch := []
  wf := dot_S16384x128_S128x64_S16384x64_1_0_0_1_n_n_wf

class Facts : Prop extends Facts₀ where

variable [Facts]
-- ==== Proof.KB.Runs.lean ====
/-
  What the three cases of the kernel body share: the arrays as the region finds them, each window's block at a
  grid point, the two branch conditions of the body in closed form over the 16 × 8 grid (the reduction axis is the
  fast one: point t is row block t / 8, column block t % 8), where the output window is idle, and the staging and
  scratch memrefs the body is called with.
-/
import proofs.«142667_j78451872628893_1_alg».proof.Proof.Gen.Kernel.Launch
import proofs.«142667_j78451872628893_1_alg».proof.Proof.Gen.Kernel.Skeleton
import proofs.«142667_j78451872628893_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays and the windows' blocks -/

/-- Core `c`'s buffer contents when the region is entered: @main is the region alone, so the launch contents. -/
abbrev V (c : Dev nD) (b : Ref sig .tc) : Buf (Elt F) ((c : Thread nD τ).loc b) := m ((c : Thread nD τ).loc b)

/-- Window `w`'s block at point `t`, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0 holds its block at every point, fetched there or not: unfetched, its block index has not moved
    since the last fetch. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1 holds its block at every point, fetched there or not: unfetched, its block index has not moved
    since the last fetch. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2 holds its block at every point, fetched there or not: unfetched, its block index has not moved
    since the last fetch. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3 holds its block at every point, fetched there or not: unfetched, its block index has not moved
    since the last fetch. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4 holds its block at every point, fetched there or not: unfetched, its block index has not moved
    since the last fetch. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The first branch (reset the two accumulators) is taken at column block 0. -/
abbrev cond0 (i : grid0.Coords) : Prop := (Scalar.cmpi .ne (Scalar.extui (Scalar.cmpi .eq (BitVec.ofNat 32 (i 1).val) 0#32)) 0#32) = 1#1
theorem hcond0 : ∀ t : Fin cfg0.N, cond0 (grid0.coords t) ↔ t.val % 8 = 0 :=
  (by decide +kernel : ∀ t : Fin grid0.N, cond0 (grid0.coords t) ↔ t.val % 8 = 0)

/-- The second branch (finish the row block and store it) is taken at the last column block, 7. -/
abbrev cond1 (i : grid0.Coords) : Prop := k0_cond2 i = 1#1
theorem hcond1 : ∀ t : Fin cfg0.N, cond1 (grid0.coords t) ↔ t.val % 8 = 7 :=
  (by decide +kernel : ∀ t : Fin grid0.N, cond1 (grid0.coords t) ↔ t.val % 8 = 7)

/-! ## Where the windows are idle -/

theorem live0 : ∀ i, cfg0.idle 0 i = false := fun _ => rfl
theorem live1 : ∀ i, cfg0.idle 1 i = false := fun _ => rfl
theorem live2 : ∀ i, cfg0.idle 2 i = false := fun _ => rfl
theorem live3 : ∀ i, cfg0.idle 3 i = false := fun _ => rfl
theorem live4 : ∀ i, cfg0.idle 4 i = false := fun _ => rfl
/-- Away from the last column block nothing is stored into the output window, and it is not written back. -/
theorem idle5 : ∀ t : Fin cfg0.N, ¬cond1 (grid0.coords t) → cfg0.idle 5 (grid0.coords t) = true := by decide +kernel
theorem noFlush5 : ∀ t : Fin cfg0.N, ¬cond1 (grid0.coords t) → (cfg0.win 5).flush t = false := by decide +kernel
/-- At the last column block the output window is stored whole. -/
theorem live5 : ∀ t : Fin cfg0.N, cond1 (grid0.coords t) → cfg0.idle 5 (grid0.coords t) = false := by decide +kernel

/-! ## The memrefs the body is called with -/

abbrev ms0 (t : Fin cfg0.N) : Memref sig .tc .vmem S1024x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S2048x64 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x64 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S128x64 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S64 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1024x64 .f32 := win0_5.stage (cfg0.slots t 5)
abbrev hs5 (t : Fin cfg0.N) : (ms5 t).IsWhole := hstage0_5 ((cfg0.slots t 5).cast nbuf0_5)
/-- The two scratch operands: the neighbour-sum accumulator and the degree accumulator. -/
abbrev scAcc : Memref sig .tc .vmem S1024x64 .f32 := Memref.whole cc0_scratch0
abbrev scDeg : Memref sig .tc .vmem S1024x1 .f32 := Memref.whole cc0_scratch1
/-- The views through which the contents of the output's staging buffer and of the two accumulators are stated. -/
abbrev VO : View sig .tc .vmem S1024x64 .f32 := (Memref.whole cc0_stg5_0 : Memref sig .tc .vmem S1024x64 .f32).view
abbrev VAcc : View sig .tc .vmem S1024x64 .f32 := (scAcc).view
abbrev VDeg : View sig .tc .vmem S1024x1 .f32 := (scDeg).view

/-- The core's scoped buffers outside the pipeline's staging are the two accumulators, each owned at some contents. -/
theorem scoped_eq (c : Dev nD) :
    (Pipeline.scopedRest (Ix := Unit) (Name := ℕ) (U := UR sig nD τ) (Lvl := ℕ) (Val := Elt F) spec0 c : sProp 𝕄)
      = iprop((∃ d, owns (c : Thread nD τ) scAcc fullShare d) ∗ (∃ d, owns (c : Thread nD τ) scDeg fullShare d)) := by
  rw [scopedRest0_eq]; simp only [scAcc, scDeg, owns_whole]; try rfl

end Cert.Kernel.Hand

end
-- ==== Proof.KB.RunA.lean ====
/-
  The kernel body run at column block 0 (both accumulators are reset, then the first partial sums are added; the output window is left untouched): on whole memrefs holding the given blocks it runs to the end, leaving
  the inputs as they were and each buffer it stores into with the listed pieces written (the pieces are found by
  the symbolic run itself).
-/
import proofs.«142667_j78451872628893_1_alg».proof.Proof.KB.Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the output window (`.1`), the neighbour-sum accumulator (`.2.1`) and the
    degree accumulator (`.2.2.1`), with the run that leaves them. -/
noncomputable def kernelRun_A (c : Dev nD) (i : grid0.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S128x64 .f32) (harg5 : arg5.IsWhole) (arg6 : Memref sig .tc .vmem S64 .f32) (harg6 : arg6.IsWhole) (arg7 : Memref sig .tc .vmem S1024x64 .f32) (harg7 : arg7.IsWhole) (arg8 : Memref sig .tc .vmem S1024x64 .f32) (harg8 : arg8.IsWhole) (arg9 : Memref sig .tc .vmem S1024x1 .f32) (harg9 : arg9.IsWhole) (hc0 : cond0 i) (hc1 : ¬cond1 i)
    (x0 : Vec F S1024x2048 .f32) (x1 : Vec F S2048x64 .f32) :
    Σ' (L5 : List (View.Piece (Elt F) S1024x64 .f32)), Σ' (LS0 : List (View.Piece (Elt F) S1024x64 .f32)), { LS1 : List (View.Piece (Elt F) S1024x1 .f32) //
      ∀ (E : Set ℕ) (K : PUnit → sProp 𝕄),
        iprop(owns (c : Thread nD τ) arg2 fullShare x0 ∗ owns (c : Thread nD τ) arg3 fullShare x1 ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__gsage_kernel i arg2 harg2 arg3 harg3 arg4 harg4 arg5 harg5 arg6 harg6 arg7 harg7 arg8 harg8 arg9 harg9) K } := by
  refine ⟨[], ?_, ?_, fun E K => ?run⟩
  case run =>
    simp only [cc0__gsage_kernel_eq_skeleton]; unfold cc0__gsage_kernel_skel
    unfold owns
    iintro ⟨⟨%f0, %hf0, H0⟩, ⟨%f1, %hf1, H1⟩, ⟨%ds0, %fs0, -, HS0⟩, ⟨%ds1, %fs1, -, HS1⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [HS0]; · iexists _; iexact HS0
    iexists _; iexact HS1

end Cert.Kernel.Hand

end
-- ==== Proof.KB.RunB.lean ====
/-
  The kernel body run at a column block strictly between the first and the last (the partial sums of the block are added to both accumulators; the output window is left untouched): on whole memrefs holding the given blocks it runs to the end, leaving
  the inputs as they were and each buffer it stores into with the listed pieces written (the pieces are found by
  the symbolic run itself).
-/
import proofs.«142667_j78451872628893_1_alg».proof.Proof.KB.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the output window (`.1`), the neighbour-sum accumulator (`.2.1`) and the
    degree accumulator (`.2.2.1`), with the run that leaves them. -/
noncomputable def kernelRun_B (c : Dev nD) (i : grid0.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S128x64 .f32) (harg5 : arg5.IsWhole) (arg6 : Memref sig .tc .vmem S64 .f32) (harg6 : arg6.IsWhole) (arg7 : Memref sig .tc .vmem S1024x64 .f32) (harg7 : arg7.IsWhole) (arg8 : Memref sig .tc .vmem S1024x64 .f32) (harg8 : arg8.IsWhole) (arg9 : Memref sig .tc .vmem S1024x1 .f32) (harg9 : arg9.IsWhole) (hc0 : ¬cond0 i) (hc1 : ¬cond1 i)
    (x0 : Vec F S1024x2048 .f32) (x1 : Vec F S2048x64 .f32) (xs0 : Vec F S1024x64 .f32) (xs1 : Vec F S1024x1 .f32) :
    Σ' (L5 : List (View.Piece (Elt F) S1024x64 .f32)), Σ' (LS0 : List (View.Piece (Elt F) S1024x64 .f32)), { LS1 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg8 fullShare xs0 ∗ owns (c : Thread nD τ) arg9 fullShare xs1
            ∗ (iprop(owns (c : Thread nD τ) arg2 fullShare x0 ∗ owns (c : Thread nD τ) arg3 fullShare x1 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__gsage_kernel i arg2 harg2 arg3 harg3 arg4 harg4 arg5 harg5 arg6 harg6 arg7 harg7 arg8 harg8 arg9 harg9) K } := by
  refine ⟨[], ?_, ?_, fun E K => ?run⟩
  case run =>
    simp only [cc0__gsage_kernel_eq_skeleton]; unfold cc0__gsage_kernel_skel
    unfold owns
    iintro ⟨⟨%f0, %hf0, H0⟩, ⟨%f1, %hf1, H1⟩, ⟨%fs0, %hfs0, HS0⟩, ⟨%fs1, %hfs1, HS1⟩, Hk⟩
    obtain rfl := harg2.eq_unread hf0; obtain rfl := harg3.eq_unread hf1
    obtain rfl := harg8.eq_unread hfs0; obtain rfl := harg9.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [HS0]; · iexists _; iexact HS0
    iexists _; iexact HS1

end Cert.Kernel.Hand

end
-- ==== Proof.KB.RunC.lean ====
/-
  The kernel body run at the last column block (the last partial sums are added, then the row block is finished from the accumulators, the node's own features, the weights and the bias, and stored whole into the output window): on whole memrefs holding the given blocks it runs to the end, leaving
  the inputs as they were and each buffer it stores into with the listed pieces written (the pieces are found by
  the symbolic run itself).
-/
import proofs.«142667_j78451872628893_1_alg».proof.Proof.KB.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the output window (`.1`), the neighbour-sum accumulator (`.2.1`) and the
    degree accumulator (`.2.2.1`), with the run that leaves them. -/
noncomputable def kernelRun_C (c : Dev nD) (i : grid0.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S128x64 .f32) (harg5 : arg5.IsWhole) (arg6 : Memref sig .tc .vmem S64 .f32) (harg6 : arg6.IsWhole) (arg7 : Memref sig .tc .vmem S1024x64 .f32) (harg7 : arg7.IsWhole) (arg8 : Memref sig .tc .vmem S1024x64 .f32) (harg8 : arg8.IsWhole) (arg9 : Memref sig .tc .vmem S1024x1 .f32) (harg9 : arg9.IsWhole) (hc0 : ¬cond0 i) (hc1 : cond1 i)
    (x0 : Vec F S1024x2048 .f32) (x1 : Vec F S2048x64 .f32) (x2 : Vec F S1024x64 .f32) (x3 : Vec F S128x64 .f32) (x4 : Vec F S64 .f32) (xs0 : Vec F S1024x64 .f32) (xs1 : Vec F S1024x1 .f32) :
    Σ' (L5 : List (View.Piece (Elt F) S1024x64 .f32)), Σ' (LS0 : List (View.Piece (Elt F) S1024x64 .f32)), { LS1 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__gsage_kernel i arg2 harg2 arg3 harg3 arg4 harg4 arg5 harg5 arg6 harg6 arg7 harg7 arg8 harg8 arg9 harg9) K } := by
  refine ⟨?_, ?_, ?_, fun E K => ?run⟩
  case run =>
    simp only [cc0__gsage_kernel_eq_skeleton]; unfold cc0__gsage_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg5.eq_unread hf3; obtain rfl := harg6.eq_unread hf4
    obtain rfl := harg8.eq_unread hfs0; obtain rfl := harg9.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [HS0]; · iexists _; iexact HS0
    iexists _; iexact HS1

end Cert.Kernel.Hand

end
-- ==== Proof.KB.Frame.lean ====
/-
  The frame of the one pipelined region: what the output window and the two accumulators hold after each grid point,
  the pipeline's proof data, the body obligation at a generic point (by the case its column block selects), and the
  launch. Two of the region's input windows read the same array (the node features: the column-block rows for the
  neighbour sum, the row-block rows for the node's own features); they hold the two halves of its share.
-/
import proofs.«142667_j78451872628893_1_alg».proof.Proof.KB.RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Case A's pieces for the neighbour-sum accumulator tile it, so they cover it. -/
theorem scover_A_0 (c : Dev nD) (i : grid0.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S128x64 .f32) (harg5 : arg5.IsWhole) (arg6 : Memref sig .tc .vmem S64 .f32) (harg6 : arg6.IsWhole) (arg7 : Memref sig .tc .vmem S1024x64 .f32) (harg7 : arg7.IsWhole) (arg8 : Memref sig .tc .vmem S1024x64 .f32) (harg8 : arg8.IsWhole) (arg9 : Memref sig .tc .vmem S1024x1 .f32) (harg9 : arg9.IsWhole) (hc0 : cond0 i) (hc1 : ¬cond1 i) (x0 : Vec F S1024x2048 .f32) (x1 : Vec F S2048x64 .f32) (y : S1024x64.Idx) :
    ∃ pc ∈ (kernelRun_A c i arg2 harg2 arg3 harg3 arg4 harg4 arg5 harg5 arg6 harg6 arg7 harg7 arg8 harg8 arg9 harg9 hc0 hc1 x0 x1).2.1, y ∈ pc.1.set :=
  View.cover_of_tiledL (kernelRun_A c i arg2 harg2 arg3 harg3 arg4 harg4 arg5 harg5 arg6 harg6 arg7 harg7 arg8 harg8 arg9 harg9 hc0 hc1 x0 x1).2.1 S1024x64.size (by sl_kernel_rfl) y

/-- What case A leaves in the neighbour-sum accumulator: its pieces read back. -/
def sout_A_0 (c : Dev nD) (i : grid0.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S128x64 .f32) (harg5 : arg5.IsWhole) (arg6 : Memref sig .tc .vmem S64 .f32) (harg6 : arg6.IsWhole) (arg7 : Memref sig .tc .vmem S1024x64 .f32) (harg7 : arg7.IsWhole) (arg8 : Memref sig .tc .vmem S1024x64 .f32) (harg8 : arg8.IsWhole) (arg9 : Memref sig .tc .vmem S1024x1 .f32) (harg9 : arg9.IsWhole) (hc0 : cond0 i) (hc1 : ¬cond1 i) (x0 : Vec F S1024x2048 .f32) (x1 : Vec F S2048x64 .f32) : Vec F S1024x64 .f32 :=
  VAcc.read (Elt F) (VAcc.writes (Elt F) VAcc.junk (kernelRun_A c i arg2 harg2 arg3 harg3 arg4 harg4 arg5 harg5 arg6 harg6 arg7 harg7 arg8 harg8 arg9 harg9 hc0 hc1 x0 x1).2.1)

/-- Case A's pieces for the degree accumulator tile it, so they cover it. -/
theorem scover_A_1 (c : Dev nD) (i : grid0.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S128x64 .f32) (harg5 : arg5.IsWhole) (arg6 : Memref sig .tc .vmem S64 .f32) (harg6 : arg6.IsWhole) (arg7 : Memref sig .tc .vmem S1024x64 .f32) (harg7 : arg7.IsWhole) (arg8 : Memref sig .tc .vmem S1024x64 .f32) (harg8 : arg8.IsWhole) (arg9 : Memref sig .tc .vmem S1024x1 .f32) (harg9 : arg9.IsWhole) (hc0 : cond0 i) (hc1 : ¬cond1 i) (x0 : Vec F S1024x2048 .f32) (x1 : Vec F S2048x64 .f32) (y : S1024x1.Idx) :
    ∃ pc ∈ (kernelRun_A c i arg2 harg2 arg3 harg3 arg4 harg4 arg5 harg5 arg6 harg6 arg7 harg7 arg8 harg8 arg9 harg9 hc0 hc1 x0 x1).2.2.1, y ∈ pc.1.set :=
  View.cover_of_tiledL (kernelRun_A c i arg2 harg2 arg3 harg3 arg4 harg4 arg5 harg5 arg6 harg6 arg7 harg7 arg8 harg8 arg9 harg9 hc0 hc1 x0 x1).2.2.1 S1024x1.size (by sl_kernel_rfl) y

/-- What case A leaves in the degree accumulator: its pieces read back. -/
def sout_A_1 (c : Dev nD) (i : grid0.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S128x64 .f32) (harg5 : arg5.IsWhole) (arg6 : Memref sig .tc .vmem S64 .f32) (harg6 : arg6.IsWhole) (arg7 : Memref sig .tc .vmem S1024x64 .f32) (harg7 : arg7.IsWhole) (arg8 : Memref sig .tc .vmem S1024x64 .f32) (harg8 : arg8.IsWhole) (arg9 : Memref sig .tc .vmem S1024x1 .f32) (harg9 : arg9.IsWhole) (hc0 : cond0 i) (hc1 : ¬cond1 i) (x0 : Vec F S1024x2048 .f32) (x1 : Vec F S2048x64 .f32) : Vec F S1024x1 .f32 :=
  VDeg.read (Elt F) (VDeg.writes (Elt F) VDeg.junk (kernelRun_A c i arg2 harg2 arg3 harg3 arg4 harg4 arg5 harg5 arg6 harg6 arg7 harg7 arg8 harg8 arg9 harg9 hc0 hc1 x0 x1).2.2.1)

/-- Case B's pieces for the neighbour-sum accumulator tile it, so they cover it. -/
theorem scover_B_0 (c : Dev nD) (i : grid0.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S128x64 .f32) (harg5 : arg5.IsWhole) (arg6 : Memref sig .tc .vmem S64 .f32) (harg6 : arg6.IsWhole) (arg7 : Memref sig .tc .vmem S1024x64 .f32) (harg7 : arg7.IsWhole) (arg8 : Memref sig .tc .vmem S1024x64 .f32) (harg8 : arg8.IsWhole) (arg9 : Memref sig .tc .vmem S1024x1 .f32) (harg9 : arg9.IsWhole) (hc0 : ¬cond0 i) (hc1 : ¬cond1 i) (x0 : Vec F S1024x2048 .f32) (x1 : Vec F S2048x64 .f32) (xs0 : Vec F S1024x64 .f32) (xs1 : Vec F S1024x1 .f32) (y : S1024x64.Idx) :
    ∃ pc ∈ (kernelRun_B c i arg2 harg2 arg3 harg3 arg4 harg4 arg5 harg5 arg6 harg6 arg7 harg7 arg8 harg8 arg9 harg9 hc0 hc1 x0 x1 xs0 xs1).2.1, y ∈ pc.1.set :=
  View.cover_of_tiledL (kernelRun_B c i arg2 harg2 arg3 harg3 arg4 harg4 arg5 harg5 arg6 harg6 arg7 harg7 arg8 harg8 arg9 harg9 hc0 hc1 x0 x1 xs0 xs1).2.1 S1024x64.size (by sl_kernel_rfl) y

/-- What case B leaves in the neighbour-sum accumulator: its pieces read back. -/
def sout_B_0 (c : Dev nD) (i : grid0.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S128x64 .f32) (harg5 : arg5.IsWhole) (arg6 : Memref sig .tc .vmem S64 .f32) (harg6 : arg6.IsWhole) (arg7 : Memref sig .tc .vmem S1024x64 .f32) (harg7 : arg7.IsWhole) (arg8 : Memref sig .tc .vmem S1024x64 .f32) (harg8 : arg8.IsWhole) (arg9 : Memref sig .tc .vmem S1024x1 .f32) (harg9 : arg9.IsWhole) (hc0 : ¬cond0 i) (hc1 : ¬cond1 i) (x0 : Vec F S1024x2048 .f32) (x1 : Vec F S2048x64 .f32) (xs0 : Vec F S1024x64 .f32) (xs1 : Vec F S1024x1 .f32) : Vec F S1024x64 .f32 :=
  VAcc.read (Elt F) (VAcc.writes (Elt F) VAcc.junk (kernelRun_B c i arg2 harg2 arg3 harg3 arg4 harg4 arg5 harg5 arg6 harg6 arg7 harg7 arg8 harg8 arg9 harg9 hc0 hc1 x0 x1 xs0 xs1).2.1)

/-- Case B's pieces for the degree accumulator tile it, so they cover it. -/
theorem scover_B_1 (c : Dev nD) (i : grid0.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S128x64 .f32) (harg5 : arg5.IsWhole) (arg6 : Memref sig .tc .vmem S64 .f32) (harg6 : arg6.IsWhole) (arg7 : Memref sig .tc .vmem S1024x64 .f32) (harg7 : arg7.IsWhole) (arg8 : Memref sig .tc .vmem S1024x64 .f32) (harg8 : arg8.IsWhole) (arg9 : Memref sig .tc .vmem S1024x1 .f32) (harg9 : arg9.IsWhole) (hc0 : ¬cond0 i) (hc1 : ¬cond1 i) (x0 : Vec F S1024x2048 .f32) (x1 : Vec F S2048x64 .f32) (xs0 : Vec F S1024x64 .f32) (xs1 : Vec F S1024x1 .f32) (y : S1024x1.Idx) :
    ∃ pc ∈ (kernelRun_B c i arg2 harg2 arg3 harg3 arg4 harg4 arg5 harg5 arg6 harg6 arg7 harg7 arg8 harg8 arg9 harg9 hc0 hc1 x0 x1 xs0 xs1).2.2.1, y ∈ pc.1.set :=
  View.cover_of_tiledL (kernelRun_B c i arg2 harg2 arg3 harg3 arg4 harg4 arg5 harg5 arg6 harg6 arg7 harg7 arg8 harg8 arg9 harg9 hc0 hc1 x0 x1 xs0 xs1).2.2.1 S1024x1.size (by sl_kernel_rfl) y

/-- What case B leaves in the degree accumulator: its pieces read back. -/
def sout_B_1 (c : Dev nD) (i : grid0.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S128x64 .f32) (harg5 : arg5.IsWhole) (arg6 : Memref sig .tc .vmem S64 .f32) (harg6 : arg6.IsWhole) (arg7 : Memref sig .tc .vmem S1024x64 .f32) (harg7 : arg7.IsWhole) (arg8 : Memref sig .tc .vmem S1024x64 .f32) (harg8 : arg8.IsWhole) (arg9 : Memref sig .tc .vmem S1024x1 .f32) (harg9 : arg9.IsWhole) (hc0 : ¬cond0 i) (hc1 : ¬cond1 i) (x0 : Vec F S1024x2048 .f32) (x1 : Vec F S2048x64 .f32) (xs0 : Vec F S1024x64 .f32) (xs1 : Vec F S1024x1 .f32) : Vec F S1024x1 .f32 :=
  VDeg.read (Elt F) (VDeg.writes (Elt F) VDeg.junk (kernelRun_B c i arg2 harg2 arg3 harg3 arg4 harg4 arg5 harg5 arg6 harg6 arg7 harg7 arg8 harg8 arg9 harg9 hc0 hc1 x0 x1 xs0 xs1).2.2.1)

/-- Case C's pieces for the neighbour-sum accumulator tile it, so they cover it. -/
theorem scover_C_0 (c : Dev nD) (i : grid0.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S128x64 .f32) (harg5 : arg5.IsWhole) (arg6 : Memref sig .tc .vmem S64 .f32) (harg6 : arg6.IsWhole) (arg7 : Memref sig .tc .vmem S1024x64 .f32) (harg7 : arg7.IsWhole) (arg8 : Memref sig .tc .vmem S1024x64 .f32) (harg8 : arg8.IsWhole) (arg9 : Memref sig .tc .vmem S1024x1 .f32) (harg9 : arg9.IsWhole) (hc0 : ¬cond0 i) (hc1 : cond1 i) (x0 : Vec F S1024x2048 .f32) (x1 : Vec F S2048x64 .f32) (x2 : Vec F S1024x64 .f32) (x3 : Vec F S128x64 .f32) (x4 : Vec F S64 .f32) (xs0 : Vec F S1024x64 .f32) (xs1 : Vec F S1024x1 .f32) (y : S1024x64.Idx) :
    ∃ pc ∈ (kernelRun_C c i arg2 harg2 arg3 harg3 arg4 harg4 arg5 harg5 arg6 harg6 arg7 harg7 arg8 harg8 arg9 harg9 hc0 hc1 x0 x1 x2 x3 x4 xs0 xs1).2.1, y ∈ pc.1.set :=
  View.cover_of_tiledL (kernelRun_C c i arg2 harg2 arg3 harg3 arg4 harg4 arg5 harg5 arg6 harg6 arg7 harg7 arg8 harg8 arg9 harg9 hc0 hc1 x0 x1 x2 x3 x4 xs0 xs1).2.1 S1024x64.size (by sl_kernel_rfl) y

/-- What case C leaves in the neighbour-sum accumulator: its pieces read back. -/
def sout_C_0 (c : Dev nD) (i : grid0.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S128x64 .f32) (harg5 : arg5.IsWhole) (arg6 : Memref sig .tc .vmem S64 .f32) (harg6 : arg6.IsWhole) (arg7 : Memref sig .tc .vmem S1024x64 .f32) (harg7 : arg7.IsWhole) (arg8 : Memref sig .tc .vmem S1024x64 .f32) (harg8 : arg8.IsWhole) (arg9 : Memref sig .tc .vmem S1024x1 .f32) (harg9 : arg9.IsWhole) (hc0 : ¬cond0 i) (hc1 : cond1 i) (x0 : Vec F S1024x2048 .f32) (x1 : Vec F S2048x64 .f32) (x2 : Vec F S1024x64 .f32) (x3 : Vec F S128x64 .f32) (x4 : Vec F S64 .f32) (xs0 : Vec F S1024x64 .f32) (xs1 : Vec F S1024x1 .f32) : Vec F S1024x64 .f32 :=
  VAcc.read (Elt F) (VAcc.writes (Elt F) VAcc.junk (kernelRun_C c i arg2 harg2 arg3 harg3 arg4 harg4 arg5 harg5 arg6 harg6 arg7 harg7 arg8 harg8 arg9 harg9 hc0 hc1 x0 x1 x2 x3 x4 xs0 xs1).2.1)

/-- Case C's pieces for the degree accumulator tile it, so they cover it. -/
theorem scover_C_1 (c : Dev nD) (i : grid0.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S128x64 .f32) (harg5 : arg5.IsWhole) (arg6 : Memref sig .tc .vmem S64 .f32) (harg6 : arg6.IsWhole) (arg7 : Memref sig .tc .vmem S1024x64 .f32) (harg7 : arg7.IsWhole) (arg8 : Memref sig .tc .vmem S1024x64 .f32) (harg8 : arg8.IsWhole) (arg9 : Memref sig .tc .vmem S1024x1 .f32) (harg9 : arg9.IsWhole) (hc0 : ¬cond0 i) (hc1 : cond1 i) (x0 : Vec F S1024x2048 .f32) (x1 : Vec F S2048x64 .f32) (x2 : Vec F S1024x64 .f32) (x3 : Vec F S128x64 .f32) (x4 : Vec F S64 .f32) (xs0 : Vec F S1024x64 .f32) (xs1 : Vec F S1024x1 .f32) (y : S1024x1.Idx) :
    ∃ pc ∈ (kernelRun_C c i arg2 harg2 arg3 harg3 arg4 harg4 arg5 harg5 arg6 harg6 arg7 harg7 arg8 harg8 arg9 harg9 hc0 hc1 x0 x1 x2 x3 x4 xs0 xs1).2.2.1, y ∈ pc.1.set :=
  View.cover_of_tiledL (kernelRun_C c i arg2 harg2 arg3 harg3 arg4 harg4 arg5 harg5 arg6 harg6 arg7 harg7 arg8 harg8 arg9 harg9 hc0 hc1 x0 x1 x2 x3 x4 xs0 xs1).2.2.1 S1024x1.size (by sl_kernel_rfl) y

/-- What case C leaves in the degree accumulator: its pieces read back. -/
def sout_C_1 (c : Dev nD) (i : grid0.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S128x64 .f32) (harg5 : arg5.IsWhole) (arg6 : Memref sig .tc .vmem S64 .f32) (harg6 : arg6.IsWhole) (arg7 : Memref sig .tc .vmem S1024x64 .f32) (harg7 : arg7.IsWhole) (arg8 : Memref sig .tc .vmem S1024x64 .f32) (harg8 : arg8.IsWhole) (arg9 : Memref sig .tc .vmem S1024x1 .f32) (harg9 : arg9.IsWhole) (hc0 : ¬cond0 i) (hc1 : cond1 i) (x0 : Vec F S1024x2048 .f32) (x1 : Vec F S2048x64 .f32) (x2 : Vec F S1024x64 .f32) (x3 : Vec F S128x64 .f32) (x4 : Vec F S64 .f32) (xs0 : Vec F S1024x64 .f32) (xs1 : Vec F S1024x1 .f32) : Vec F S1024x1 .f32 :=
  VDeg.read (Elt F) (VDeg.writes (Elt F) VDeg.junk (kernelRun_C c i arg2 harg2 arg3 harg3 arg4 harg4 arg5 harg5 arg6 harg6 arg7 harg7 arg8 harg8 arg9 harg9 hc0 hc1 x0 x1 x2 x3 x4 xs0 xs1).2.2.1)

/-- Case C's one store into the output window covers its block. -/
theorem cover_C_5 (c : Dev nD) (i : grid0.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S128x64 .f32) (harg5 : arg5.IsWhole) (arg6 : Memref sig .tc .vmem S64 .f32) (harg6 : arg6.IsWhole) (arg7 : Memref sig .tc .vmem S1024x64 .f32) (harg7 : arg7.IsWhole) (arg8 : Memref sig .tc .vmem S1024x64 .f32) (harg8 : arg8.IsWhole) (arg9 : Memref sig .tc .vmem S1024x1 .f32) (harg9 : arg9.IsWhole) (hc0 : ¬cond0 i) (hc1 : cond1 i) (x0 : Vec F S1024x2048 .f32) (x1 : Vec F S2048x64 .f32) (x2 : Vec F S1024x64 .f32) (x3 : Vec F S128x64 .f32) (x4 : Vec F S64 .f32) (xs0 : Vec F S1024x64 .f32) (xs1 : Vec F S1024x1 .f32) (y : S1024x64.Idx) :
    ∃ pc ∈ (kernelRun_C c i arg2 harg2 arg3 harg3 arg4 harg4 arg5 harg5 arg6 harg6 arg7 harg7 arg8 harg8 arg9 harg9 hc0 hc1 x0 x1 x2 x3 x4 xs0 xs1).1, y ∈ pc.1.set :=
  View.cover_of_tiledL (kernelRun_C c i arg2 harg2 arg3 harg3 arg4 harg4 arg5 harg5 arg6 harg6 arg7 harg7 arg8 harg8 arg9 harg9 hc0 hc1 x0 x1 x2 x3 x4 xs0 xs1).1 S1024x64.size (by sl_kernel_rfl) y

/-- What case C leaves in the output window's staging buffer: its pieces read back. -/
def out_C_5 (c : Dev nD) (i : grid0.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S128x64 .f32) (harg5 : arg5.IsWhole) (arg6 : Memref sig .tc .vmem S64 .f32) (harg6 : arg6.IsWhole) (arg7 : Memref sig .tc .vmem S1024x64 .f32) (harg7 : arg7.IsWhole) (arg8 : Memref sig .tc .vmem S1024x64 .f32) (harg8 : arg8.IsWhole) (arg9 : Memref sig .tc .vmem S1024x1 .f32) (harg9 : arg9.IsWhole) (hc0 : ¬cond0 i) (hc1 : cond1 i) (x0 : Vec F S1024x2048 .f32) (x1 : Vec F S2048x64 .f32) (x2 : Vec F S1024x64 .f32) (x3 : Vec F S128x64 .f32) (x4 : Vec F S64 .f32) (xs0 : Vec F S1024x64 .f32) (xs1 : Vec F S1024x1 .f32) : Vec F S1024x64 .f32 :=
  VO.read (Elt F) (VO.writes (Elt F) VO.junk (kernelRun_C c i arg2 harg2 arg3 harg3 arg4 harg4 arg5 harg5 arg6 harg6 arg7 harg7 arg8 harg8 arg9 harg9 hc0 hc1 x0 x1 x2 x3 x4 xs0 xs1).1)

/-- At the other points nothing is stored into the output window; a placeholder nothing consults (the window is
    idle there and not written back). -/
def out_idle : Vec F S1024x64 .f32 := VO.read (Elt F) VO.junk

/-! ## What the output window and the two accumulators hold after each point -/

/-- What the output window's staging buffer, the neighbour-sum accumulator and the degree accumulator hold after the body
    at position `n`: the case the position's column block selects, run at the point's memrefs and blocks, over what
    the accumulators held after the position before. -/
def outsAt (c : Dev nD) : (n : ℕ) → n < cfg0.N → Vec F S1024x64 .f32 × Vec F S1024x64 .f32 × Vec F S1024x1 .f32
  | 0, hn => (out_idle, sout_A_0 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) scAcc (Memref.isWhole_whole _) scDeg (Memref.isWhole_whole _) ((hcond0 ⟨0, hn⟩).mpr (Nat.zero_mod _)) (fun h => (fun h => by (try dsimp only at h); omega) ((hcond1 ⟨0, hn⟩).mp h)) (iblk m c 0 ⟨0, hn⟩) (iblk m c 1 ⟨0, hn⟩), sout_A_1 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) scAcc (Memref.isWhole_whole _) scDeg (Memref.isWhole_whole _) ((hcond0 ⟨0, hn⟩).mpr (Nat.zero_mod _)) (fun h => (fun h => by (try dsimp only at h); omega) ((hcond1 ⟨0, hn⟩).mp h)) (iblk m c 0 ⟨0, hn⟩) (iblk m c 1 ⟨0, hn⟩))
  | n + 1, hn =>
    if h0 : (n + 1) % 8 = 0 then
      (out_idle, sout_A_0 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) scAcc (Memref.isWhole_whole _) scDeg (Memref.isWhole_whole _) ((hcond0 ⟨n + 1, hn⟩).mpr h0) (fun h => (fun h7 => by (try dsimp only at h7); omega) ((hcond1 ⟨n + 1, hn⟩).mp h)) (iblk m c 0 ⟨n + 1, hn⟩) (iblk m c 1 ⟨n + 1, hn⟩), sout_A_1 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) scAcc (Memref.isWhole_whole _) scDeg (Memref.isWhole_whole _) ((hcond0 ⟨n + 1, hn⟩).mpr h0) (fun h => (fun h7 => by (try dsimp only at h7); omega) ((hcond1 ⟨n + 1, hn⟩).mp h)) (iblk m c 0 ⟨n + 1, hn⟩) (iblk m c 1 ⟨n + 1, hn⟩))
    else
      if h1 : (n + 1) % 8 = 7 then
        (out_C_5 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) scAcc (Memref.isWhole_whole _) scDeg (Memref.isWhole_whole _) (fun h => h0 ((hcond0 ⟨n + 1, hn⟩).mp h)) ((hcond1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt c n (Nat.lt_of_succ_lt hn)).2.1 (outsAt c n (Nat.lt_of_succ_lt hn)).2.2, sout_C_0 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) scAcc (Memref.isWhole_whole _) scDeg (Memref.isWhole_whole _) (fun h => h0 ((hcond0 ⟨n + 1, hn⟩).mp h)) ((hcond1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt c n (Nat.lt_of_succ_lt hn)).2.1 (outsAt c n (Nat.lt_of_succ_lt hn)).2.2, sout_C_1 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) scAcc (Memref.isWhole_whole _) scDeg (Memref.isWhole_whole _) (fun h => h0 ((hcond0 ⟨n + 1, hn⟩).mp h)) ((hcond1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt c n (Nat.lt_of_succ_lt hn)).2.1 (outsAt c n (Nat.lt_of_succ_lt hn)).2.2)
      else
        (out_idle, sout_B_0 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) scAcc (Memref.isWhole_whole _) scDeg (Memref.isWhole_whole _) (fun h => h0 ((hcond0 ⟨n + 1, hn⟩).mp h)) (fun h => h1 ((hcond1 ⟨n + 1, hn⟩).mp h)) (iblk m c 0 ⟨n + 1, hn⟩) (iblk m c 1 ⟨n + 1, hn⟩) (outsAt c n (Nat.lt_of_succ_lt hn)).2.1 (outsAt c n (Nat.lt_of_succ_lt hn)).2.2, sout_B_1 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) scAcc (Memref.isWhole_whole _) scDeg (Memref.isWhole_whole _) (fun h => h0 ((hcond0 ⟨n + 1, hn⟩).mp h)) (fun h => h1 ((hcond1 ⟨n + 1, hn⟩).mp h)) (iblk m c 0 ⟨n + 1, hn⟩) (iblk m c 1 ⟨n + 1, hn⟩) (outsAt c n (Nat.lt_of_succ_lt hn)).2.1 (outsAt c n (Nat.lt_of_succ_lt hn)).2.2)

/-- `outsAt` at a point of column block 0. -/
theorem outsAt_A (c : Dev nD) (t : Fin cfg0.N) (h0 : t.val % 8 = 0) (h1 : ¬t.val % 8 = 7) :
    outsAt m c t.val t.isLt = (out_idle, sout_A_0 c (grid0.coords t) (ms0 t) (hs0 t) (ms1 t) (hs1 t) (ms2 t) (hs2 t) (ms3 t) (hs3 t) (ms4 t) (hs4 t) (ms5 t) (hs5 t) scAcc (Memref.isWhole_whole _) scDeg (Memref.isWhole_whole _) ((hcond0 t).mpr h0) (fun h => h1 ((hcond1 t).mp h)) (iblk m c 0 t) (iblk m c 1 t), sout_A_1 c (grid0.coords t) (ms0 t) (hs0 t) (ms1 t) (hs1 t) (ms2 t) (hs2 t) (ms3 t) (hs3 t) (ms4 t) (hs4 t) (ms5 t) (hs5 t) scAcc (Memref.isWhole_whole _) scDeg (Memref.isWhole_whole _) ((hcond0 t).mpr h0) (fun h => h1 ((hcond1 t).mp h)) (iblk m c 0 t) (iblk m c 1 t)) := by
  obtain ⟨n, hn⟩ := t
  cases n with
  | zero => exact rfl
  | succ n => exact (dif_pos h0).trans rfl

/-- `outsAt` at a point of a middle column block, over what the point before left. -/
theorem outsAt_B (c : Dev nD) (t : Fin cfg0.N) (h0 : ¬t.val % 8 = 0) (h1 : ¬t.val % 8 = 7) :
    outsAt m c t.val t.isLt = (out_idle, sout_B_0 c (grid0.coords t) (ms0 t) (hs0 t) (ms1 t) (hs1 t) (ms2 t) (hs2 t) (ms3 t) (hs3 t) (ms4 t) (hs4 t) (ms5 t) (hs5 t) scAcc (Memref.isWhole_whole _) scDeg (Memref.isWhole_whole _) (fun h => h0 ((hcond0 t).mp h)) (fun h => h1 ((hcond1 t).mp h)) (iblk m c 0 t) (iblk m c 1 t) (outsAt m c (t.val - 1) (Nat.lt_of_le_of_lt (Nat.sub_le _ _) t.isLt)).2.1 (outsAt m c (t.val - 1) (Nat.lt_of_le_of_lt (Nat.sub_le _ _) t.isLt)).2.2, sout_B_1 c (grid0.coords t) (ms0 t) (hs0 t) (ms1 t) (hs1 t) (ms2 t) (hs2 t) (ms3 t) (hs3 t) (ms4 t) (hs4 t) (ms5 t) (hs5 t) scAcc (Memref.isWhole_whole _) scDeg (Memref.isWhole_whole _) (fun h => h0 ((hcond0 t).mp h)) (fun h => h1 ((hcond1 t).mp h)) (iblk m c 0 t) (iblk m c 1 t) (outsAt m c (t.val - 1) (Nat.lt_of_le_of_lt (Nat.sub_le _ _) t.isLt)).2.1 (outsAt m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- `outsAt` at a point of the last column block, over what the point before left. -/
theorem outsAt_C (c : Dev nD) (t : Fin cfg0.N) (h0 : ¬t.val % 8 = 0) (h1 : t.val % 8 = 7) :
    outsAt m c t.val t.isLt = (out_C_5 c (grid0.coords t) (ms0 t) (hs0 t) (ms1 t) (hs1 t) (ms2 t) (hs2 t) (ms3 t) (hs3 t) (ms4 t) (hs4 t) (ms5 t) (hs5 t) scAcc (Memref.isWhole_whole _) scDeg (Memref.isWhole_whole _) (fun h => h0 ((hcond0 t).mp h)) ((hcond1 t).mpr h1) (iblk m c 0 t) (iblk m c 1 t) (iblk m c 2 t) (iblk m c 3 t) (iblk m c 4 t) (outsAt m c (t.val - 1) (Nat.lt_of_le_of_lt (Nat.sub_le _ _) t.isLt)).2.1 (outsAt m c (t.val - 1) (Nat.lt_of_le_of_lt (Nat.sub_le _ _) t.isLt)).2.2, sout_C_0 c (grid0.coords t) (ms0 t) (hs0 t) (ms1 t) (hs1 t) (ms2 t) (hs2 t) (ms3 t) (hs3 t) (ms4 t) (hs4 t) (ms5 t) (hs5 t) scAcc (Memref.isWhole_whole _) scDeg (Memref.isWhole_whole _) (fun h => h0 ((hcond0 t).mp h)) ((hcond1 t).mpr h1) (iblk m c 0 t) (iblk m c 1 t) (iblk m c 2 t) (iblk m c 3 t) (iblk m c 4 t) (outsAt m c (t.val - 1) (Nat.lt_of_le_of_lt (Nat.sub_le _ _) t.isLt)).2.1 (outsAt m c (t.val - 1) (Nat.lt_of_le_of_lt (Nat.sub_le _ _) t.isLt)).2.2, sout_C_1 c (grid0.coords t) (ms0 t) (hs0 t) (ms1 t) (hs1 t) (ms2 t) (hs2 t) (ms3 t) (hs3 t) (ms4 t) (hs4 t) (ms5 t) (hs5 t) scAcc (Memref.isWhole_whole _) scDeg (Memref.isWhole_whole _) (fun h => h0 ((hcond0 t).mp h)) ((hcond1 t).mpr h1) (iblk m c 0 t) (iblk m c 1 t) (iblk m c 2 t) (iblk m c 3 t) (iblk m c 4 t) (outsAt m c (t.val - 1) (Nat.lt_of_le_of_lt (Nat.sub_le _ _) t.isLt)).2.1 (outsAt m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the two accumulators at anything; afterwards each
    at what the point before left in it. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => iprop(owns (c : Thread nD τ) scAcc fullShare ((outsAt m c n hn).2.1) ∗ owns (c : Thread nD τ) scDeg fullShare ((outsAt m c n hn).2.2))

theorem PhiS_zero (c : Dev nD) (n : ℕ) (h : n ≤ cfg0.N) (hz : n = 0) :
    PhiS m c n h = Pipeline.scopedRest (Ix := Unit) (Name := ℕ) (U := UR sig nD τ) (Lvl := ℕ) (Val := Elt F) spec0 c := by
  subst hz; rfl

theorem PhiS_succ (c : Dev nD) (n : ℕ) (hn : n < cfg0.N) :
    PhiS m c (n + 1) hn = iprop(owns (c : Thread nD τ) scAcc fullShare ((outsAt m c n hn).2.1) ∗ owns (c : Thread nD τ) scDeg fullShare ((outsAt m c n hn).2.2)) := rfl

theorem PhiS_pos (c : Dev nD) (n : ℕ) (h : n ≤ cfg0.N) (hz : n ≠ 0) :
    PhiS m c n h = iprop(owns (c : Thread nD τ) scAcc fullShare ((outsAt m c (n - 1) (by omega)).2.1) ∗ owns (c : Thread nD τ) scDeg fullShare ((outsAt m c (n - 1) (by omega)).2.2)) := by
  cases n with
  | zero => exact absurd rfl hz
  | succ n => rfl

/-! ## The pipeline's proof data -/

/-- The proof data on core `c`: the arrays as the region finds them; after the body each input's buffer at its block and
    the output's at `outsAt`; the invariant `PhiS`; nothing owed. The node features are read through two windows, which
    hold the two halves of that array's share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt m c t.val t.isLt).1
  Φ t := PhiS m c t.val (Nat.le_of_lt_succ t.isLt)
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = (outsAt m c t.val t.isLt).1 := by dsimp only [dats]

theorem before0 (c : Dev nD) (t : Fin cfg0.N) (d) : (dats m 0 c).before 0 t d = iblk m c 0 t := before0_of m (dats m 0 c) (A_eq m c 0) (after0 m c) t d
theorem before1 (c : Dev nD) (t : Fin cfg0.N) (d) : (dats m 0 c).before 1 t d = iblk m c 1 t := before1_of m (dats m 0 c) (A_eq m c 1) (after1 m c) t d
theorem before2 (c : Dev nD) (t : Fin cfg0.N) (d) : (dats m 0 c).before 2 t d = iblk m c 2 t := before2_of m (dats m 0 c) (A_eq m c 2) (after2 m c) t d
theorem before3 (c : Dev nD) (t : Fin cfg0.N) (d) : (dats m 0 c).before 3 t d = iblk m c 3 t := before3_of m (dats m 0 c) (A_eq m c 3) (after3 m c) t d
theorem before4 (c : Dev nD) (t : Fin cfg0.N) (d) : (dats m 0 c).before 4 t d = iblk m c 4 t := before4_of m (dats m 0 c) (A_eq m c 4) (after4 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 8000000 in
/-- The body at any point: the inputs' memrefs hold their blocks; the column block says which case the point is in;
    the invariant hands the body the two accumulators at what the point before left (at anything at the first
    point) and takes them back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt (show cfg0.N = 128 from N_0)
  rw [show (dats m 0 c).leavesExact 0 t = owns (c : Thread nD τ) (ms0 t) fullShare ((dats m 0 c).after 0 t) from by
    unfold Dat.leavesExact; rw [live0 (grid0.coords t)], after0]
  rw [show (dats m 0 c).leavesExact 1 t = owns (c : Thread nD τ) (ms1 t) fullShare ((dats m 0 c).after 1 t) from by
    unfold Dat.leavesExact; rw [live1 (grid0.coords t)], after1]
  rw [show (dats m 0 c).leavesExact 2 t = owns (c : Thread nD τ) (ms2 t) fullShare ((dats m 0 c).after 2 t) from by
    unfold Dat.leavesExact; rw [live2 (grid0.coords t)], after2]
  rw [show (dats m 0 c).leavesExact 3 t = owns (c : Thread nD τ) (ms3 t) fullShare ((dats m 0 c).after 3 t) from by
    unfold Dat.leavesExact; rw [live3 (grid0.coords t)], after3]
  rw [show (dats m 0 c).leavesExact 4 t = owns (c : Thread nD τ) (ms4 t) fullShare ((dats m 0 c).after 4 t) from by
    unfold Dat.leavesExact; rw [live4 (grid0.coords t)], after4]
  by_cases h0 : t.val % 8 = 0
  · have h1 : ¬t.val % 8 = 7 := by omega
    rw [Dat.leavesExact_idle (dats m 0 c) 5 t (idle5 t (fun h => h1 ((hcond1 t).mp h))) (noFlush5 t (fun h => h1 ((hcond1 t).mp h)))]
    rw [outsAt_A m c t h0 h1]
    unfold sout_A_0 sout_A_1; (try dsimp only)
    by_cases hz : t.val = 0
    · rw [PhiS_castSucc m c t, PhiS_zero m c _ _ hz, scoped_eq]
      iintro ⟨⟨HS0, HS1⟩, Ho, ⟨%d0, H0⟩, ⟨%d1, H1⟩, ⟨%d2, H2⟩, ⟨%d3, H3⟩, ⟨%d4, H4⟩, ⟨%d5, H5⟩⟩
      iapply ((kernelRun_A c (grid0.coords t) _ _ _ _ _ _ _ _ _ _ _ _ _ _ _ _ ((hcond0 t).mpr h0) (fun h => h1 ((hcond1 t).mp h)) (iblk m c 0 t) (iblk m c 1 t)).2.2.2 Set.univ _)
      isplitl [H0]; · iexact H0
      isplitl [H1]; · iexact H1
      isplitl [HS0]; · iexact HS0
      isplitl [HS1]; · iexact HS1
      iintro ⟨H0, H1, ⟨%es0, HS0⟩, ⟨%es1, HS1⟩⟩
      isplitl [HS0 HS1]
      · isplitl [HS0]
        · unfold owns; iexists _; isplitr
          swap; · iexact HS0
          ipureintro; exact View.read_writes_of_cover _ _ _ _ _ (scover_A_0 c _ _ _ _ _ _ _ _ _ _ _ _ _ _ _ _ _ _ _ _ _)
        · unfold owns; iexists _; isplitr
          swap; · iexact HS1
          ipureintro; exact View.read_writes_of_cover _ _ _ _ _ (scover_A_1 c _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS_castSucc m c t, PhiS_pos m c _ _ hz]
      iintro ⟨⟨HS0, HS1⟩, Ho, ⟨%d0, H0⟩, ⟨%d1, H1⟩, ⟨%d2, H2⟩, ⟨%d3, H3⟩, ⟨%d4, H4⟩, ⟨%d5, H5⟩⟩
      iapply ((kernelRun_A c (grid0.coords t) _ _ _ _ _ _ _ _ _ _ _ _ _ _ _ _ ((hcond0 t).mpr h0) (fun h => h1 ((hcond1 t).mp h)) (iblk m c 0 t) (iblk m c 1 t)).2.2.2 Set.univ _)
      isplitl [H0]; · iexact H0
      isplitl [H1]; · iexact H1
      isplitl [HS0]; · iexists _; iexact HS0
      isplitl [HS1]; · iexists _; iexact HS1
      iintro ⟨H0, H1, ⟨%es0, HS0⟩, ⟨%es1, HS1⟩⟩
      isplitl [HS0 HS1]
      · isplitl [HS0]
        · unfold owns; iexists _; isplitr
          swap; · iexact HS0
          ipureintro; exact View.read_writes_of_cover _ _ _ _ _ (scover_A_0 c _ _ _ _ _ _ _ _ _ _ _ _ _ _ _ _ _ _ _ _ _)
        · unfold owns; iexists _; isplitr
          swap; · iexact HS1
          ipureintro; exact View.read_writes_of_cover _ _ _ _ _ (scover_A_1 c _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := fun h => h0 (by rw [h])
    by_cases h1 : t.val % 8 = 7
    · rw [show (dats m 0 c).leavesExact 5 t = owns (c : Thread nD τ) (ms5 t) fullShare ((dats m 0 c).after 5 t) from by
        unfold Dat.leavesExact; rw [live5 t ((hcond1 t).mpr h1)], after5]
      rw [outsAt_C m c t h0 h1]
      unfold out_C_5 sout_C_0 sout_C_1; (try dsimp only)
      rw [PhiS_castSucc m c t, PhiS_pos m c _ _ hz]
      iintro ⟨⟨HS0, HS1⟩, Ho, ⟨%d0, H0⟩, ⟨%d1, H1⟩, ⟨%d2, H2⟩, ⟨%d3, H3⟩, ⟨%d4, H4⟩, ⟨%d5, H5⟩⟩
      iapply ((kernelRun_C c (grid0.coords t) _ _ _ _ _ _ _ _ _ _ _ _ _ _ _ _ (fun h => h0 ((hcond0 t).mp h)) ((hcond1 t).mpr h1) (iblk m c 0 t) (iblk m c 1 t) (iblk m c 2 t) (iblk m c 3 t) (iblk m c 4 t) _ _).2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      iintro ⟨H0, H1, H2, H3, H4, ⟨%e5, H5⟩, ⟨%es0, HS0⟩, ⟨%es1, HS1⟩⟩
      isplitl [HS0 HS1]
      · isplitl [HS0]
        · unfold owns; iexists _; isplitr
          swap; · iexact HS0
          ipureintro; exact View.read_writes_of_cover _ _ _ _ _ (scover_C_0 c _ _ _ _ _ _ _ _ _ _ _ _ _ _ _ _ _ _ _ _ _ _ _ _ _ _)
        · unfold owns; iexists _; isplitr
          swap; · iexact HS1
          ipureintro; exact View.read_writes_of_cover _ _ _ _ _ (scover_C_1 c _ _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover_C_5 c _ _ _ _ _ _ _ _ _ _ _ _ _ _ _ _ _ _ _ _ _ _ _ _ _ _)
    · rw [Dat.leavesExact_idle (dats m 0 c) 5 t (idle5 t (fun h => h1 ((hcond1 t).mp h))) (noFlush5 t (fun h => h1 ((hcond1 t).mp h)))]
      rw [outsAt_B m c t h0 h1]
      unfold sout_B_0 sout_B_1; (try dsimp only)
      rw [PhiS_castSucc m c t, PhiS_pos m c _ _ hz]
      iintro ⟨⟨HS0, HS1⟩, Ho, ⟨%d0, H0⟩, ⟨%d1, H1⟩, ⟨%d2, H2⟩, ⟨%d3, H3⟩, ⟨%d4, H4⟩, ⟨%d5, H5⟩⟩
      iapply ((kernelRun_B c (grid0.coords t) _ _ _ _ _ _ _ _ _ _ _ _ _ _ _ _ (fun h => h0 ((hcond0 t).mp h)) (fun h => h1 ((hcond1 t).mp h)) (iblk m c 0 t) (iblk m c 1 t) _ _).2.2.2 Set.univ _)
      isplitl [H0]; · iexact H0
      isplitl [H1]; · iexact H1
      isplitl [HS0]; · iexact HS0
      isplitl [HS1]; · iexact HS1
      iintro ⟨H0, H1, ⟨%es0, HS0⟩, ⟨%es1, HS1⟩⟩
      isplitl [HS0 HS1]
      · isplitl [HS0]
        · unfold owns; iexists _; isplitr
          swap; · iexact HS0
          ipureintro; exact View.read_writes_of_cover _ _ _ _ _ (scover_B_0 c _ _ _ _ _ _ _ _ _ _ _ _ _ _ _ _ _ _ _ _ _ _ _)
        · unfold owns; iexists _; isplitr
          swap; · iexact HS1
          ipureintro; exact View.read_writes_of_cover _ _ _ _ _ (scover_B_1 c _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) :
    iprop((BI.emp : sProp 𝕄) ∗ Pipeline.scopedRest (Ix := Unit) (Name := ℕ) (U := UR sig nD τ) (Lvl := ℕ) (Val := Elt F) spec0 c) ⊢ (dats m 0 c).Φ 0 := by
  rw [show (dats m 0 c).Φ 0 = PhiS m c 0 (Nat.zero_le _) from rfl, PhiS_zero m c 0 _ rfl]
  iintro ⟨-, H⟩; iexact H

/-- After the last point the invariant gives the two accumulators back, their contents forgotten. -/
theorem hout (c : Dev nD) :
    (dats m 0 c).Φ (Fin.last cfg0.N) ⊢ iprop((BI.emp : sProp 𝕄) ∗ Pipeline.scopedRest (Ix := Unit) (Name := ℕ) (U := UR sig nD τ) (Lvl := ℕ) (Val := Elt F) spec0 c) := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 128 := N_0; omega), scoped_eq]
  iintro ⟨HS0, HS1⟩
  isplitr; · iempintro
  isplitl [HS0]
  · iexists _; iexact HS0
  · iexists _; iexact HS1

end Cert.Kernel.Hand

end
-- ==== Proof.KB.Region.lean ====
/-
  The launch of the one region. The launch deals each array's buffer whole; the node features, read through two
  windows, are split into the two halves of their share, one per window. The run ends with every array at what the
  pipeline's write-backs leave: an input array as it was, the result array at its entry contents overwritten, row
  block by row block, by what the body stored at the last column block of each.
-/
import proofs.«142667_j78451872628893_1_alg».proof.Proof.KB.Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers behind the windows' arrays, each whole, are the pipeline's arrays at their shares: the node
    features' buffer split between its two windows. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  have e0 : ((cfg0.win 0).arr.view.loc (c.tc : Thread nD τ) ↦[(cfg0.win 0).arr.view.set]{(dats m 0 c).share 0} (dats m 0 c).arrAt 0 0 : sProp 𝕄)
      = ((c.tc : Thread nD τ).loc main_arg1 ↦{fullShare} V m c main_arg1) := by rw [(arr_whole0 0).set_eq_univ]; rfl
  have e1 : ((cfg0.win 1).arr.view.loc (c.tc : Thread nD τ) ↦[(cfg0.win 1).arr.view.set]{(dats m 0 c).share 1} (dats m 0 c).arrAt 1 0 : sProp 𝕄)
      = ((c.tc : Thread nD τ).loc main_arg0 ↦{fullShare.left} V m c main_arg0) := by rw [(arr_whole0 1).set_eq_univ]; rfl
  have e2 : ((cfg0.win 2).arr.view.loc (c.tc : Thread nD τ) ↦[(cfg0.win 2).arr.view.set]{(dats m 0 c).share 2} (dats m 0 c).arrAt 2 0 : sProp 𝕄)
      = ((c.tc : Thread nD τ).loc main_arg0 ↦{fullShare.right} V m c main_arg0) := by rw [(arr_whole0 2).set_eq_univ]; rfl
  have e3 : ((cfg0.win 3).arr.view.loc (c.tc : Thread nD τ) ↦[(cfg0.win 3).arr.view.set]{(dats m 0 c).share 3} (dats m 0 c).arrAt 3 0 : sProp 𝕄)
      = ((c.tc : Thread nD τ).loc main_arg2 ↦{fullShare} V m c main_arg2) := by rw [(arr_whole0 3).set_eq_univ]; rfl
  have e4 : ((cfg0.win 4).arr.view.loc (c.tc : Thread nD τ) ↦[(cfg0.win 4).arr.view.set]{(dats m 0 c).share 4} (dats m 0 c).arrAt 4 0 : sProp 𝕄)
      = ((c.tc : Thread nD τ).loc main_arg3 ↦{fullShare} V m c main_arg3) := by rw [(arr_whole0 4).set_eq_univ]; rfl
  have e5 : ((cfg0.win 5).arr.view.loc (c.tc : Thread nD τ) ↦[(cfg0.win 5).arr.view.set]{(dats m 0 c).share 5} (dats m 0 c).arrAt 5 0 : sProp 𝕄)
      = ((c.tc : Thread nD τ).loc main_v0 ↦{fullShare} V m c main_v0) := by rw [(arr_whole0 5).set_eq_univ]; rfl
  unfold Pipeline.arrBufs Dat.arrays
  rw [bigSep_eq_bigSepL_of_eq [main_arg1, main_arg0, main_arg2, main_arg3, main_v0] (by decide) (by decide), bigSep_W0]
  rw [e0, e1, e2, e3, e4, e5]
  show (iprop(((c.tc : Thread nD τ).loc main_arg1 ↦{fullShare} V m c main_arg1) ∗ ((c.tc : Thread nD τ).loc main_arg0 ↦{fullShare} V m c main_arg0) ∗ ((c.tc : Thread nD τ).loc main_arg2 ↦{fullShare} V m c main_arg2) ∗ ((c.tc : Thread nD τ).loc main_arg3 ↦{fullShare} V m c main_arg3) ∗ ((c.tc : Thread nD τ).loc main_v0 ↦{fullShare} V m c main_v0)) : sProp 𝕄)
    ⊢ iprop(((c.tc : Thread nD τ).loc main_arg1 ↦{fullShare} V m c main_arg1) ∗ ((c.tc : Thread nD τ).loc main_arg0 ↦{fullShare.left} V m c main_arg0) ∗ ((c.tc : Thread nD τ).loc main_arg0 ↦{fullShare.right} V m c main_arg0) ∗ ((c.tc : Thread nD τ).loc main_arg2 ↦{fullShare} V m c main_arg2) ∗ ((c.tc : Thread nD τ).loc main_arg3 ↦{fullShare} V m c main_arg3) ∗ ((c.tc : Thread nD τ).loc main_v0 ↦{fullShare} V m c main_v0))
  iintro ⟨H1, H0, H2, H3, H5⟩
  ihave H0 := (pointsTo_share (PosShare.mem_left_op_right fullShare)).1 $$ H0
  icases H0 with ⟨H0l, H0r⟩
  isplitl [H1]; · iexact H1
  isplitl [H0l]; · iexact H0l
  isplitl [H0r]; · iexact H0r
  isplitl [H2]; · iexact H2
  isplitl [H3]; · iexact H3
  iexact H5

set_option backward.isDefEq.respectTransparency.types false in
/-- From any memory with zero counters every weakly fair execution of @main terminates, and every final state has
    every array of the pipeline at what the write-backs leave of it. -/
theorem run_main : θ_run defs (onTc (τ := τ) (main (F := F))) ⟨m, fun _ => 0, ρ⟩ (fun r => ∀ c : Dev nD,
      ∀ w, r.2.mem (((cfgs 0).spec w).arr.view.loc (c.tc : Thread nD τ)) = (dats m 0 c).arrAt w (cfgs 0).N) :=
  Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj)) (hu₀ := .rfl)
    (V := V m) (hmain := Pipeline.hmain_region cfgs 0 defs₀ Variants.none m main fun c => (main_chain c).trans rfl)
    (hsplit := hsplit m)
    (X := fun _ => BI.emp) (Y := fun _ => BI.emp)
    (Z := fun c => Pipeline.unscopedRest (Ix := Unit) (Name := ℕ) (U := UR sig nD τ) (Lvl := ℕ) spec0 c (V m c))
    (hX := fun c => by iintro H; isplitr; · iempintro
                       iexact H)
    (hin := hin m) (hout := hout m)
    (QY := fun _ _ => True)
    (hY := fun c s' => by iintro ⟨-, -, HSI⟩; imodintro; isplitr; · ipureintro; trivial
                          iexact HSI)
    (hQ := fun s h c => (h c).1)

/-- The run read at the program's arrays: the result array at what the write-backs leave, the four arguments unchanged
    (an input window's array is never written back). -/
theorem run_arrays : θ_run defs (onTc (τ := τ) (main (F := F))) ⟨m, fun _ => 0, ρ⟩ (fun r => ∀ c : Dev nD,
      r.2.mem ((c.tc : Thread nD τ).loc main_v0) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨h c 5,
      (h c 1).trans (((dats m 0 c).arrAt_in 1 rfl _).trans (A_eq m c 1)),
      (h c 0).trans (((dats m 0 c).arrAt_in 0 rfl _).trans (A_eq m c 0)),
      (h c 3).trans (((dats m 0 c).arrAt_in 3 rfl _).trans (A_eq m c 3)),
      (h c 4).trans (((dats m 0 c).arrAt_in 4 rfl _).trans (A_eq m c 4))⟩) (run_main m ρ)

/-- The frame: the program runs to the end, nothing faults, and its four argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run_arrays m ρ)

end Cert.Kernel.Hand

end
-- ==== Proof.KI.Runs.lean ====
/-
  What the three cases of the kernel body share: the arrays as the region finds them, each window's block at a
  grid point, the two branch conditions of the body in closed form over the 16 × 8 grid (the reduction axis is the
  fast one: point t is row block t / 8, column block t % 8), where the output window is idle, and the staging and
  scratch memrefs the body is called with.
-/
import proofs.«142667_j78451872628893_1_alg».proof.Proof.Gen.KernelIdeal.Launch
import proofs.«142667_j78451872628893_1_alg».proof.Proof.Gen.KernelIdeal.Skeleton
import proofs.«142667_j78451872628893_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays and the windows' blocks -/

/-- Core `c`'s buffer contents when the region is entered: @main is the region alone, so the launch contents. -/
abbrev V (c : Dev nD) (b : Ref sig .tc) : Buf (Elt F) ((c : Thread nD τ).loc b) := m ((c : Thread nD τ).loc b)

/-- Window `w`'s block at point `t`, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0 holds its block at every point, fetched there or not: unfetched, its block index has not moved
    since the last fetch. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1 holds its block at every point, fetched there or not: unfetched, its block index has not moved
    since the last fetch. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2 holds its block at every point, fetched there or not: unfetched, its block index has not moved
    since the last fetch. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3 holds its block at every point, fetched there or not: unfetched, its block index has not moved
    since the last fetch. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4 holds its block at every point, fetched there or not: unfetched, its block index has not moved
    since the last fetch. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The first branch (reset the two accumulators) is taken at column block 0. -/
abbrev cond0 (i : grid0.Coords) : Prop := (Scalar.cmpi .ne (Scalar.extui (Scalar.cmpi .eq (BitVec.ofNat 32 (i 1).val) 0#32)) 0#32) = 1#1
theorem hcond0 : ∀ t : Fin cfg0.N, cond0 (grid0.coords t) ↔ t.val % 8 = 0 :=
  (by decide +kernel : ∀ t : Fin grid0.N, cond0 (grid0.coords t) ↔ t.val % 8 = 0)

/-- The second branch (finish the row block and store it) is taken at the last column block, 7. -/
abbrev cond1 (i : grid0.Coords) : Prop := k0_cond2 i = 1#1
theorem hcond1 : ∀ t : Fin cfg0.N, cond1 (grid0.coords t) ↔ t.val % 8 = 7 :=
  (by decide +kernel : ∀ t : Fin grid0.N, cond1 (grid0.coords t) ↔ t.val % 8 = 7)

/-! ## Where the windows are idle -/

theorem live0 : ∀ i, cfg0.idle 0 i = false := fun _ => rfl
theorem live1 : ∀ i, cfg0.idle 1 i = false := fun _ => rfl
theorem live2 : ∀ i, cfg0.idle 2 i = false := fun _ => rfl
theorem live3 : ∀ i, cfg0.idle 3 i = false := fun _ => rfl
theorem live4 : ∀ i, cfg0.idle 4 i = false := fun _ => rfl
/-- Away from the last column block nothing is stored into the output window, and it is not written back. -/
theorem idle5 : ∀ t : Fin cfg0.N, ¬cond1 (grid0.coords t) → cfg0.idle 5 (grid0.coords t) = true := by decide +kernel
theorem noFlush5 : ∀ t : Fin cfg0.N, ¬cond1 (grid0.coords t) → (cfg0.win 5).flush t = false := by decide +kernel
/-- At the last column block the output window is stored whole. -/
theorem live5 : ∀ t : Fin cfg0.N, cond1 (grid0.coords t) → cfg0.idle 5 (grid0.coords t) = false := by decide +kernel

/-! ## The memrefs the body is called with -/

abbrev ms0 (t : Fin cfg0.N) : Memref sig .tc .vmem S1024x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S2048x64 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x64 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S128x64 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S64 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1024x64 .f32 := win0_5.stage (cfg0.slots t 5)
abbrev hs5 (t : Fin cfg0.N) : (ms5 t).IsWhole := hstage0_5 ((cfg0.slots t 5).cast nbuf0_5)
/-- The two scratch operands: the neighbour-sum accumulator and the degree accumulator. -/
abbrev scAcc : Memref sig .tc .vmem S1024x64 .f32 := Memref.whole cc0_scratch0
abbrev scDeg : Memref sig .tc .vmem S1024x1 .f32 := Memref.whole cc0_scratch1
/-- The views through which the contents of the output's staging buffer and of the two accumulators are stated. -/
abbrev VO : View sig .tc .vmem S1024x64 .f32 := (Memref.whole cc0_stg5_0 : Memref sig .tc .vmem S1024x64 .f32).view
abbrev VAcc : View sig .tc .vmem S1024x64 .f32 := (scAcc).view
abbrev VDeg : View sig .tc .vmem S1024x1 .f32 := (scDeg).view

/-- The core's scoped buffers outside the pipeline's staging are the two accumulators, each owned at some contents. -/
theorem scoped_eq (c : Dev nD) :
    (Pipeline.scopedRest (Ix := Unit) (Name := ℕ) (U := UR sig nD τ) (Lvl := ℕ) (Val := Elt F) spec0 c : sProp 𝕄)
      = iprop((∃ d, owns (c : Thread nD τ) scAcc fullShare d) ∗ (∃ d, owns (c : Thread nD τ) scDeg fullShare d)) := by
  rw [scopedRest0_eq]; simp only [scAcc, scDeg, owns_whole]; try rfl

end Cert.KernelIdeal.Hand

end
-- ==== Proof.KI.RunA.lean ====
/-
  The kernel body run at column block 0 (both accumulators are reset, then the first partial sums are added; the output window is left untouched): on whole memrefs holding the given blocks it runs to the end, leaving
  the inputs as they were and each buffer it stores into with the listed pieces written (the pieces are found by
  the symbolic run itself).
-/
import proofs.«142667_j78451872628893_1_alg».proof.Proof.KI.Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the output window (`.1`), the neighbour-sum accumulator (`.2.1`) and the
    degree accumulator (`.2.2.1`), with the run that leaves them. -/
noncomputable def kernelRun_A (c : Dev nD) (i : grid0.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S128x64 .f32) (harg5 : arg5.IsWhole) (arg6 : Memref sig .tc .vmem S64 .f32) (harg6 : arg6.IsWhole) (arg7 : Memref sig .tc .vmem S1024x64 .f32) (harg7 : arg7.IsWhole) (arg8 : Memref sig .tc .vmem S1024x64 .f32) (harg8 : arg8.IsWhole) (arg9 : Memref sig .tc .vmem S1024x1 .f32) (harg9 : arg9.IsWhole) (hc0 : cond0 i) (hc1 : ¬cond1 i)
    (x0 : Vec F S1024x2048 .f32) (x1 : Vec F S2048x64 .f32) :
    Σ' (L5 : List (View.Piece (Elt F) S1024x64 .f32)), Σ' (LS0 : List (View.Piece (Elt F) S1024x64 .f32)), { LS1 : List (View.Piece (Elt F) S1024x1 .f32) //
      ∀ (E : Set ℕ) (K : PUnit → sProp 𝕄),
        iprop(owns (c : Thread nD τ) arg2 fullShare x0 ∗ owns (c : Thread nD τ) arg3 fullShare x1 ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__gsage_kernel i arg2 harg2 arg3 harg3 arg4 harg4 arg5 harg5 arg6 harg6 arg7 harg7 arg8 harg8 arg9 harg9) K } := by
  refine ⟨[], ?_, ?_, fun E K => ?run⟩
  case run =>
    simp only [cc0__gsage_kernel_eq_skeleton]; unfold cc0__gsage_kernel_skel
    unfold owns
    iintro ⟨⟨%f0, %hf0, H0⟩, ⟨%f1, %hf1, H1⟩, ⟨%ds0, %fs0, -, HS0⟩, ⟨%ds1, %fs1, -, HS1⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [HS0]; · iexists _; iexact HS0
    iexists _; iexact HS1

end Cert.KernelIdeal.Hand

end
-- ==== Proof.KI.RunB.lean ====
/-
  The kernel body run at a column block strictly between the first and the last (the partial sums of the block are added to both accumulators; the output window is left untouched): on whole memrefs holding the given blocks it runs to the end, leaving
  the inputs as they were and each buffer it stores into with the listed pieces written (the pieces are found by
  the symbolic run itself).
-/
import proofs.«142667_j78451872628893_1_alg».proof.Proof.KI.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the output window (`.1`), the neighbour-sum accumulator (`.2.1`) and the
    degree accumulator (`.2.2.1`), with the run that leaves them. -/
noncomputable def kernelRun_B (c : Dev nD) (i : grid0.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S128x64 .f32) (harg5 : arg5.IsWhole) (arg6 : Memref sig .tc .vmem S64 .f32) (harg6 : arg6.IsWhole) (arg7 : Memref sig .tc .vmem S1024x64 .f32) (harg7 : arg7.IsWhole) (arg8 : Memref sig .tc .vmem S1024x64 .f32) (harg8 : arg8.IsWhole) (arg9 : Memref sig .tc .vmem S1024x1 .f32) (harg9 : arg9.IsWhole) (hc0 : ¬cond0 i) (hc1 : ¬cond1 i)
    (x0 : Vec F S1024x2048 .f32) (x1 : Vec F S2048x64 .f32) (xs0 : Vec F S1024x64 .f32) (xs1 : Vec F S1024x1 .f32) :
    Σ' (L5 : List (View.Piece (Elt F) S1024x64 .f32)), Σ' (LS0 : List (View.Piece (Elt F) S1024x64 .f32)), { LS1 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg8 fullShare xs0 ∗ owns (c : Thread nD τ) arg9 fullShare xs1
            ∗ (iprop(owns (c : Thread nD τ) arg2 fullShare x0 ∗ owns (c : Thread nD τ) arg3 fullShare x1 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__gsage_kernel i arg2 harg2 arg3 harg3 arg4 harg4 arg5 harg5 arg6 harg6 arg7 harg7 arg8 harg8 arg9 harg9) K } := by
  refine ⟨[], ?_, ?_, fun E K => ?run⟩
  case run =>
    simp only [cc0__gsage_kernel_eq_skeleton]; unfold cc0__gsage_kernel_skel
    unfold owns
    iintro ⟨⟨%f0, %hf0, H0⟩, ⟨%f1, %hf1, H1⟩, ⟨%fs0, %hfs0, HS0⟩, ⟨%fs1, %hfs1, HS1⟩, Hk⟩
    obtain rfl := harg2.eq_unread hf0; obtain rfl := harg3.eq_unread hf1
    obtain rfl := harg8.eq_unread hfs0; obtain rfl := harg9.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [HS0]; · iexists _; iexact HS0
    iexists _; iexact HS1

end Cert.KernelIdeal.Hand

end
-- ==== Proof.KI.RunC.lean ====
/-
  The kernel body run at the last column block (the last partial sums are added, then the row block is finished from the accumulators, the node's own features, the weights and the bias, and stored whole into the output window): on whole memrefs holding the given blocks it runs to the end, leaving
  the inputs as they were and each buffer it stores into with the listed pieces written (the pieces are found by
  the symbolic run itself).
-/
import proofs.«142667_j78451872628893_1_alg».proof.Proof.KI.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the output window (`.1`), the neighbour-sum accumulator (`.2.1`) and the
    degree accumulator (`.2.2.1`), with the run that leaves them. -/
noncomputable def kernelRun_C (c : Dev nD) (i : grid0.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S128x64 .f32) (harg5 : arg5.IsWhole) (arg6 : Memref sig .tc .vmem S64 .f32) (harg6 : arg6.IsWhole) (arg7 : Memref sig .tc .vmem S1024x64 .f32) (harg7 : arg7.IsWhole) (arg8 : Memref sig .tc .vmem S1024x64 .f32) (harg8 : arg8.IsWhole) (arg9 : Memref sig .tc .vmem S1024x1 .f32) (harg9 : arg9.IsWhole) (hc0 : ¬cond0 i) (hc1 : cond1 i)
    (x0 : Vec F S1024x2048 .f32) (x1 : Vec F S2048x64 .f32) (x2 : Vec F S1024x64 .f32) (x3 : Vec F S128x64 .f32) (x4 : Vec F S64 .f32) (xs0 : Vec F S1024x64 .f32) (xs1 : Vec F S1024x1 .f32) :
    Σ' (L5 : List (View.Piece (Elt F) S1024x64 .f32)), Σ' (LS0 : List (View.Piece (Elt F) S1024x64 .f32)), { LS1 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__gsage_kernel i arg2 harg2 arg3 harg3 arg4 harg4 arg5 harg5 arg6 harg6 arg7 harg7 arg8 harg8 arg9 harg9) K } := by
  refine ⟨?_, ?_, ?_, fun E K => ?run⟩
  case run =>
    simp only [cc0__gsage_kernel_eq_skeleton]; unfold cc0__gsage_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg5.eq_unread hf3; obtain rfl := harg6.eq_unread hf4
    obtain rfl := harg8.eq_unread hfs0; obtain rfl := harg9.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [HS0]; · iexists _; iexact HS0
    iexists _; iexact HS1

end Cert.KernelIdeal.Hand

end
-- ==== Proof.KI.Frame.lean ====
/-
  The frame of the one pipelined region: what the output window and the two accumulators hold after each grid point,
  the pipeline's proof data, the body obligation at a generic point (by the case its column block selects), and the
  launch. Two of the region's input windows read the same array (the node features: the column-block rows for the
  neighbour sum, the row-block rows for the node's own features); they hold the two halves of its share.
-/
import proofs.«142667_j78451872628893_1_alg».proof.Proof.KI.RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Case A's pieces for the neighbour-sum accumulator tile it, so they cover it. -/
theorem scover_A_0 (c : Dev nD) (i : grid0.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S128x64 .f32) (harg5 : arg5.IsWhole) (arg6 : Memref sig .tc .vmem S64 .f32) (harg6 : arg6.IsWhole) (arg7 : Memref sig .tc .vmem S1024x64 .f32) (harg7 : arg7.IsWhole) (arg8 : Memref sig .tc .vmem S1024x64 .f32) (harg8 : arg8.IsWhole) (arg9 : Memref sig .tc .vmem S1024x1 .f32) (harg9 : arg9.IsWhole) (hc0 : cond0 i) (hc1 : ¬cond1 i) (x0 : Vec F S1024x2048 .f32) (x1 : Vec F S2048x64 .f32) (y : S1024x64.Idx) :
    ∃ pc ∈ (kernelRun_A c i arg2 harg2 arg3 harg3 arg4 harg4 arg5 harg5 arg6 harg6 arg7 harg7 arg8 harg8 arg9 harg9 hc0 hc1 x0 x1).2.1, y ∈ pc.1.set :=
  View.cover_of_tiledL (kernelRun_A c i arg2 harg2 arg3 harg3 arg4 harg4 arg5 harg5 arg6 harg6 arg7 harg7 arg8 harg8 arg9 harg9 hc0 hc1 x0 x1).2.1 S1024x64.size (by sl_kernel_rfl) y

/-- What case A leaves in the neighbour-sum accumulator: its pieces read back. -/
def sout_A_0 (c : Dev nD) (i : grid0.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S128x64 .f32) (harg5 : arg5.IsWhole) (arg6 : Memref sig .tc .vmem S64 .f32) (harg6 : arg6.IsWhole) (arg7 : Memref sig .tc .vmem S1024x64 .f32) (harg7 : arg7.IsWhole) (arg8 : Memref sig .tc .vmem S1024x64 .f32) (harg8 : arg8.IsWhole) (arg9 : Memref sig .tc .vmem S1024x1 .f32) (harg9 : arg9.IsWhole) (hc0 : cond0 i) (hc1 : ¬cond1 i) (x0 : Vec F S1024x2048 .f32) (x1 : Vec F S2048x64 .f32) : Vec F S1024x64 .f32 :=
  VAcc.read (Elt F) (VAcc.writes (Elt F) VAcc.junk (kernelRun_A c i arg2 harg2 arg3 harg3 arg4 harg4 arg5 harg5 arg6 harg6 arg7 harg7 arg8 harg8 arg9 harg9 hc0 hc1 x0 x1).2.1)

/-- Case A's pieces for the degree accumulator tile it, so they cover it. -/
theorem scover_A_1 (c : Dev nD) (i : grid0.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S128x64 .f32) (harg5 : arg5.IsWhole) (arg6 : Memref sig .tc .vmem S64 .f32) (harg6 : arg6.IsWhole) (arg7 : Memref sig .tc .vmem S1024x64 .f32) (harg7 : arg7.IsWhole) (arg8 : Memref sig .tc .vmem S1024x64 .f32) (harg8 : arg8.IsWhole) (arg9 : Memref sig .tc .vmem S1024x1 .f32) (harg9 : arg9.IsWhole) (hc0 : cond0 i) (hc1 : ¬cond1 i) (x0 : Vec F S1024x2048 .f32) (x1 : Vec F S2048x64 .f32) (y : S1024x1.Idx) :
    ∃ pc ∈ (kernelRun_A c i arg2 harg2 arg3 harg3 arg4 harg4 arg5 harg5 arg6 harg6 arg7 harg7 arg8 harg8 arg9 harg9 hc0 hc1 x0 x1).2.2.1, y ∈ pc.1.set :=
  View.cover_of_tiledL (kernelRun_A c i arg2 harg2 arg3 harg3 arg4 harg4 arg5 harg5 arg6 harg6 arg7 harg7 arg8 harg8 arg9 harg9 hc0 hc1 x0 x1).2.2.1 S1024x1.size (by sl_kernel_rfl) y

/-- What case A leaves in the degree accumulator: its pieces read back. -/
def sout_A_1 (c : Dev nD) (i : grid0.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S128x64 .f32) (harg5 : arg5.IsWhole) (arg6 : Memref sig .tc .vmem S64 .f32) (harg6 : arg6.IsWhole) (arg7 : Memref sig .tc .vmem S1024x64 .f32) (harg7 : arg7.IsWhole) (arg8 : Memref sig .tc .vmem S1024x64 .f32) (harg8 : arg8.IsWhole) (arg9 : Memref sig .tc .vmem S1024x1 .f32) (harg9 : arg9.IsWhole) (hc0 : cond0 i) (hc1 : ¬cond1 i) (x0 : Vec F S1024x2048 .f32) (x1 : Vec F S2048x64 .f32) : Vec F S1024x1 .f32 :=
  VDeg.read (Elt F) (VDeg.writes (Elt F) VDeg.junk (kernelRun_A c i arg2 harg2 arg3 harg3 arg4 harg4 arg5 harg5 arg6 harg6 arg7 harg7 arg8 harg8 arg9 harg9 hc0 hc1 x0 x1).2.2.1)

/-- Case B's pieces for the neighbour-sum accumulator tile it, so they cover it. -/
theorem scover_B_0 (c : Dev nD) (i : grid0.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S128x64 .f32) (harg5 : arg5.IsWhole) (arg6 : Memref sig .tc .vmem S64 .f32) (harg6 : arg6.IsWhole) (arg7 : Memref sig .tc .vmem S1024x64 .f32) (harg7 : arg7.IsWhole) (arg8 : Memref sig .tc .vmem S1024x64 .f32) (harg8 : arg8.IsWhole) (arg9 : Memref sig .tc .vmem S1024x1 .f32) (harg9 : arg9.IsWhole) (hc0 : ¬cond0 i) (hc1 : ¬cond1 i) (x0 : Vec F S1024x2048 .f32) (x1 : Vec F S2048x64 .f32) (xs0 : Vec F S1024x64 .f32) (xs1 : Vec F S1024x1 .f32) (y : S1024x64.Idx) :
    ∃ pc ∈ (kernelRun_B c i arg2 harg2 arg3 harg3 arg4 harg4 arg5 harg5 arg6 harg6 arg7 harg7 arg8 harg8 arg9 harg9 hc0 hc1 x0 x1 xs0 xs1).2.1, y ∈ pc.1.set :=
  View.cover_of_tiledL (kernelRun_B c i arg2 harg2 arg3 harg3 arg4 harg4 arg5 harg5 arg6 harg6 arg7 harg7 arg8 harg8 arg9 harg9 hc0 hc1 x0 x1 xs0 xs1).2.1 S1024x64.size (by sl_kernel_rfl) y

/-- What case B leaves in the neighbour-sum accumulator: its pieces read back. -/
def sout_B_0 (c : Dev nD) (i : grid0.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S128x64 .f32) (harg5 : arg5.IsWhole) (arg6 : Memref sig .tc .vmem S64 .f32) (harg6 : arg6.IsWhole) (arg7 : Memref sig .tc .vmem S1024x64 .f32) (harg7 : arg7.IsWhole) (arg8 : Memref sig .tc .vmem S1024x64 .f32) (harg8 : arg8.IsWhole) (arg9 : Memref sig .tc .vmem S1024x1 .f32) (harg9 : arg9.IsWhole) (hc0 : ¬cond0 i) (hc1 : ¬cond1 i) (x0 : Vec F S1024x2048 .f32) (x1 : Vec F S2048x64 .f32) (xs0 : Vec F S1024x64 .f32) (xs1 : Vec F S1024x1 .f32) : Vec F S1024x64 .f32 :=
  VAcc.read (Elt F) (VAcc.writes (Elt F) VAcc.junk (kernelRun_B c i arg2 harg2 arg3 harg3 arg4 harg4 arg5 harg5 arg6 harg6 arg7 harg7 arg8 harg8 arg9 harg9 hc0 hc1 x0 x1 xs0 xs1).2.1)

/-- Case B's pieces for the degree accumulator tile it, so they cover it. -/
theorem scover_B_1 (c : Dev nD) (i : grid0.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S128x64 .f32) (harg5 : arg5.IsWhole) (arg6 : Memref sig .tc .vmem S64 .f32) (harg6 : arg6.IsWhole) (arg7 : Memref sig .tc .vmem S1024x64 .f32) (harg7 : arg7.IsWhole) (arg8 : Memref sig .tc .vmem S1024x64 .f32) (harg8 : arg8.IsWhole) (arg9 : Memref sig .tc .vmem S1024x1 .f32) (harg9 : arg9.IsWhole) (hc0 : ¬cond0 i) (hc1 : ¬cond1 i) (x0 : Vec F S1024x2048 .f32) (x1 : Vec F S2048x64 .f32) (xs0 : Vec F S1024x64 .f32) (xs1 : Vec F S1024x1 .f32) (y : S1024x1.Idx) :
    ∃ pc ∈ (kernelRun_B c i arg2 harg2 arg3 harg3 arg4 harg4 arg5 harg5 arg6 harg6 arg7 harg7 arg8 harg8 arg9 harg9 hc0 hc1 x0 x1 xs0 xs1).2.2.1, y ∈ pc.1.set :=
  View.cover_of_tiledL (kernelRun_B c i arg2 harg2 arg3 harg3 arg4 harg4 arg5 harg5 arg6 harg6 arg7 harg7 arg8 harg8 arg9 harg9 hc0 hc1 x0 x1 xs0 xs1).2.2.1 S1024x1.size (by sl_kernel_rfl) y

/-- What case B leaves in the degree accumulator: its pieces read back. -/
def sout_B_1 (c : Dev nD) (i : grid0.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S128x64 .f32) (harg5 : arg5.IsWhole) (arg6 : Memref sig .tc .vmem S64 .f32) (harg6 : arg6.IsWhole) (arg7 : Memref sig .tc .vmem S1024x64 .f32) (harg7 : arg7.IsWhole) (arg8 : Memref sig .tc .vmem S1024x64 .f32) (harg8 : arg8.IsWhole) (arg9 : Memref sig .tc .vmem S1024x1 .f32) (harg9 : arg9.IsWhole) (hc0 : ¬cond0 i) (hc1 : ¬cond1 i) (x0 : Vec F S1024x2048 .f32) (x1 : Vec F S2048x64 .f32) (xs0 : Vec F S1024x64 .f32) (xs1 : Vec F S1024x1 .f32) : Vec F S1024x1 .f32 :=
  VDeg.read (Elt F) (VDeg.writes (Elt F) VDeg.junk (kernelRun_B c i arg2 harg2 arg3 harg3 arg4 harg4 arg5 harg5 arg6 harg6 arg7 harg7 arg8 harg8 arg9 harg9 hc0 hc1 x0 x1 xs0 xs1).2.2.1)

/-- Case C's pieces for the neighbour-sum accumulator tile it, so they cover it. -/
theorem scover_C_0 (c : Dev nD) (i : grid0.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S128x64 .f32) (harg5 : arg5.IsWhole) (arg6 : Memref sig .tc .vmem S64 .f32) (harg6 : arg6.IsWhole) (arg7 : Memref sig .tc .vmem S1024x64 .f32) (harg7 : arg7.IsWhole) (arg8 : Memref sig .tc .vmem S1024x64 .f32) (harg8 : arg8.IsWhole) (arg9 : Memref sig .tc .vmem S1024x1 .f32) (harg9 : arg9.IsWhole) (hc0 : ¬cond0 i) (hc1 : cond1 i) (x0 : Vec F S1024x2048 .f32) (x1 : Vec F S2048x64 .f32) (x2 : Vec F S1024x64 .f32) (x3 : Vec F S128x64 .f32) (x4 : Vec F S64 .f32) (xs0 : Vec F S1024x64 .f32) (xs1 : Vec F S1024x1 .f32) (y : S1024x64.Idx) :
    ∃ pc ∈ (kernelRun_C c i arg2 harg2 arg3 harg3 arg4 harg4 arg5 harg5 arg6 harg6 arg7 harg7 arg8 harg8 arg9 harg9 hc0 hc1 x0 x1 x2 x3 x4 xs0 xs1).2.1, y ∈ pc.1.set :=
  View.cover_of_tiledL (kernelRun_C c i arg2 harg2 arg3 harg3 arg4 harg4 arg5 harg5 arg6 harg6 arg7 harg7 arg8 harg8 arg9 harg9 hc0 hc1 x0 x1 x2 x3 x4 xs0 xs1).2.1 S1024x64.size (by sl_kernel_rfl) y

/-- What case C leaves in the neighbour-sum accumulator: its pieces read back. -/
def sout_C_0 (c : Dev nD) (i : grid0.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S128x64 .f32) (harg5 : arg5.IsWhole) (arg6 : Memref sig .tc .vmem S64 .f32) (harg6 : arg6.IsWhole) (arg7 : Memref sig .tc .vmem S1024x64 .f32) (harg7 : arg7.IsWhole) (arg8 : Memref sig .tc .vmem S1024x64 .f32) (harg8 : arg8.IsWhole) (arg9 : Memref sig .tc .vmem S1024x1 .f32) (harg9 : arg9.IsWhole) (hc0 : ¬cond0 i) (hc1 : cond1 i) (x0 : Vec F S1024x2048 .f32) (x1 : Vec F S2048x64 .f32) (x2 : Vec F S1024x64 .f32) (x3 : Vec F S128x64 .f32) (x4 : Vec F S64 .f32) (xs0 : Vec F S1024x64 .f32) (xs1 : Vec F S1024x1 .f32) : Vec F S1024x64 .f32 :=
  VAcc.read (Elt F) (VAcc.writes (Elt F) VAcc.junk (kernelRun_C c i arg2 harg2 arg3 harg3 arg4 harg4 arg5 harg5 arg6 harg6 arg7 harg7 arg8 harg8 arg9 harg9 hc0 hc1 x0 x1 x2 x3 x4 xs0 xs1).2.1)

/-- Case C's pieces for the degree accumulator tile it, so they cover it. -/
theorem scover_C_1 (c : Dev nD) (i : grid0.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S128x64 .f32) (harg5 : arg5.IsWhole) (arg6 : Memref sig .tc .vmem S64 .f32) (harg6 : arg6.IsWhole) (arg7 : Memref sig .tc .vmem S1024x64 .f32) (harg7 : arg7.IsWhole) (arg8 : Memref sig .tc .vmem S1024x64 .f32) (harg8 : arg8.IsWhole) (arg9 : Memref sig .tc .vmem S1024x1 .f32) (harg9 : arg9.IsWhole) (hc0 : ¬cond0 i) (hc1 : cond1 i) (x0 : Vec F S1024x2048 .f32) (x1 : Vec F S2048x64 .f32) (x2 : Vec F S1024x64 .f32) (x3 : Vec F S128x64 .f32) (x4 : Vec F S64 .f32) (xs0 : Vec F S1024x64 .f32) (xs1 : Vec F S1024x1 .f32) (y : S1024x1.Idx) :
    ∃ pc ∈ (kernelRun_C c i arg2 harg2 arg3 harg3 arg4 harg4 arg5 harg5 arg6 harg6 arg7 harg7 arg8 harg8 arg9 harg9 hc0 hc1 x0 x1 x2 x3 x4 xs0 xs1).2.2.1, y ∈ pc.1.set :=
  View.cover_of_tiledL (kernelRun_C c i arg2 harg2 arg3 harg3 arg4 harg4 arg5 harg5 arg6 harg6 arg7 harg7 arg8 harg8 arg9 harg9 hc0 hc1 x0 x1 x2 x3 x4 xs0 xs1).2.2.1 S1024x1.size (by sl_kernel_rfl) y

/-- What case C leaves in the degree accumulator: its pieces read back. -/
def sout_C_1 (c : Dev nD) (i : grid0.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S128x64 .f32) (harg5 : arg5.IsWhole) (arg6 : Memref sig .tc .vmem S64 .f32) (harg6 : arg6.IsWhole) (arg7 : Memref sig .tc .vmem S1024x64 .f32) (harg7 : arg7.IsWhole) (arg8 : Memref sig .tc .vmem S1024x64 .f32) (harg8 : arg8.IsWhole) (arg9 : Memref sig .tc .vmem S1024x1 .f32) (harg9 : arg9.IsWhole) (hc0 : ¬cond0 i) (hc1 : cond1 i) (x0 : Vec F S1024x2048 .f32) (x1 : Vec F S2048x64 .f32) (x2 : Vec F S1024x64 .f32) (x3 : Vec F S128x64 .f32) (x4 : Vec F S64 .f32) (xs0 : Vec F S1024x64 .f32) (xs1 : Vec F S1024x1 .f32) : Vec F S1024x1 .f32 :=
  VDeg.read (Elt F) (VDeg.writes (Elt F) VDeg.junk (kernelRun_C c i arg2 harg2 arg3 harg3 arg4 harg4 arg5 harg5 arg6 harg6 arg7 harg7 arg8 harg8 arg9 harg9 hc0 hc1 x0 x1 x2 x3 x4 xs0 xs1).2.2.1)

/-- Case C's one store into the output window covers its block. -/
theorem cover_C_5 (c : Dev nD) (i : grid0.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S128x64 .f32) (harg5 : arg5.IsWhole) (arg6 : Memref sig .tc .vmem S64 .f32) (harg6 : arg6.IsWhole) (arg7 : Memref sig .tc .vmem S1024x64 .f32) (harg7 : arg7.IsWhole) (arg8 : Memref sig .tc .vmem S1024x64 .f32) (harg8 : arg8.IsWhole) (arg9 : Memref sig .tc .vmem S1024x1 .f32) (harg9 : arg9.IsWhole) (hc0 : ¬cond0 i) (hc1 : cond1 i) (x0 : Vec F S1024x2048 .f32) (x1 : Vec F S2048x64 .f32) (x2 : Vec F S1024x64 .f32) (x3 : Vec F S128x64 .f32) (x4 : Vec F S64 .f32) (xs0 : Vec F S1024x64 .f32) (xs1 : Vec F S1024x1 .f32) (y : S1024x64.Idx) :
    ∃ pc ∈ (kernelRun_C c i arg2 harg2 arg3 harg3 arg4 harg4 arg5 harg5 arg6 harg6 arg7 harg7 arg8 harg8 arg9 harg9 hc0 hc1 x0 x1 x2 x3 x4 xs0 xs1).1, y ∈ pc.1.set :=
  View.cover_of_tiledL (kernelRun_C c i arg2 harg2 arg3 harg3 arg4 harg4 arg5 harg5 arg6 harg6 arg7 harg7 arg8 harg8 arg9 harg9 hc0 hc1 x0 x1 x2 x3 x4 xs0 xs1).1 S1024x64.size (by sl_kernel_rfl) y

/-- What case C leaves in the output window's staging buffer: its pieces read back. -/
def out_C_5 (c : Dev nD) (i : grid0.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S128x64 .f32) (harg5 : arg5.IsWhole) (arg6 : Memref sig .tc .vmem S64 .f32) (harg6 : arg6.IsWhole) (arg7 : Memref sig .tc .vmem S1024x64 .f32) (harg7 : arg7.IsWhole) (arg8 : Memref sig .tc .vmem S1024x64 .f32) (harg8 : arg8.IsWhole) (arg9 : Memref sig .tc .vmem S1024x1 .f32) (harg9 : arg9.IsWhole) (hc0 : ¬cond0 i) (hc1 : cond1 i) (x0 : Vec F S1024x2048 .f32) (x1 : Vec F S2048x64 .f32) (x2 : Vec F S1024x64 .f32) (x3 : Vec F S128x64 .f32) (x4 : Vec F S64 .f32) (xs0 : Vec F S1024x64 .f32) (xs1 : Vec F S1024x1 .f32) : Vec F S1024x64 .f32 :=
  VO.read (Elt F) (VO.writes (Elt F) VO.junk (kernelRun_C c i arg2 harg2 arg3 harg3 arg4 harg4 arg5 harg5 arg6 harg6 arg7 harg7 arg8 harg8 arg9 harg9 hc0 hc1 x0 x1 x2 x3 x4 xs0 xs1).1)

/-- At the other points nothing is stored into the output window; a placeholder nothing consults (the window is
    idle there and not written back). -/
def out_idle : Vec F S1024x64 .f32 := VO.read (Elt F) VO.junk

/-! ## What the output window and the two accumulators hold after each point -/

/-- What the output window's staging buffer, the neighbour-sum accumulator and the degree accumulator hold after the body
    at position `n`: the case the position's column block selects, run at the point's memrefs and blocks, over what
    the accumulators held after the position before. -/
def outsAt (c : Dev nD) : (n : ℕ) → n < cfg0.N → Vec F S1024x64 .f32 × Vec F S1024x64 .f32 × Vec F S1024x1 .f32
  | 0, hn => (out_idle, sout_A_0 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) scAcc (Memref.isWhole_whole _) scDeg (Memref.isWhole_whole _) ((hcond0 ⟨0, hn⟩).mpr (Nat.zero_mod _)) (fun h => (fun h => by (try dsimp only at h); omega) ((hcond1 ⟨0, hn⟩).mp h)) (iblk m c 0 ⟨0, hn⟩) (iblk m c 1 ⟨0, hn⟩), sout_A_1 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) scAcc (Memref.isWhole_whole _) scDeg (Memref.isWhole_whole _) ((hcond0 ⟨0, hn⟩).mpr (Nat.zero_mod _)) (fun h => (fun h => by (try dsimp only at h); omega) ((hcond1 ⟨0, hn⟩).mp h)) (iblk m c 0 ⟨0, hn⟩) (iblk m c 1 ⟨0, hn⟩))
  | n + 1, hn =>
    if h0 : (n + 1) % 8 = 0 then
      (out_idle, sout_A_0 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) scAcc (Memref.isWhole_whole _) scDeg (Memref.isWhole_whole _) ((hcond0 ⟨n + 1, hn⟩).mpr h0) (fun h => (fun h7 => by (try dsimp only at h7); omega) ((hcond1 ⟨n + 1, hn⟩).mp h)) (iblk m c 0 ⟨n + 1, hn⟩) (iblk m c 1 ⟨n + 1, hn⟩), sout_A_1 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) scAcc (Memref.isWhole_whole _) scDeg (Memref.isWhole_whole _) ((hcond0 ⟨n + 1, hn⟩).mpr h0) (fun h => (fun h7 => by (try dsimp only at h7); omega) ((hcond1 ⟨n + 1, hn⟩).mp h)) (iblk m c 0 ⟨n + 1, hn⟩) (iblk m c 1 ⟨n + 1, hn⟩))
    else
      if h1 : (n + 1) % 8 = 7 then
        (out_C_5 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) scAcc (Memref.isWhole_whole _) scDeg (Memref.isWhole_whole _) (fun h => h0 ((hcond0 ⟨n + 1, hn⟩).mp h)) ((hcond1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt c n (Nat.lt_of_succ_lt hn)).2.1 (outsAt c n (Nat.lt_of_succ_lt hn)).2.2, sout_C_0 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) scAcc (Memref.isWhole_whole _) scDeg (Memref.isWhole_whole _) (fun h => h0 ((hcond0 ⟨n + 1, hn⟩).mp h)) ((hcond1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt c n (Nat.lt_of_succ_lt hn)).2.1 (outsAt c n (Nat.lt_of_succ_lt hn)).2.2, sout_C_1 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) scAcc (Memref.isWhole_whole _) scDeg (Memref.isWhole_whole _) (fun h => h0 ((hcond0 ⟨n + 1, hn⟩).mp h)) ((hcond1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt c n (Nat.lt_of_succ_lt hn)).2.1 (outsAt c n (Nat.lt_of_succ_lt hn)).2.2)
      else
        (out_idle, sout_B_0 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) scAcc (Memref.isWhole_whole _) scDeg (Memref.isWhole_whole _) (fun h => h0 ((hcond0 ⟨n + 1, hn⟩).mp h)) (fun h => h1 ((hcond1 ⟨n + 1, hn⟩).mp h)) (iblk m c 0 ⟨n + 1, hn⟩) (iblk m c 1 ⟨n + 1, hn⟩) (outsAt c n (Nat.lt_of_succ_lt hn)).2.1 (outsAt c n (Nat.lt_of_succ_lt hn)).2.2, sout_B_1 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) scAcc (Memref.isWhole_whole _) scDeg (Memref.isWhole_whole _) (fun h => h0 ((hcond0 ⟨n + 1, hn⟩).mp h)) (fun h => h1 ((hcond1 ⟨n + 1, hn⟩).mp h)) (iblk m c 0 ⟨n + 1, hn⟩) (iblk m c 1 ⟨n + 1, hn⟩) (outsAt c n (Nat.lt_of_succ_lt hn)).2.1 (outsAt c n (Nat.lt_of_succ_lt hn)).2.2)

/-- `outsAt` at a point of column block 0. -/
theorem outsAt_A (c : Dev nD) (t : Fin cfg0.N) (h0 : t.val % 8 = 0) (h1 : ¬t.val % 8 = 7) :
    outsAt m c t.val t.isLt = (out_idle, sout_A_0 c (grid0.coords t) (ms0 t) (hs0 t) (ms1 t) (hs1 t) (ms2 t) (hs2 t) (ms3 t) (hs3 t) (ms4 t) (hs4 t) (ms5 t) (hs5 t) scAcc (Memref.isWhole_whole _) scDeg (Memref.isWhole_whole _) ((hcond0 t).mpr h0) (fun h => h1 ((hcond1 t).mp h)) (iblk m c 0 t) (iblk m c 1 t), sout_A_1 c (grid0.coords t) (ms0 t) (hs0 t) (ms1 t) (hs1 t) (ms2 t) (hs2 t) (ms3 t) (hs3 t) (ms4 t) (hs4 t) (ms5 t) (hs5 t) scAcc (Memref.isWhole_whole _) scDeg (Memref.isWhole_whole _) ((hcond0 t).mpr h0) (fun h => h1 ((hcond1 t).mp h)) (iblk m c 0 t) (iblk m c 1 t)) := by
  obtain ⟨n, hn⟩ := t
  cases n with
  | zero => exact rfl
  | succ n => exact (dif_pos h0).trans rfl

/-- `outsAt` at a point of a middle column block, over what the point before left. -/
theorem outsAt_B (c : Dev nD) (t : Fin cfg0.N) (h0 : ¬t.val % 8 = 0) (h1 : ¬t.val % 8 = 7) :
    outsAt m c t.val t.isLt = (out_idle, sout_B_0 c (grid0.coords t) (ms0 t) (hs0 t) (ms1 t) (hs1 t) (ms2 t) (hs2 t) (ms3 t) (hs3 t) (ms4 t) (hs4 t) (ms5 t) (hs5 t) scAcc (Memref.isWhole_whole _) scDeg (Memref.isWhole_whole _) (fun h => h0 ((hcond0 t).mp h)) (fun h => h1 ((hcond1 t).mp h)) (iblk m c 0 t) (iblk m c 1 t) (outsAt m c (t.val - 1) (Nat.lt_of_le_of_lt (Nat.sub_le _ _) t.isLt)).2.1 (outsAt m c (t.val - 1) (Nat.lt_of_le_of_lt (Nat.sub_le _ _) t.isLt)).2.2, sout_B_1 c (grid0.coords t) (ms0 t) (hs0 t) (ms1 t) (hs1 t) (ms2 t) (hs2 t) (ms3 t) (hs3 t) (ms4 t) (hs4 t) (ms5 t) (hs5 t) scAcc (Memref.isWhole_whole _) scDeg (Memref.isWhole_whole _) (fun h => h0 ((hcond0 t).mp h)) (fun h => h1 ((hcond1 t).mp h)) (iblk m c 0 t) (iblk m c 1 t) (outsAt m c (t.val - 1) (Nat.lt_of_le_of_lt (Nat.sub_le _ _) t.isLt)).2.1 (outsAt m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- `outsAt` at a point of the last column block, over what the point before left. -/
theorem outsAt_C (c : Dev nD) (t : Fin cfg0.N) (h0 : ¬t.val % 8 = 0) (h1 : t.val % 8 = 7) :
    outsAt m c t.val t.isLt = (out_C_5 c (grid0.coords t) (ms0 t) (hs0 t) (ms1 t) (hs1 t) (ms2 t) (hs2 t) (ms3 t) (hs3 t) (ms4 t) (hs4 t) (ms5 t) (hs5 t) scAcc (Memref.isWhole_whole _) scDeg (Memref.isWhole_whole _) (fun h => h0 ((hcond0 t).mp h)) ((hcond1 t).mpr h1) (iblk m c 0 t) (iblk m c 1 t) (iblk m c 2 t) (iblk m c 3 t) (iblk m c 4 t) (outsAt m c (t.val - 1) (Nat.lt_of_le_of_lt (Nat.sub_le _ _) t.isLt)).2.1 (outsAt m c (t.val - 1) (Nat.lt_of_le_of_lt (Nat.sub_le _ _) t.isLt)).2.2, sout_C_0 c (grid0.coords t) (ms0 t) (hs0 t) (ms1 t) (hs1 t) (ms2 t) (hs2 t) (ms3 t) (hs3 t) (ms4 t) (hs4 t) (ms5 t) (hs5 t) scAcc (Memref.isWhole_whole _) scDeg (Memref.isWhole_whole _) (fun h => h0 ((hcond0 t).mp h)) ((hcond1 t).mpr h1) (iblk m c 0 t) (iblk m c 1 t) (iblk m c 2 t) (iblk m c 3 t) (iblk m c 4 t) (outsAt m c (t.val - 1) (Nat.lt_of_le_of_lt (Nat.sub_le _ _) t.isLt)).2.1 (outsAt m c (t.val - 1) (Nat.lt_of_le_of_lt (Nat.sub_le _ _) t.isLt)).2.2, sout_C_1 c (grid0.coords t) (ms0 t) (hs0 t) (ms1 t) (hs1 t) (ms2 t) (hs2 t) (ms3 t) (hs3 t) (ms4 t) (hs4 t) (ms5 t) (hs5 t) scAcc (Memref.isWhole_whole _) scDeg (Memref.isWhole_whole _) (fun h => h0 ((hcond0 t).mp h)) ((hcond1 t).mpr h1) (iblk m c 0 t) (iblk m c 1 t) (iblk m c 2 t) (iblk m c 3 t) (iblk m c 4 t) (outsAt m c (t.val - 1) (Nat.lt_of_le_of_lt (Nat.sub_le _ _) t.isLt)).2.1 (outsAt m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the two accumulators at anything; afterwards each
    at what the point before left in it. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => iprop(owns (c : Thread nD τ) scAcc fullShare ((outsAt m c n hn).2.1) ∗ owns (c : Thread nD τ) scDeg fullShare ((outsAt m c n hn).2.2))

theorem PhiS_zero (c : Dev nD) (n : ℕ) (h : n ≤ cfg0.N) (hz : n = 0) :
    PhiS m c n h = Pipeline.scopedRest (Ix := Unit) (Name := ℕ) (U := UR sig nD τ) (Lvl := ℕ) (Val := Elt F) spec0 c := by
  subst hz; rfl

theorem PhiS_succ (c : Dev nD) (n : ℕ) (hn : n < cfg0.N) :
    PhiS m c (n + 1) hn = iprop(owns (c : Thread nD τ) scAcc fullShare ((outsAt m c n hn).2.1) ∗ owns (c : Thread nD τ) scDeg fullShare ((outsAt m c n hn).2.2)) := rfl

theorem PhiS_pos (c : Dev nD) (n : ℕ) (h : n ≤ cfg0.N) (hz : n ≠ 0) :
    PhiS m c n h = iprop(owns (c : Thread nD τ) scAcc fullShare ((outsAt m c (n - 1) (by omega)).2.1) ∗ owns (c : Thread nD τ) scDeg fullShare ((outsAt m c (n - 1) (by omega)).2.2)) := by
  cases n with
  | zero => exact absurd rfl hz
  | succ n => rfl

/-! ## The pipeline's proof data -/

/-- The proof data on core `c`: the arrays as the region finds them; after the body each input's buffer at its block and
    the output's at `outsAt`; the invariant `PhiS`; nothing owed. The node features are read through two windows, which
    hold the two halves of that array's share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt m c t.val t.isLt).1
  Φ t := PhiS m c t.val (Nat.le_of_lt_succ t.isLt)
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = (outsAt m c t.val t.isLt).1 := by dsimp only [dats]

theorem before0 (c : Dev nD) (t : Fin cfg0.N) (d) : (dats m 0 c).before 0 t d = iblk m c 0 t := before0_of m (dats m 0 c) (A_eq m c 0) (after0 m c) t d
theorem before1 (c : Dev nD) (t : Fin cfg0.N) (d) : (dats m 0 c).before 1 t d = iblk m c 1 t := before1_of m (dats m 0 c) (A_eq m c 1) (after1 m c) t d
theorem before2 (c : Dev nD) (t : Fin cfg0.N) (d) : (dats m 0 c).before 2 t d = iblk m c 2 t := before2_of m (dats m 0 c) (A_eq m c 2) (after2 m c) t d
theorem before3 (c : Dev nD) (t : Fin cfg0.N) (d) : (dats m 0 c).before 3 t d = iblk m c 3 t := before3_of m (dats m 0 c) (A_eq m c 3) (after3 m c) t d
theorem before4 (c : Dev nD) (t : Fin cfg0.N) (d) : (dats m 0 c).before 4 t d = iblk m c 4 t := before4_of m (dats m 0 c) (A_eq m c 4) (after4 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 8000000 in
/-- The body at any point: the inputs' memrefs hold their blocks; the column block says which case the point is in;
    the invariant hands the body the two accumulators at what the point before left (at anything at the first
    point) and takes them back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt (show cfg0.N = 128 from N_0)
  rw [show (dats m 0 c).leavesExact 0 t = owns (c : Thread nD τ) (ms0 t) fullShare ((dats m 0 c).after 0 t) from by
    unfold Dat.leavesExact; rw [live0 (grid0.coords t)], after0]
  rw [show (dats m 0 c).leavesExact 1 t = owns (c : Thread nD τ) (ms1 t) fullShare ((dats m 0 c).after 1 t) from by
    unfold Dat.leavesExact; rw [live1 (grid0.coords t)], after1]
  rw [show (dats m 0 c).leavesExact 2 t = owns (c : Thread nD τ) (ms2 t) fullShare ((dats m 0 c).after 2 t) from by
    unfold Dat.leavesExact; rw [live2 (grid0.coords t)], after2]
  rw [show (dats m 0 c).leavesExact 3 t = owns (c : Thread nD τ) (ms3 t) fullShare ((dats m 0 c).after 3 t) from by
    unfold Dat.leavesExact; rw [live3 (grid0.coords t)], after3]
  rw [show (dats m 0 c).leavesExact 4 t = owns (c : Thread nD τ) (ms4 t) fullShare ((dats m 0 c).after 4 t) from by
    unfold Dat.leavesExact; rw [live4 (grid0.coords t)], after4]
  by_cases h0 : t.val % 8 = 0
  · have h1 : ¬t.val % 8 = 7 := by omega
    rw [Dat.leavesExact_idle (dats m 0 c) 5 t (idle5 t (fun h => h1 ((hcond1 t).mp h))) (noFlush5 t (fun h => h1 ((hcond1 t).mp h)))]
    rw [outsAt_A m c t h0 h1]
    unfold sout_A_0 sout_A_1; (try dsimp only)
    by_cases hz : t.val = 0
    · rw [PhiS_castSucc m c t, PhiS_zero m c _ _ hz, scoped_eq]
      iintro ⟨⟨HS0, HS1⟩, Ho, ⟨%d0, H0⟩, ⟨%d1, H1⟩, ⟨%d2, H2⟩, ⟨%d3, H3⟩, ⟨%d4, H4⟩, ⟨%d5, H5⟩⟩
      iapply ((kernelRun_A c (grid0.coords t) _ _ _ _ _ _ _ _ _ _ _ _ _ _ _ _ ((hcond0 t).mpr h0) (fun h => h1 ((hcond1 t).mp h)) (iblk m c 0 t) (iblk m c 1 t)).2.2.2 Set.univ _)
      isplitl [H0]; · iexact H0
      isplitl [H1]; · iexact H1
      isplitl [HS0]; · iexact HS0
      isplitl [HS1]; · iexact HS1
      iintro ⟨H0, H1, ⟨%es0, HS0⟩, ⟨%es1, HS1⟩⟩
      isplitl [HS0 HS1]
      · isplitl [HS0]
        · unfold owns; iexists _; isplitr
          swap; · iexact HS0
          ipureintro; exact View.read_writes_of_cover _ _ _ _ _ (scover_A_0 c _ _ _ _ _ _ _ _ _ _ _ _ _ _ _ _ _ _ _ _ _)
        · unfold owns; iexists _; isplitr
          swap; · iexact HS1
          ipureintro; exact View.read_writes_of_cover _ _ _ _ _ (scover_A_1 c _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS_castSucc m c t, PhiS_pos m c _ _ hz]
      iintro ⟨⟨HS0, HS1⟩, Ho, ⟨%d0, H0⟩, ⟨%d1, H1⟩, ⟨%d2, H2⟩, ⟨%d3, H3⟩, ⟨%d4, H4⟩, ⟨%d5, H5⟩⟩
      iapply ((kernelRun_A c (grid0.coords t) _ _ _ _ _ _ _ _ _ _ _ _ _ _ _ _ ((hcond0 t).mpr h0) (fun h => h1 ((hcond1 t).mp h)) (iblk m c 0 t) (iblk m c 1 t)).2.2.2 Set.univ _)
      isplitl [H0]; · iexact H0
      isplitl [H1]; · iexact H1
      isplitl [HS0]; · iexists _; iexact HS0
      isplitl [HS1]; · iexists _; iexact HS1
      iintro ⟨H0, H1, ⟨%es0, HS0⟩, ⟨%es1, HS1⟩⟩
      isplitl [HS0 HS1]
      · isplitl [HS0]
        · unfold owns; iexists _; isplitr
          swap; · iexact HS0
          ipureintro; exact View.read_writes_of_cover _ _ _ _ _ (scover_A_0 c _ _ _ _ _ _ _ _ _ _ _ _ _ _ _ _ _ _ _ _ _)
        · unfold owns; iexists _; isplitr
          swap; · iexact HS1
          ipureintro; exact View.read_writes_of_cover _ _ _ _ _ (scover_A_1 c _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := fun h => h0 (by rw [h])
    by_cases h1 : t.val % 8 = 7
    · rw [show (dats m 0 c).leavesExact 5 t = owns (c : Thread nD τ) (ms5 t) fullShare ((dats m 0 c).after 5 t) from by
        unfold Dat.leavesExact; rw [live5 t ((hcond1 t).mpr h1)], after5]
      rw [outsAt_C m c t h0 h1]
      unfold out_C_5 sout_C_0 sout_C_1; (try dsimp only)
      rw [PhiS_castSucc m c t, PhiS_pos m c _ _ hz]
      iintro ⟨⟨HS0, HS1⟩, Ho, ⟨%d0, H0⟩, ⟨%d1, H1⟩, ⟨%d2, H2⟩, ⟨%d3, H3⟩, ⟨%d4, H4⟩, ⟨%d5, H5⟩⟩
      iapply ((kernelRun_C c (grid0.coords t) _ _ _ _ _ _ _ _ _ _ _ _ _ _ _ _ (fun h => h0 ((hcond0 t).mp h)) ((hcond1 t).mpr h1) (iblk m c 0 t) (iblk m c 1 t) (iblk m c 2 t) (iblk m c 3 t) (iblk m c 4 t) _ _).2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      iintro ⟨H0, H1, H2, H3, H4, ⟨%e5, H5⟩, ⟨%es0, HS0⟩, ⟨%es1, HS1⟩⟩
      isplitl [HS0 HS1]
      · isplitl [HS0]
        · unfold owns; iexists _; isplitr
          swap; · iexact HS0
          ipureintro; exact View.read_writes_of_cover _ _ _ _ _ (scover_C_0 c _ _ _ _ _ _ _ _ _ _ _ _ _ _ _ _ _ _ _ _ _ _ _ _ _ _)
        · unfold owns; iexists _; isplitr
          swap; · iexact HS1
          ipureintro; exact View.read_writes_of_cover _ _ _ _ _ (scover_C_1 c _ _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover_C_5 c _ _ _ _ _ _ _ _ _ _ _ _ _ _ _ _ _ _ _ _ _ _ _ _ _ _)
    · rw [Dat.leavesExact_idle (dats m 0 c) 5 t (idle5 t (fun h => h1 ((hcond1 t).mp h))) (noFlush5 t (fun h => h1 ((hcond1 t).mp h)))]
      rw [outsAt_B m c t h0 h1]
      unfold sout_B_0 sout_B_1; (try dsimp only)
      rw [PhiS_castSucc m c t, PhiS_pos m c _ _ hz]
      iintro ⟨⟨HS0, HS1⟩, Ho, ⟨%d0, H0⟩, ⟨%d1, H1⟩, ⟨%d2, H2⟩, ⟨%d3, H3⟩, ⟨%d4, H4⟩, ⟨%d5, H5⟩⟩
      iapply ((kernelRun_B c (grid0.coords t) _ _ _ _ _ _ _ _ _ _ _ _ _ _ _ _ (fun h => h0 ((hcond0 t).mp h)) (fun h => h1 ((hcond1 t).mp h)) (iblk m c 0 t) (iblk m c 1 t) _ _).2.2.2 Set.univ _)
      isplitl [H0]; · iexact H0
      isplitl [H1]; · iexact H1
      isplitl [HS0]; · iexact HS0
      isplitl [HS1]; · iexact HS1
      iintro ⟨H0, H1, ⟨%es0, HS0⟩, ⟨%es1, HS1⟩⟩
      isplitl [HS0 HS1]
      · isplitl [HS0]
        · unfold owns; iexists _; isplitr
          swap; · iexact HS0
          ipureintro; exact View.read_writes_of_cover _ _ _ _ _ (scover_B_0 c _ _ _ _ _ _ _ _ _ _ _ _ _ _ _ _ _ _ _ _ _ _ _)
        · unfold owns; iexists _; isplitr
          swap; · iexact HS1
          ipureintro; exact View.read_writes_of_cover _ _ _ _ _ (scover_B_1 c _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) :
    iprop((BI.emp : sProp 𝕄) ∗ Pipeline.scopedRest (Ix := Unit) (Name := ℕ) (U := UR sig nD τ) (Lvl := ℕ) (Val := Elt F) spec0 c) ⊢ (dats m 0 c).Φ 0 := by
  rw [show (dats m 0 c).Φ 0 = PhiS m c 0 (Nat.zero_le _) from rfl, PhiS_zero m c 0 _ rfl]
  iintro ⟨-, H⟩; iexact H

/-- After the last point the invariant gives the two accumulators back, their contents forgotten. -/
theorem hout (c : Dev nD) :
    (dats m 0 c).Φ (Fin.last cfg0.N) ⊢ iprop((BI.emp : sProp 𝕄) ∗ Pipeline.scopedRest (Ix := Unit) (Name := ℕ) (U := UR sig nD τ) (Lvl := ℕ) (Val := Elt F) spec0 c) := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 128 := N_0; omega), scoped_eq]
  iintro ⟨HS0, HS1⟩
  isplitr; · iempintro
  isplitl [HS0]
  · iexists _; iexact HS0
  · iexists _; iexact HS1

end Cert.KernelIdeal.Hand

end
-- ==== Proof.KI.Region.lean ====
/-
  The launch of the one region. The launch deals each array's buffer whole; the node features, read through two
  windows, are split into the two halves of their share, one per window. The run ends with every array at what the
  pipeline's write-backs leave: an input array as it was, the result array at its entry contents overwritten, row
  block by row block, by what the body stored at the last column block of each.
-/
import proofs.«142667_j78451872628893_1_alg».proof.Proof.KI.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers behind the windows' arrays, each whole, are the pipeline's arrays at their shares: the node
    features' buffer split between its two windows. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  have e0 : ((cfg0.win 0).arr.view.loc (c.tc : Thread nD τ) ↦[(cfg0.win 0).arr.view.set]{(dats m 0 c).share 0} (dats m 0 c).arrAt 0 0 : sProp 𝕄)
      = ((c.tc : Thread nD τ).loc main_arg1 ↦{fullShare} V m c main_arg1) := by rw [(arr_whole0 0).set_eq_univ]; rfl
  have e1 : ((cfg0.win 1).arr.view.loc (c.tc : Thread nD τ) ↦[(cfg0.win 1).arr.view.set]{(dats m 0 c).share 1} (dats m 0 c).arrAt 1 0 : sProp 𝕄)
      = ((c.tc : Thread nD τ).loc main_arg0 ↦{fullShare.left} V m c main_arg0) := by rw [(arr_whole0 1).set_eq_univ]; rfl
  have e2 : ((cfg0.win 2).arr.view.loc (c.tc : Thread nD τ) ↦[(cfg0.win 2).arr.view.set]{(dats m 0 c).share 2} (dats m 0 c).arrAt 2 0 : sProp 𝕄)
      = ((c.tc : Thread nD τ).loc main_arg0 ↦{fullShare.right} V m c main_arg0) := by rw [(arr_whole0 2).set_eq_univ]; rfl
  have e3 : ((cfg0.win 3).arr.view.loc (c.tc : Thread nD τ) ↦[(cfg0.win 3).arr.view.set]{(dats m 0 c).share 3} (dats m 0 c).arrAt 3 0 : sProp 𝕄)
      = ((c.tc : Thread nD τ).loc main_arg2 ↦{fullShare} V m c main_arg2) := by rw [(arr_whole0 3).set_eq_univ]; rfl
  have e4 : ((cfg0.win 4).arr.view.loc (c.tc : Thread nD τ) ↦[(cfg0.win 4).arr.view.set]{(dats m 0 c).share 4} (dats m 0 c).arrAt 4 0 : sProp 𝕄)
      = ((c.tc : Thread nD τ).loc main_arg3 ↦{fullShare} V m c main_arg3) := by rw [(arr_whole0 4).set_eq_univ]; rfl
  have e5 : ((cfg0.win 5).arr.view.loc (c.tc : Thread nD τ) ↦[(cfg0.win 5).arr.view.set]{(dats m 0 c).share 5} (dats m 0 c).arrAt 5 0 : sProp 𝕄)
      = ((c.tc : Thread nD τ).loc main_v0 ↦{fullShare} V m c main_v0) := by rw [(arr_whole0 5).set_eq_univ]; rfl
  unfold Pipeline.arrBufs Dat.arrays
  rw [bigSep_eq_bigSepL_of_eq [main_arg1, main_arg0, main_arg2, main_arg3, main_v0] (by decide) (by decide), bigSep_W0]
  rw [e0, e1, e2, e3, e4, e5]
  show (iprop(((c.tc : Thread nD τ).loc main_arg1 ↦{fullShare} V m c main_arg1) ∗ ((c.tc : Thread nD τ).loc main_arg0 ↦{fullShare} V m c main_arg0) ∗ ((c.tc : Thread nD τ).loc main_arg2 ↦{fullShare} V m c main_arg2) ∗ ((c.tc : Thread nD τ).loc main_arg3 ↦{fullShare} V m c main_arg3) ∗ ((c.tc : Thread nD τ).loc main_v0 ↦{fullShare} V m c main_v0)) : sProp 𝕄)
    ⊢ iprop(((c.tc : Thread nD τ).loc main_arg1 ↦{fullShare} V m c main_arg1) ∗ ((c.tc : Thread nD τ).loc main_arg0 ↦{fullShare.left} V m c main_arg0) ∗ ((c.tc : Thread nD τ).loc main_arg0 ↦{fullShare.right} V m c main_arg0) ∗ ((c.tc : Thread nD τ).loc main_arg2 ↦{fullShare} V m c main_arg2) ∗ ((c.tc : Thread nD τ).loc main_arg3 ↦{fullShare} V m c main_arg3) ∗ ((c.tc : Thread nD τ).loc main_v0 ↦{fullShare} V m c main_v0))
  iintro ⟨H1, H0, H2, H3, H5⟩
  ihave H0 := (pointsTo_share (PosShare.mem_left_op_right fullShare)).1 $$ H0
  icases H0 with ⟨H0l, H0r⟩
  isplitl [H1]; · iexact H1
  isplitl [H0l]; · iexact H0l
  isplitl [H0r]; · iexact H0r
  isplitl [H2]; · iexact H2
  isplitl [H3]; · iexact H3
  iexact H5

set_option backward.isDefEq.respectTransparency.types false in
/-- From any memory with zero counters every weakly fair execution of @main terminates, and every final state has
    every array of the pipeline at what the write-backs leave of it. -/
theorem run_main : θ_run defs (onTc (τ := τ) (main (F := F))) ⟨m, fun _ => 0, ρ⟩ (fun r => ∀ c : Dev nD,
      ∀ w, r.2.mem (((cfgs 0).spec w).arr.view.loc (c.tc : Thread nD τ)) = (dats m 0 c).arrAt w (cfgs 0).N) :=
  Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj)) (hu₀ := .rfl)
    (V := V m) (hmain := Pipeline.hmain_region cfgs 0 defs₀ Variants.none m main fun c => (main_chain c).trans rfl)
    (hsplit := hsplit m)
    (X := fun _ => BI.emp) (Y := fun _ => BI.emp)
    (Z := fun c => Pipeline.unscopedRest (Ix := Unit) (Name := ℕ) (U := UR sig nD τ) (Lvl := ℕ) spec0 c (V m c))
    (hX := fun c => by iintro H; isplitr; · iempintro
                       iexact H)
    (hin := hin m) (hout := hout m)
    (QY := fun _ _ => True)
    (hY := fun c s' => by iintro ⟨-, -, HSI⟩; imodintro; isplitr; · ipureintro; trivial
                          iexact HSI)
    (hQ := fun s h c => (h c).1)

/-- The run read at the program's arrays: the result array at what the write-backs leave, the four arguments unchanged
    (an input window's array is never written back). -/
theorem run_arrays : θ_run defs (onTc (τ := τ) (main (F := F))) ⟨m, fun _ => 0, ρ⟩ (fun r => ∀ c : Dev nD,
      r.2.mem ((c.tc : Thread nD τ).loc main_v0) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨h c 5,
      (h c 1).trans (((dats m 0 c).arrAt_in 1 rfl _).trans (A_eq m c 1)),
      (h c 0).trans (((dats m 0 c).arrAt_in 0 rfl _).trans (A_eq m c 0)),
      (h c 3).trans (((dats m 0 c).arrAt_in 3 rfl _).trans (A_eq m c 3)),
      (h c 4).trans (((dats m 0 c).arrAt_in 4 rfl _).trans (A_eq m c 4))⟩) (run_main m ρ)

/-- The frame: the program runs to the end, nothing faults, and its four argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run_arrays m ρ)

end Cert.KernelIdeal.Hand

end
-- ==== Proof.KI.Pieces.lean ====
/-
  What each case of the body leaves in the two accumulators and in the output window, as values: the covering
  stores' payloads over the blocks the body loaded. At column block 0 the accumulators are first reset to zero, so
  the partial sums are added to zero; elsewhere to what the accumulators held. At the last column block the stored
  row block is the body's closing arithmetic of the two UPDATED accumulators, the node's own features, the weights
  and the bias.
-/
import proofs.«142667_j78451872628893_1_alg».proof.Proof.KI.Frame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a; rfl

theorem sout_B_0_eq (c : Dev nD) (i : grid0.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S128x64 .f32) (harg5 : arg5.IsWhole) (arg6 : Memref sig .tc .vmem S64 .f32) (harg6 : arg6.IsWhole) (arg7 : Memref sig .tc .vmem S1024x64 .f32) (harg7 : arg7.IsWhole) (arg8 : Memref sig .tc .vmem S1024x64 .f32) (harg8 : arg8.IsWhole) (arg9 : Memref sig .tc .vmem S1024x1 .f32) (harg9 : arg9.IsWhole) (hc0 : ¬cond0 i) (hc1 : ¬cond1 i) (x0 : Vec F S1024x2048 .f32) (x1 : Vec F S2048x64 .f32) (xs0 : Vec F S1024x64 .f32) (xs1 : Vec F S1024x1 .f32) :
    sout_B_0 c i arg2 harg2 arg3 harg3 arg4 harg4 arg5 harg5 arg6 harg6 arg7 harg7 arg8 harg8 arg9 harg9 hc0 hc1 x0 x1 xs0 xs1 = k0_pay3 x0 x1 xs0 := by
  unfold sout_B_0
  rw [View.read_writes_eq_canon _ _ _ (scover_B_0 c i arg2 harg2 arg3 harg3 arg4 harg4 arg5 harg5 arg6 harg6 arg7 harg7 arg8 harg8 arg9 harg9 hc0 hc1 x0 x1 xs0 xs1)]
  unfold kernelRun_B
  dsimp only
  sl_unfold_words
  rw [View.canon_unit_zero hz2]
  simp only [View.readAt_eq_ld, harg2.read_unread, harg3.read_unread, harg4.read_unread, harg5.read_unread, harg6.read_unread, harg8.read_unread, harg9.read_unread,
    View.ld_unit_zero (S := S1024x2048) hz2, View.ld_unit_zero (S := S2048x64) hz2, View.ld_unit_zero (S := S1024x64) hz2, View.ld_unit_zero (S := S1024x1) hz2, View.ld_unit_zero (S := S128x64) hz2, View.ld_unit_zero (S := S64) hz1,
    View.readCov_unit_zero (S := S1024x64) _ hz2, View.readCov_unit_zero (S := S1024x1) _ hz2]

theorem sout_B_1_eq (c : Dev nD) (i : grid0.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S128x64 .f32) (harg5 : arg5.IsWhole) (arg6 : Memref sig .tc .vmem S64 .f32) (harg6 : arg6.IsWhole) (arg7 : Memref sig .tc .vmem S1024x64 .f32) (harg7 : arg7.IsWhole) (arg8 : Memref sig .tc .vmem S1024x64 .f32) (harg8 : arg8.IsWhole) (arg9 : Memref sig .tc .vmem S1024x1 .f32) (harg9 : arg9.IsWhole) (hc0 : ¬cond0 i) (hc1 : ¬cond1 i) (x0 : Vec F S1024x2048 .f32) (x1 : Vec F S2048x64 .f32) (xs0 : Vec F S1024x64 .f32) (xs1 : Vec F S1024x1 .f32) :
    sout_B_1 c i arg2 harg2 arg3 harg3 arg4 harg4 arg5 harg5 arg6 harg6 arg7 harg7 arg8 harg8 arg9 harg9 hc0 hc1 x0 x1 xs0 xs1 = k0_pay4 x0 xs1 := by
  unfold sout_B_1
  rw [View.read_writes_eq_canon _ _ _ (scover_B_1 c i arg2 harg2 arg3 harg3 arg4 harg4 arg5 harg5 arg6 harg6 arg7 harg7 arg8 harg8 arg9 harg9 hc0 hc1 x0 x1 xs0 xs1)]
  unfold kernelRun_B
  dsimp only
  sl_unfold_words
  rw [View.canon_unit_zero hz2]
  simp only [View.readAt_eq_ld, harg2.read_unread, harg3.read_unread, harg4.read_unread, harg5.read_unread, harg6.read_unread, harg8.read_unread, harg9.read_unread,
    View.ld_unit_zero (S := S1024x2048) hz2, View.ld_unit_zero (S := S2048x64) hz2, View.ld_unit_zero (S := S1024x64) hz2, View.ld_unit_zero (S := S1024x1) hz2, View.ld_unit_zero (S := S128x64) hz2, View.ld_unit_zero (S := S64) hz1,
    View.readCov_unit_zero (S := S1024x64) _ hz2, View.readCov_unit_zero (S := S1024x1) _ hz2]

theorem sout_A_0_eq (c : Dev nD) (i : grid0.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S128x64 .f32) (harg5 : arg5.IsWhole) (arg6 : Memref sig .tc .vmem S64 .f32) (harg6 : arg6.IsWhole) (arg7 : Memref sig .tc .vmem S1024x64 .f32) (harg7 : arg7.IsWhole) (arg8 : Memref sig .tc .vmem S1024x64 .f32) (harg8 : arg8.IsWhole) (arg9 : Memref sig .tc .vmem S1024x1 .f32) (harg9 : arg9.IsWhole) (hc0 : cond0 i) (hc1 : ¬cond1 i) (x0 : Vec F S1024x2048 .f32) (x1 : Vec F S2048x64 .f32) :
    sout_A_0 c i arg2 harg2 arg3 harg3 arg4 harg4 arg5 harg5 arg6 harg6 arg7 harg7 arg8 harg8 arg9 harg9 hc0 hc1 x0 x1 = k0_pay3 x0 x1 (k0_pay1 (F := F)) := by
  unfold sout_A_0
  rw [View.read_writes_eq_canon _ _ _ (scover_A_0 c i arg2 harg2 arg3 harg3 arg4 harg4 arg5 harg5 arg6 harg6 arg7 harg7 arg8 harg8 arg9 harg9 hc0 hc1 x0 x1)]
  unfold kernelRun_A
  dsimp only
  sl_unfold_words
  rw [View.canon_cons_unit_zero (S := S1024x64) hz2]
  simp only [View.readAt_eq_ld, harg2.read_unread, harg3.read_unread, harg4.read_unread, harg5.read_unread, harg6.read_unread, harg8.read_unread, harg9.read_unread,
    View.ld_unit_zero (S := S1024x2048) hz2, View.ld_unit_zero (S := S2048x64) hz2, View.ld_unit_zero (S := S1024x64) hz2, View.ld_unit_zero (S := S1024x1) hz2, View.ld_unit_zero (S := S128x64) hz2, View.ld_unit_zero (S := S64) hz1,
    View.readCov_unit_zero (S := S1024x64) _ hz2, View.readCov_unit_zero (S := S1024x1) _ hz2]

theorem sout_A_1_eq (c : Dev nD) (i : grid0.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S128x64 .f32) (harg5 : arg5.IsWhole) (arg6 : Memref sig .tc .vmem S64 .f32) (harg6 : arg6.IsWhole) (arg7 : Memref sig .tc .vmem S1024x64 .f32) (harg7 : arg7.IsWhole) (arg8 : Memref sig .tc .vmem S1024x64 .f32) (harg8 : arg8.IsWhole) (arg9 : Memref sig .tc .vmem S1024x1 .f32) (harg9 : arg9.IsWhole) (hc0 : cond0 i) (hc1 : ¬cond1 i) (x0 : Vec F S1024x2048 .f32) (x1 : Vec F S2048x64 .f32) :
    sout_A_1 c i arg2 harg2 arg3 harg3 arg4 harg4 arg5 harg5 arg6 harg6 arg7 harg7 arg8 harg8 arg9 harg9 hc0 hc1 x0 x1 = k0_pay4 x0 (k0_pay2 (F := F)) := by
  unfold sout_A_1
  rw [View.read_writes_eq_canon _ _ _ (scover_A_1 c i arg2 harg2 arg3 harg3 arg4 harg4 arg5 harg5 arg6 harg6 arg7 harg7 arg8 harg8 arg9 harg9 hc0 hc1 x0 x1)]
  unfold kernelRun_A
  dsimp only
  sl_unfold_words
  rw [View.canon_cons_unit_zero (S := S1024x1) hz2]
  simp only [View.readAt_eq_ld, harg2.read_unread, harg3.read_unread, harg4.read_unread, harg5.read_unread, harg6.read_unread, harg8.read_unread, harg9.read_unread,
    View.ld_unit_zero (S := S1024x2048) hz2, View.ld_unit_zero (S := S2048x64) hz2, View.ld_unit_zero (S := S1024x64) hz2, View.ld_unit_zero (S := S1024x1) hz2, View.ld_unit_zero (S := S128x64) hz2, View.ld_unit_zero (S := S64) hz1,
    View.readCov_unit_zero (S := S1024x64) _ hz2, View.readCov_unit_zero (S := S1024x1) _ hz2]

theorem sout_C_0_eq (c : Dev nD) (i : grid0.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S128x64 .f32) (harg5 : arg5.IsWhole) (arg6 : Memref sig .tc .vmem S64 .f32) (harg6 : arg6.IsWhole) (arg7 : Memref sig .tc .vmem S1024x64 .f32) (harg7 : arg7.IsWhole) (arg8 : Memref sig .tc .vmem S1024x64 .f32) (harg8 : arg8.IsWhole) (arg9 : Memref sig .tc .vmem S1024x1 .f32) (harg9 : arg9.IsWhole) (hc0 : ¬cond0 i) (hc1 : cond1 i) (x0 : Vec F S1024x2048 .f32) (x1 : Vec F S2048x64 .f32) (x2 : Vec F S1024x64 .f32) (x3 : Vec F S128x64 .f32) (x4 : Vec F S64 .f32) (xs0 : Vec F S1024x64 .f32) (xs1 : Vec F S1024x1 .f32) :
    sout_C_0 c i arg2 harg2 arg3 harg3 arg4 harg4 arg5 harg5 arg6 harg6 arg7 harg7 arg8 harg8 arg9 harg9 hc0 hc1 x0 x1 x2 x3 x4 xs0 xs1 = k0_pay3 x0 x1 xs0 := by
  unfold sout_C_0
  rw [View.read_writes_eq_canon _ _ _ (scover_C_0 c i arg2 harg2 arg3 harg3 arg4 harg4 arg5 harg5 arg6 harg6 arg7 harg7 arg8 harg8 arg9 harg9 hc0 hc1 x0 x1 x2 x3 x4 xs0 xs1)]
  unfold kernelRun_C
  dsimp only
  sl_unfold_words
  rw [View.canon_unit_zero hz2]
  simp only [View.readAt_eq_ld, harg2.read_unread, harg3.read_unread, harg4.read_unread, harg5.read_unread, harg6.read_unread, harg8.read_unread, harg9.read_unread,
    View.ld_unit_zero (S := S1024x2048) hz2, View.ld_unit_zero (S := S2048x64) hz2, View.ld_unit_zero (S := S1024x64) hz2, View.ld_unit_zero (S := S1024x1) hz2, View.ld_unit_zero (S := S128x64) hz2, View.ld_unit_zero (S := S64) hz1,
    View.readCov_unit_zero (S := S1024x64) _ hz2, View.readCov_unit_zero (S := S1024x1) _ hz2]

theorem sout_C_1_eq (c : Dev nD) (i : grid0.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S128x64 .f32) (harg5 : arg5.IsWhole) (arg6 : Memref sig .tc .vmem S64 .f32) (harg6 : arg6.IsWhole) (arg7 : Memref sig .tc .vmem S1024x64 .f32) (harg7 : arg7.IsWhole) (arg8 : Memref sig .tc .vmem S1024x64 .f32) (harg8 : arg8.IsWhole) (arg9 : Memref sig .tc .vmem S1024x1 .f32) (harg9 : arg9.IsWhole) (hc0 : ¬cond0 i) (hc1 : cond1 i) (x0 : Vec F S1024x2048 .f32) (x1 : Vec F S2048x64 .f32) (x2 : Vec F S1024x64 .f32) (x3 : Vec F S128x64 .f32) (x4 : Vec F S64 .f32) (xs0 : Vec F S1024x64 .f32) (xs1 : Vec F S1024x1 .f32) :
    sout_C_1 c i arg2 harg2 arg3 harg3 arg4 harg4 arg5 harg5 arg6 harg6 arg7 harg7 arg8 harg8 arg9 harg9 hc0 hc1 x0 x1 x2 x3 x4 xs0 xs1 = k0_pay4 x0 xs1 := by
  unfold sout_C_1
  rw [View.read_writes_eq_canon _ _ _ (scover_C_1 c i arg2 harg2 arg3 harg3 arg4 harg4 arg5 harg5 arg6 harg6 arg7 harg7 arg8 harg8 arg9 harg9 hc0 hc1 x0 x1 x2 x3 x4 xs0 xs1)]
  unfold kernelRun_C
  dsimp only
  sl_unfold_words
  rw [View.canon_unit_zero hz2]
  simp only [View.readAt_eq_ld, harg2.read_unread, harg3.read_unread, harg4.read_unread, harg5.read_unread, harg6.read_unread, harg8.read_unread, harg9.read_unread,
    View.ld_unit_zero (S := S1024x2048) hz2, View.ld_unit_zero (S := S2048x64) hz2, View.ld_unit_zero (S := S1024x64) hz2, View.ld_unit_zero (S := S1024x1) hz2, View.ld_unit_zero (S := S128x64) hz2, View.ld_unit_zero (S := S64) hz1,
    View.readCov_unit_zero (S := S1024x64) _ hz2, View.readCov_unit_zero (S := S1024x1) _ hz2]

theorem out_C_5_eq (c : Dev nD) (i : grid0.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S128x64 .f32) (harg5 : arg5.IsWhole) (arg6 : Memref sig .tc .vmem S64 .f32) (harg6 : arg6.IsWhole) (arg7 : Memref sig .tc .vmem S1024x64 .f32) (harg7 : arg7.IsWhole) (arg8 : Memref sig .tc .vmem S1024x64 .f32) (harg8 : arg8.IsWhole) (arg9 : Memref sig .tc .vmem S1024x1 .f32) (harg9 : arg9.IsWhole) (hc0 : ¬cond0 i) (hc1 : cond1 i) (x0 : Vec F S1024x2048 .f32) (x1 : Vec F S2048x64 .f32) (x2 : Vec F S1024x64 .f32) (x3 : Vec F S128x64 .f32) (x4 : Vec F S64 .f32) (xs0 : Vec F S1024x64 .f32) (xs1 : Vec F S1024x1 .f32) :
    out_C_5 c i arg2 harg2 arg3 harg3 arg4 harg4 arg5 harg5 arg6 harg6 arg7 harg7 arg8 harg8 arg9 harg9 hc0 hc1 x0 x1 x2 x3 x4 xs0 xs1 = k0_pay5 (k0_pay4 x0 xs1) x2 (k0_pay3 x0 x1 xs0) x3 x4 := by
  unfold out_C_5
  rw [View.read_writes_eq_canon _ _ _ (cover_C_5 c i arg2 harg2 arg3 harg3 arg4 harg4 arg5 harg5 arg6 harg6 arg7 harg7 arg8 harg8 arg9 harg9 hc0 hc1 x0 x1 x2 x3 x4 xs0 xs1)]
  unfold kernelRun_C
  dsimp only
  sl_unfold_words
  rw [View.canon_unit_zero hz2]
  simp only [View.readAt_eq_ld, harg2.read_unread, harg3.read_unread, harg4.read_unread, harg5.read_unread, harg6.read_unread, harg8.read_unread, harg9.read_unread,
    View.ld_unit_zero (S := S1024x2048) hz2, View.ld_unit_zero (S := S2048x64) hz2, View.ld_unit_zero (S := S1024x64) hz2, View.ld_unit_zero (S := S1024x1) hz2, View.ld_unit_zero (S := S128x64) hz2, View.ld_unit_zero (S := S64) hz1,
    View.readCov_unit_zero (S := S1024x64) _ hz2, View.readCov_unit_zero (S := S1024x1) _ hz2]

end Cert.KernelIdeal.Hand

end
-- ==== Proof.KI.Blocks.lean ====
/-
  The windows' blocks read at an index. The grid is 16 × 8 and its last axis is the fast one: point t is row block
  t / 8 and column block t % 8. A block's coordinate on an axis is the block index times the block's size plus the
  coordinate inside the block, so each block of the adjacency, of the features (by column block and by row block),
  of the weights, of the bias and of the result is the array read at explicit coordinates; and an index of the result
  is in point t's block exactly when its row lies in row block t / 8.
-/
import proofs.«142667_j78451872628893_1_alg».proof.Proof.KI.Runs
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

variable (m : (ℓ : Loc nD τ sig) → Buf (Elt F) ℓ)

/-! ## The index maps over the grid -/

/-- The adjacency's block index at point t is (t / 8, t % 8). -/
theorem idx0 : ∀ t : Fin cfg0.N, win0_0.index t (0 : Fin 2) = t.val / 8 ∧ win0_0.index t (1 : Fin 2) = t.val % 8 :=
  (by decide +kernel : ∀ t : Fin grid0.N, win0_0.index t (0 : Fin 2) = t.val / 8 ∧ win0_0.index t (1 : Fin 2) = t.val % 8)

/-- The features' column-block window: its block index at point t is (t % 8, 0). -/
theorem idx1 : ∀ t : Fin cfg0.N, win0_1.index t (0 : Fin 2) = t.val % 8 ∧ win0_1.index t (1 : Fin 2) = 0 :=
  (by decide +kernel : ∀ t : Fin grid0.N, win0_1.index t (0 : Fin 2) = t.val % 8 ∧ win0_1.index t (1 : Fin 2) = 0)

/-- The features' row-block window: its block index at point t is (t / 8, 0). -/
theorem idx2 : ∀ t : Fin cfg0.N, win0_2.index t (0 : Fin 2) = t.val / 8 ∧ win0_2.index t (1 : Fin 2) = 0 :=
  (by decide +kernel : ∀ t : Fin grid0.N, win0_2.index t (0 : Fin 2) = t.val / 8 ∧ win0_2.index t (1 : Fin 2) = 0)

/-- The weights' one block is at (0, 0). -/
theorem idx3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)

/-- The bias's one block is at 0. -/
theorem idx4 : ∀ t : Fin cfg0.N, win0_4.index t (0 : Fin 1) = 0 :=
  (by decide +kernel : ∀ t : Fin grid0.N, win0_4.index t (0 : Fin 1) = 0)

/-- The result's block index at point t is (t / 8, 0). -/
theorem idx5 : ∀ t : Fin cfg0.N, win0_5.index t (0 : Fin 2) = t.val / 8 ∧ win0_5.index t (1 : Fin 2) = 0 :=
  (by decide +kernel : ∀ t : Fin grid0.N, win0_5.index t (0 : Fin 2) = t.val / 8 ∧ win0_5.index t (1 : Fin 2) = 0)

/-! ## The input blocks -/

/-- Block (t / 8, t % 8) of the adjacency, read at (p, k). -/
theorem iblk0_apply (c : Dev nD) (t : Fin cfg0.N) (p : Fin 1024) (k : Fin 2048) :
    iblk m c 0 t (ix2 p k)
      = V m c main_arg1 (ix2 (⟨1024 * (t.val / 8) + p.val, by have := t.isLt; have : cfg0.N = 128 := N_0; omega⟩ : Fin 16384)
          (⟨2048 * (t.val % 8) + k.val, by have := t.isLt; have : cfg0.N = 128 := N_0; omega⟩ : Fin 16384)) := by
  obtain ⟨e0, e1⟩ := idx0 t
  show V m c main_arg1 (((cfg0.win 0).blk t).view.emb (ix2 p k)) = _
  refine congrArg _ ?_
  funext a; apply Fin.ext
  match a with
  | ⟨0, _⟩ => show win0_0.index t (0 : Fin 2) * 1024 + 1 * p.val = 1024 * (t.val / 8) + p.val; omega
  | ⟨1, _⟩ => show win0_0.index t (1 : Fin 2) * 2048 + 1 * k.val = 2048 * (t.val % 8) + k.val; omega

/-- Column block t % 8 of the features, read at (k, q). -/
theorem iblk1_apply (c : Dev nD) (t : Fin cfg0.N) (k : Fin 2048) (q : Fin 64) :
    iblk m c 1 t (ix2 k q)
      = V m c main_arg0 (ix2 (⟨2048 * (t.val % 8) + k.val, by have := t.isLt; have : cfg0.N = 128 := N_0; omega⟩ : Fin 16384) q) := by
  obtain ⟨e0, e1⟩ := idx1 t
  show V m c main_arg0 (((cfg0.win 1).blk t).view.emb (ix2 k q)) = _
  refine congrArg _ ?_
  funext a; apply Fin.ext
  match a with
  | ⟨0, _⟩ => show win0_1.index t (0 : Fin 2) * 2048 + 1 * k.val = 2048 * (t.val % 8) + k.val; omega
  | ⟨1, _⟩ => show win0_1.index t (1 : Fin 2) * 64 + 1 * q.val = q.val; omega

/-- Row block t / 8 of the features, read at (p, q). -/
theorem iblk2_apply (c : Dev nD) (t : Fin cfg0.N) (p : Fin 1024) (q : Fin 64) :
    iblk m c 2 t (ix2 p q)
      = V m c main_arg0 (ix2 (⟨1024 * (t.val / 8) + p.val, by have := t.isLt; have : cfg0.N = 128 := N_0; omega⟩ : Fin 16384) q) := by
  obtain ⟨e0, e1⟩ := idx2 t
  show V m c main_arg0 (((cfg0.win 2).blk t).view.emb (ix2 p q)) = _
  refine congrArg _ ?_
  funext a; apply Fin.ext
  match a with
  | ⟨0, _⟩ => show win0_2.index t (0 : Fin 2) * 1024 + 1 * p.val = 1024 * (t.val / 8) + p.val; omega
  | ⟨1, _⟩ => show win0_2.index t (1 : Fin 2) * 64 + 1 * q.val = q.val; omega

/-- The weights' one block is the whole array. -/
theorem iblk3_eq (c : Dev nD) (t : Fin cfg0.N) : iblk m c 3 t = V m c main_arg2 := by
  obtain ⟨e0, e1⟩ := idx3 t
  funext j
  show V m c main_arg2 (((cfg0.win 3).blk t).view.emb j) = V m c main_arg2 j
  refine congrArg _ ?_
  funext a; apply Fin.ext
  match a with
  | ⟨0, _⟩ => show win0_3.index t (0 : Fin 2) * 128 + 1 * (j 0).val = (j 0).val; omega
  | ⟨1, _⟩ => show win0_3.index t (1 : Fin 2) * 64 + 1 * (j 1).val = (j 1).val; omega

/-- The bias's one block is the whole array. -/
theorem iblk4_eq (c : Dev nD) (t : Fin cfg0.N) : iblk m c 4 t = V m c main_arg3 := by
  have e0 := idx4 t
  funext j
  show V m c main_arg3 (((cfg0.win 4).blk t).view.emb j) = V m c main_arg3 j
  refine congrArg _ ?_
  funext a; apply Fin.ext
  match a with
  | ⟨0, _⟩ => show win0_4.index t (0 : Fin 1) * 64 + 1 * (j 0).val = (j 0).val; omega

/-! ## The result's blocks -/

/-- Row block t / 8 of any contents of the result's array, read at (p, q). -/
theorem oblk5_read (c : Dev nD) (t : Fin cfg0.N) (G : Buf (Elt F) ((c : Thread nD τ).loc main_v0)) (p : Fin 1024) (q : Fin 64) :
    ((cfg0.win 5).blk t).view.read (Elt F) G (ix2 p q)
      = G (ix2 (⟨1024 * (t.val / 8) + p.val, by have := t.isLt; have : cfg0.N = 128 := N_0; omega⟩ : Fin 16384) q) := by
  obtain ⟨e0, e1⟩ := idx5 t
  show G (((cfg0.win 5).blk t).view.emb (ix2 p q)) = _
  refine congrArg _ ?_
  funext a; apply Fin.ext
  match a with
  | ⟨0, _⟩ => show win0_5.index t (0 : Fin 2) * 1024 + 1 * p.val = 1024 * (t.val / 8) + p.val; omega
  | ⟨1, _⟩ => show win0_5.index t (1 : Fin 2) * 64 + 1 * q.val = q.val; omega

/-- An index of the result is in point t's block exactly when its row lies in row block t / 8. -/
theorem mem_oblk5 (c : Dev nD) (t : Fin cfg0.N) (i : S16384x64.Idx) :
    i ∈ ((cfg0.win 5).blk t).view.set ↔ (i 0).val / 1024 = t.val / 8 := by
  obtain ⟨e0, e1⟩ := idx5 t
  show i ∈ ((View.whole main_v0).slice (win0_5.rect t)).set ↔ _
  rw [View.set_slice_whole, Rect.mem_set_unit]
  have h1 : (i 1).val < 64 := (i 1).isLt
  constructor
  · intro h
    have b0 : win0_5.index t (0 : Fin 2) * 1024 ≤ (i 0).val ∧ (i 0).val < win0_5.index t (0 : Fin 2) * 1024 + 1024 := h 0
    omega
  · intro h a
    match a with
    | ⟨0, _⟩ => show win0_5.index t (0 : Fin 2) * 1024 ≤ (i 0).val ∧ (i 0).val < win0_5.index t (0 : Fin 2) * 1024 + 1024; omega
    | ⟨1, _⟩ => show win0_5.index t (1 : Fin 2) * 64 ≤ (i 1).val ∧ (i 1).val < win0_5.index t (1 : Fin 2) * 64 + 64; omega

end Cert.KernelIdeal.Hand

end
-- ==== Proof.Spec.lean ====
/-
  The layer both programs compute, as one function of the four argument arrays, index by index over the
  extended reals.

  With X the node features [16384, 64], A the adjacency [16384, 16384], W the weights [128, 64] and b the bias [64],
  node r's output row depends on three things only: its own feature row x = X r ·, the neighbour sum
  a k = ∑ c, A r c · X c k, and the degree sum s = ∑ c, A r c:
    deg      = max 1 (s + 1)                                              the clamped degree, self loop included
    h k      = (a k + x k) / deg                                          the mean over the closed neighbourhood
    z o      = ((∑ k < 64, x k · W k o) + (∑ k < 64, h k · W (64 + k) o)) + b o
    out o    = max (z o) 0
    nrm      = √(∑ o, out o · out o)
    res o    = out o / max nrm ε
  The literals 1 and ε are kept as the words both programs print; they are never evaluated.
-/
import Idealize.ShloMosaic.PureOps.Ideal
import Idealize.ShloMosaic.Lib.ValueIdx

noncomputable section

open scoped BigOperators

namespace Cert.Sage

open Idealize.ShloMosaic Idealize.ShloMosaic.ValueIdx

abbrev SX : Shape := ⟨2, ![16384, 64]⟩
abbrev SA : Shape := ⟨2, ![16384, 16384]⟩
abbrev SW : Shape := ⟨2, ![128, 64]⟩
abbrev SB : Shape := ⟨1, ![64]⟩

/-- The word of the float one. -/
abbrev one : EReal := Ideal.ofBits .f32 0x3F800000#32
/-- The word of the normalisation floor. -/
abbrev eps : EReal := Ideal.ofBits .f32 0x2B8CBCCC#32

/-- Row `k` of the weights: the half applied to the node's own features. -/
abbrev lo (k : Fin 64) : Fin 128 := ⟨k.val, by omega⟩
/-- Row `64 + k` of the weights: the half applied to the neighbourhood mean. -/
abbrev hi (k : Fin 64) : Fin 128 := ⟨64 + k.val, by omega⟩

section Row

variable (x a : Fin 64 → EReal) (s : EReal) (W : SW.Idx → EReal) (b : SB.Idx → EReal)

/-- The clamped degree from the degree sum `s`, the self loop included. -/
def rowDeg : EReal := max one (s + one)

/-- The mean of the features over the closed neighbourhood: neighbour sum plus own features, over the degree. -/
def rowMean (k : Fin 64) : EReal := Ideal.div (a k + x k) (rowDeg s)

/-- The linear layer on the concatenation [own features, neighbourhood mean], as two products, plus the bias. -/
def rowLin (o : Fin 64) : EReal :=
  ((∑ k : Fin 64, x k * W (ix2 (lo k) o)) + (∑ k : Fin 64, rowMean x a s k * W (ix2 (hi k) o))) + b (ix1 o)

/-- The rectified output. -/
def rowAct (o : Fin 64) : EReal := max (rowLin x a s W b o) 0

/-- The Euclidean norm of the rectified row. -/
def rowNrm : EReal := Ideal.sqrt (∑ o : Fin 64, rowAct x a s W b o * rowAct x a s W b o)

/-- The normalised row. -/
def rowRes (o : Fin 64) : EReal := Ideal.div (rowAct x a s W b o) (max (rowNrm x a s W b) eps)

end Row

variable (X : SX.Idx → EReal) (A : SA.Idx → EReal) (W : SW.Idx → EReal) (b : SB.Idx → EReal)

/-- The neighbour sum of node `r` at feature `k`. -/
def nbr (r : Fin 16384) (k : Fin 64) : EReal := ∑ c : Fin 16384, A (ix2 r c) * X (ix2 c k)

/-- The degree sum of node `r`. -/
def dsum (r : Fin 16384) : EReal := ∑ c : Fin 16384, A (ix2 r c)

/-- The whole result array. -/
def G : SX.Idx → EReal := fun i =>
  rowRes (fun k => X (ix2 (i 0) k)) (nbr X A (i 0)) (dsum A (i 0)) W b (i 1)

theorem G_ix2 (r : Fin 16384) (o : Fin 64) :
    G X A W b (ix2 r o) = rowRes (fun k => X (ix2 r k)) (nbr X A r) (dsum A r) W b o := rfl

end Cert.Sage

end
-- ==== Proof.LibPlainDot.lean ====
/-
  The matrix product of an M×K array with a K×N array, read at an output index (r, q), is the sum over the one
  contracted coordinate k of the left operand at (r, k) times the right operand at (k, q). Stated once for the plain
  dimension numbers (contract the left operand's last axis with the right operand's first, no batch axis), for a
  product into a zero accumulator inside a kernel body and for the host's product, both over the extended reals.
  A program's own dimension-number record of this form is equal to the plain one by unfolding.
-/
import Idealize.ShloMosaic.PureOps.Ideal.Laws
import Idealize.ShloMosaic.Lib.ValueIdx

noncomputable section

open scoped BigOperators

namespace PlainDot

open Idealize.ShloMosaic Idealize.ShloMosaic.ValueIdx

variable (M K N : Nat)

/-- The left operand's index at output index `j` and contraction index `q`: row of `j`, … -/
theorem lhs0 (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl
/-- … and the contracted coordinate. -/
theorem lhs1 (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
/-- The right operand's index: the contracted coordinate, … -/
theorem rhs0 (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
/-- … and the column of `j`. -/
theorem rhs1 (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction's sum, re-indexed by the one contracted coordinate. -/
theorem sum_eq (x : (⟨2, ![M, K]⟩ : Shape).Idx → EReal) (w : (⟨2, ![K, N]⟩ : Shape).Idx → EReal) (j : (⟨2, ![M, N]⟩ : Shape).Idx) :
    ∑ q : (DotDims.plain M K N).contr.Idx, x ((DotDims.plain M K N).lhsIdx j q) * w ((DotDims.plain M K N).rhsIdx j q)
      = ∑ k : Fin K, x (ix2 (n0 := M) (n1 := K) ⟨(j 0).val, (j 0).isLt⟩ k) * w (ix2 (n0 := K) (n1 := N) k ⟨(j 1).val, (j 1).isLt⟩) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k)
      = ix2 (n0 := M) (n1 := K) ⟨(j 0).val, (j 0).isLt⟩ k := funext fun a => Fin.ext (by
    match a with
    | ⟨0, _⟩ => exact lhs0 M K N _ _
    | ⟨1, _⟩ => exact (lhs1 M K N _ _).trans hk)
  have er : (DotDims.plain M K N).rhsIdx j ((contrEquiv1 (DotDims.plain M K N) K rfl rfl).symm k)
      = ix2 (n0 := K) (n1 := N) k ⟨(j 1).val, (j 1).isLt⟩ := funext fun a => Fin.ext (by
    match a with
    | ⟨0, _⟩ => exact (rhs0 M K N _ _).trans hk
    | ⟨1, _⟩ => exact rhs1 M K N _ _)
  rw [el, er]

/-- A kernel's matrix product into the zero accumulator, at an index. -/
theorem matmul_zero_apply {φ₁ φ₂ : FTy} (x : FVec Ideal ⟨2, ![M, K]⟩ φ₁) (w : FVec Ideal ⟨2, ![K, N]⟩ φ₂) (j : (⟨2, ![M, N]⟩ : Shape).Idx) :
    FloatOps.matmul (DotDims.plain M K N) none x w (constant ⟨2, ![M, N]⟩ .f32 0x00000000#32) j
      = ∑ k : Fin K, x (ix2 (n0 := M) (n1 := K) ⟨(j 0).val, (j 0).isLt⟩ k) * w (ix2 (n0 := K) (n1 := N) k ⟨(j 1).val, (j 1).isLt⟩) := by
  rw [Ideal.matmul_constant_zero_apply]
  exact sum_eq M K N x w j

/-- The host's matrix product, at an index. -/
theorem dotGeneral_apply {φ₁ φ₂ : FTy} (sched : HostSchedule) (x : FVec Ideal ⟨2, ![M, K]⟩ φ₁) (w : FVec Ideal ⟨2, ![K, N]⟩ φ₂) (j : (⟨2, ![M, N]⟩ : Shape).Idx) :
    FloatOps.dotGeneral (DotDims.plain M K N) none sched x w j
      = ∑ k : Fin K, x (ix2 (n0 := M) (n1 := K) ⟨(j 0).val, (j 0).isLt⟩ k) * w (ix2 (n0 := K) (n1 := N) k ⟨(j 1).val, (j 1).isLt⟩) := by
  rw [Ideal.dotGeneral_apply]
  exact sum_eq M K N x w j

end PlainDot

end
-- ==== Proof.LibKeepdims.lean ====
/-
  The column forms a `jnp.sum(…, axis=1, keepdims=True)` kernel meets, read at an index, for any extents:
  a vector `[a]` viewed as a column `[a, 1]`; a column `[a, 1]` broadcast along its rows to `[a, b]`; and, at the
  extended reals, a lane sum of an `[a, b]` array over its second axis as the plain sum over the row.
-/
import Idealize.ShloMosaic.Lib.Pipeline.Value
import Idealize.ShloMosaic.Lib.ValueIdx
import Idealize.ShloMosaic.PureOps.Ideal.Laws

noncomputable section

namespace Idealize.ShloMosaic.Keepdims

open Idealize.ShloMosaic Idealize.ShloMosaic.ValueIdx

variable {α : Type}

/-- An `[a]` array cast to the column `[a, 1]` reads, at `(r, u)`, the operand at `r`, whatever the unit coordinate. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast to `[a, b]` reads, at `(r, c)`, the column at row `r`. -/
theorem broadcastTo_a1_ab_apply {a b : ℕ} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- At the extended reals a lane sum of an `[a, b]` array over its second axis, from the zero accumulator, reads at row
    `r` as the sum of the row. -/
theorem laneSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) := by
  refine (Ideal.multiReduction_add_single src acc h hφ hacc (ix1 r)).trans ?_
  refine Finset.sum_congr rfl fun k _ => ?_
  refine congrArg src (funext fun ax => Fin.ext ?_)
  rw [Shape.Reduces.lift_val]
  match ax with
  | ⟨0, _⟩ => rfl
  | ⟨1, _⟩ => rfl

end Idealize.ShloMosaic.Keepdims

end
-- ==== Proof.Payload.lean ====
/-
  The five values the kernel body stores, read at one index over the extended reals.

  The two scratch initialisations are the zero array. The accumulation step adds to the neighbour-sum scratch the product
  of the adjacency block with the feature block, and to the degree scratch the row sums of the adjacency block. The last
  step is, row by row, the layer of the specification: clamped degree, mean over the closed neighbourhood, the linear
  layer on [own features, mean] as two products plus the bias, rectification, and division by the floored Euclidean norm.
-/
import proofs.«142667_j78451872628893_1_alg».proof.Proof.Gen.KernelIdeal.Skeleton
import proofs.«142667_j78451872628893_1_alg».proof.Proof.Spec
import proofs.«142667_j78451872628893_1_alg».proof.Proof.LibPlainDot
import proofs.«142667_j78451872628893_1_alg».proof.Proof.LibKeepdims
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Pay

open Idealize.ShloMosaic Idealize.ShloMosaic.ValueIdx Idealize.ShloMosaic.Keepdims Cert.KernelIdeal.Gen

/-- The neighbour-sum scratch is initialised to zero. -/
theorem pay1_apply (i : S1024x64.Idx) : k0_pay1 (F := Ideal) i = 0 := by
  unfold k0_pay1
  rw [shapeCast_self]
  exact Ideal.ofBits_zero_f32

/-- The degree scratch is initialised to zero. -/
theorem pay2_apply (i : S1024x1.Idx) : k0_pay2 (F := Ideal) i = 0 := by
  unfold k0_pay2
  rw [shapeCast_self]
  exact Ideal.ofBits_zero_f32

/-- One accumulation step of the neighbour sum: the scratch plus the adjacency block times the feature block. -/
theorem pay3_apply (a : Vec Ideal S1024x2048 .f32) (x : Vec Ideal S2048x64 .f32) (acc : Vec Ideal S1024x64 .f32)
    (p : Fin 1024) (q : Fin 64) :
    k0_pay3 a x acc (ix2 p q) = acc (ix2 p q) + ∑ k : Fin 2048, a (ix2 p k) * x (ix2 k q) := by
  unfold k0_pay3
  rw [shapeCast_self]
  refine (addf_apply _ _ _).trans ?_
  refine congrArg (acc (ix2 p q) + ·) ?_
  exact PlainDot.matmul_zero_apply 1024 2048 64 (truncf .bf16 a bitsLt_bf16_f32) (truncf .bf16 x bitsLt_bf16_f32) (ix2 p q)

/-- One accumulation step of the degree sum: the scratch plus the row sums of the adjacency block. -/
theorem pay4_apply (a : Vec Ideal S1024x2048 .f32) (d : Vec Ideal S1024x1 .f32) (p : Fin 1024) :
    k0_pay4 a d (ix2 p 0) = d (ix2 p 0) + ∑ k : Fin 2048, a (ix2 p k) := by
  unfold k0_pay4
  dsimp only
  rw [shapeCast_self]
  refine (addf_apply _ _ _).trans ?_
  refine congrArg (d (ix2 p 0) + ·) ?_
  refine (shapeCast_a_a1_apply _ _ p 0).trans ?_
  exact laneSum_apply a _ _ _ _ p

/-! ## The last step, in stages -/

section Last

variable (d : FVec Ideal S1024x1 .f32) (xi acc : FVec Ideal S1024x64 .f32) (w : FVec Ideal S128x64 .f32) (b : FVec Ideal S64 .f32)

/-- The clamped degree, as a column. -/
def degV : FVec Ideal S1024x1 .f32 :=
  maximumf (broadcast S1024x1 (Scalar.ofBits .f32 0x3F800000#32)) (addf d (broadcast S1024x1 (Scalar.ofBits .f32 0x3F800000#32)))

/-- The mean over the closed neighbourhood. -/
def meanV : FVec Ideal S1024x64 .f32 :=
  divf (addf acc xi) (broadcastTo S1024x64 (degV d) broadcasts_S1024x1_S1024x64)

/-- The linear layer: own features times the upper half of the weights, plus the mean times the lower half, plus the bias. -/
def linV : FVec Ideal S1024x64 .f32 :=
  addf
    (addf
      (matmul dot_S1024x64_S64x64_S1024x64_1_0_0_1_n_n none xi
        (extractStridedSlice S64x64 ![0, 0] w slices_S128x64_o0_0_S64x64) (constant S1024x64 .f32 0x00000000#32))
      (matmul dot_S1024x64_S64x64_S1024x64_1_0_0_1_n_n none (meanV d xi acc)
        (extractStridedSlice S64x64 ![64, 0] w slices_S128x64_o64_0_S64x64) (constant S1024x64 .f32 0x00000000#32)))
    (broadcastTo S1024x64 (shapeCast S1x64 b shapeCasts_S64_S1x64) broadcasts_S1x64_S1024x64)

/-- The rectified output. -/
def actV : FVec Ideal S1024x64 .f32 :=
  maximumf (linV d xi acc w b) (broadcast S1024x64 (Scalar.ofBits .f32 0x00000000#32))

/-- The Euclidean norm of each rectified row, as a column. -/
def nrmV : FVec Ideal S1024x1 .f32 :=
  sqrt (shapeCast S1024x1
    (multiReduction (F := Ideal) .add [1] S1024 (mulf (actV d xi acc w b) (actV d xi acc w b)) 0x00000000#32
      reduces_S1024x64_S1024 (.inl rfl) rfl) shapeCasts_S1024_S1024x1)

/-- The value stored last is the rectified output over its floored row norm. -/
theorem pay5_eq : k0_pay5 d xi acc w b
    = divf (actV d xi acc w b)
        (broadcastTo S1024x64 (maximumf (nrmV d xi acc w b) (broadcast S1024x1 (Scalar.ofBits .f32 0x2B8CBCCC#32)))
          broadcasts_S1024x1_S1024x64) := rfl

theorem degV_apply (p : Fin 1024) : degV d (ix2 p 0) = Cert.Sage.rowDeg (d (ix2 p 0)) := rfl

theorem meanV_apply (p : Fin 1024) (k : Fin 64) :
    meanV d xi acc (ix2 p k)
      = Cert.Sage.rowMean (fun k => xi (ix2 p k)) (fun k => acc (ix2 p k)) (d (ix2 p 0)) k := by
  unfold meanV
  refine (divf_apply _ _ _).trans ?_
  rw [broadcastTo_a1_ab_apply, degV_apply]
  rfl

/-- Row `k` of the upper half of the weights. -/
theorem upper_apply (k o : Fin 64) :
    extractStridedSlice S64x64 ![0, 0] w slices_S128x64_o0_0_S64x64 (ix2 k o) = w (ix2 (Cert.Sage.lo k) o) :=
  slice2_axis0_apply 0 w slices_S128x64_o0_0_S64x64 k o (Cert.Sage.lo k) (Nat.zero_add _).symm

/-- Row `k` of the lower half of the weights. -/
theorem lower_apply (k o : Fin 64) :
    extractStridedSlice S64x64 ![64, 0] w slices_S128x64_o64_0_S64x64 (ix2 k o) = w (ix2 (Cert.Sage.hi k) o) :=
  slice2_axis0_apply 64 w slices_S128x64_o64_0_S64x64 k o (Cert.Sage.hi k) rfl

/-- The bias, as one row broadcast over all. -/
theorem bias_apply (p : Fin 1024) (o : Fin 64) :
    broadcastTo S1024x64 (shapeCast S1x64 b shapeCasts_S64_S1x64) broadcasts_S1x64_S1024x64 (ix2 p o) = b (ix1 o) :=
  (broadcastTo_1b_ab_apply _ _ p o).trans (shapeCast_a_1a_apply b _ 0 o)

theorem linV_apply (p : Fin 1024) (o : Fin 64) :
    linV d xi acc w b (ix2 p o)
      = Cert.Sage.rowLin (fun k => xi (ix2 p k)) (fun k => acc (ix2 p k)) (d (ix2 p 0)) w b o := by
  unfold linV Cert.Sage.rowLin
  refine (addf_apply _ _ _).trans ?_
  rw [bias_apply]
  refine congrArg (· + b (ix1 o)) ?_
  refine (addf_apply _ _ _).trans ?_
  have e1 := PlainDot.matmul_zero_apply 1024 64 64 xi
    (extractStridedSlice S64x64 ![0, 0] w slices_S128x64_o0_0_S64x64) (ix2 p o)
  have e2 := PlainDot.matmul_zero_apply 1024 64 64 (meanV d xi acc)
    (extractStridedSlice S64x64 ![64, 0] w slices_S128x64_o64_0_S64x64) (ix2 p o)
  refine (congrArg₂ (· + ·) e1 e2).trans ?_
  refine congrArg₂ (· + ·) (Finset.sum_congr rfl fun k _ => ?_) (Finset.sum_congr rfl fun k _ => ?_)
  · exact congrArg (xi (ix2 p k) * ·) (upper_apply w k o)
  · exact congrArg₂ (· * ·) (meanV_apply d xi acc p k) (lower_apply w k o)

theorem actV_apply (p : Fin 1024) (o : Fin 64) :
    actV d xi acc w b (ix2 p o)
      = Cert.Sage.rowAct (fun k => xi (ix2 p k)) (fun k => acc (ix2 p k)) (d (ix2 p 0)) w b o := by
  unfold actV Cert.Sage.rowAct
  refine (maximumf_apply _ _ _).trans ?_
  exact congrArg₂ max (linV_apply d xi acc w b p o) Ideal.ofBits_zero_f32

theorem nrmV_apply (p : Fin 1024) :
    nrmV d xi acc w b (ix2 p 0)
      = Cert.Sage.rowNrm (fun k => xi (ix2 p k)) (fun k => acc (ix2 p k)) (d (ix2 p 0)) w b := by
  unfold nrmV Cert.Sage.rowNrm
  refine congrArg Ideal.sqrt ?_
  refine (shapeCast_a_a1_apply _ _ p 0).trans ?_
  refine (laneSum_apply _ _ _ _ _ p).trans ?_
  refine Finset.sum_congr rfl fun o _ => ?_
  refine (mulf_apply _ _ _).trans ?_
  rw [actV_apply]

end Last

/-- The last step: the specification's normalised row. -/
theorem pay5_apply (d : Vec Ideal S1024x1 .f32) (xi acc : Vec Ideal S1024x64 .f32) (w : Vec Ideal S128x64 .f32)
    (b : Vec Ideal S64 .f32) (p : Fin 1024) (o : Fin 64) :
    k0_pay5 d xi acc w b (ix2 p o)
      = Cert.Sage.rowRes (fun k => xi (ix2 p k)) (fun k => acc (ix2 p k)) (d (ix2 p 0)) w b o := by
  rw [pay5_eq]
  unfold Cert.Sage.rowRes
  refine (divf_apply _ _ _).trans ?_
  refine congrArg₂ Ideal.div (actV_apply d xi acc w b p o) ?_
  refine (broadcastTo_a1_ab_apply _ _ p o).trans ?_
  refine (maximumf_apply _ _ _).trans ?_
  exact congrArg₂ max (nrmV_apply d xi acc w b p) rfl

end Cert.KernelIdeal.Pay

end
-- ==== Proof.Algebra.lean ====
import Mathlib.Data.EReal.Basic
import Mathlib.Algebra.BigOperators.Fin
import Mathlib.Algebra.BigOperators.Group.Finset.Basic
import Mathlib.Data.Fintype.BigOperators

/-!
# Blocked accumulation equals the plain sum

A sum over 16384 indices is accumulated in 8 consecutive blocks of 2048 indices,
in order, starting from zero:  ((((0 + B₀) + B₁) + …) + B₇)  with
B_j = ∑ k < 2048, f (2048·j + k).  Addition of extended reals is associative and
commutative with neutral element 0 (no finiteness is needed), so the ordered chain
is the plain sum over all 16384 indices.
-/

open Finset

namespace Cert.Sage

/-- The j-th block sum: B_j = ∑ k < 2048, f (2048·j + k). -/
noncomputable def blk (f : Fin 16384 → EReal) (j : ℕ) (hj : j < 8) : EReal :=
  ∑ k : Fin 2048, f ⟨2048 * j + k.val, by omega⟩

/-- The ordered chain of partial sums: C₀ = 0 + B₀, C_{j+1} = C_j + B_{j+1}. -/
noncomputable def chain (f : Fin 16384 → EReal) : (j : ℕ) → j < 8 → EReal
  | 0, h => 0 + blk f 0 h
  | j + 1, h => chain f j (Nat.lt_of_succ_lt h) + blk f (j + 1) h

theorem chain_zero (f : Fin 16384 → EReal) (h : 0 < 8) :
    chain f 0 h = 0 + blk f 0 h := rfl

theorem chain_succ (f : Fin 16384 → EReal) (j : ℕ) (h : j + 1 < 8) :
    chain f (j + 1) h = chain f j (Nat.lt_of_succ_lt h) + blk f (j + 1) h := rfl

/-- Extension of f to all naturals by zero outside the index range. -/
private noncomputable def ext (f : Fin 16384 → EReal) (n : ℕ) : EReal :=
  if h : n < 16384 then f ⟨n, h⟩ else 0

private theorem ext_val (f : Fin 16384 → EReal) (c : Fin 16384) : ext f c.val = f c := by
  simp [ext, c.isLt]

/-- A block sum is a sum of the extension over a shifted range of length 2048. -/
private theorem blk_eq_range (f : Fin 16384 → EReal) (j : ℕ) (hj : j < 8) :
    blk f j hj = ∑ k ∈ range 2048, ext f (2048 * j + k) := by
  rw [← Fin.sum_univ_eq_sum_range (fun k => ext f (2048 * j + k)) 2048]
  unfold blk
  refine Finset.sum_congr rfl (fun k _ => ?_)
  exact (ext_val f ⟨2048 * j + k.val, by omega⟩).symm

/-- The j-th partial chain is the sum of the first 2048·(j+1) terms. -/
private theorem chain_eq_range (f : Fin 16384 → EReal) :
    ∀ (j : ℕ) (h : j < 8), chain f j h = ∑ n ∈ range (2048 * (j + 1)), ext f n
  | 0, h => by
    rw [chain_zero, zero_add, blk_eq_range]
    simp
  | j + 1, h => by
    rw [chain_succ, chain_eq_range f j (Nat.lt_of_succ_lt h), blk_eq_range]
    have e : 2048 * (j + 1 + 1) = 2048 * (j + 1) + 2048 := by ring
    rw [e, Finset.sum_range_add]

/-- The full ordered chain of 8 blocks is the plain sum over all 16384 indices. -/
theorem chain_last (f : Fin 16384 → EReal) :
    chain f 7 (by omega) = ∑ c : Fin 16384, f c := by
  rw [chain_eq_range f 7 (by omega)]
  have e : 2048 * (7 + 1) = 16384 := by norm_num
  rw [e, ← Fin.sum_univ_eq_sum_range (ext f) 16384]
  exact Finset.sum_congr rfl (fun c _ => ext_val f c)

end Cert.Sage
-- ==== Proof.KI.Value.lean ====
/-
  The value of the kernel over the extended reals. Point t = 8·i + j of the grid works on row block i and column
  block j. By induction on the point, after point t the neighbour-sum accumulator holds, at local row p and feature
  q, the ordered chain ((0 + B₀) + B₁) + … + B_j of the column-block sums B_j' = ∑ k < 2048, A (1024 i + p) (2048 j' + k)
  · X (2048 j' + k) q, and the degree accumulator the same chain of the adjacency entries alone. At j = 7 the chains are
  the full sums over all 16384 columns, and the row block the body stores is the specification's row function of the
  node's own features, the neighbour sum and the degree sum. The eight row-block write-backs tile the result array.
-/
import proofs.«142667_j78451872628893_1_alg».proof.Proof.KI.Region
import proofs.«142667_j78451872628893_1_alg».proof.Proof.KI.Pieces
import proofs.«142667_j78451872628893_1_alg».proof.Proof.KI.Blocks
import proofs.«142667_j78451872628893_1_alg».proof.Proof.Payload
import proofs.«142667_j78451872628893_1_alg».proof.Proof.Algebra
import proofs.«142667_j78451872628893_1_alg».proof.Proof.Spec
import Idealize.ShloMosaic.Lib.Pipeline.Value

set_option maxRecDepth 16384

noncomputable section

open scoped BigOperators

namespace Cert.KernelIdeal.Hand

open Cert.KernelIdeal Cert.KernelIdeal.Gen Cert.KernelIdeal.Pay
open Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ) (ρ : Dev nD → PrngReg)

/-- The four argument arrays on core `c`. -/
abbrev Xa (c : Dev nD) : Cert.Sage.SX.Idx → EReal := V m c main_arg0
abbrev Aa (c : Dev nD) : Cert.Sage.SA.Idx → EReal := V m c main_arg1
abbrev Wa (c : Dev nD) : Cert.Sage.SW.Idx → EReal := V m c main_arg2
abbrev ba (c : Dev nD) : Cert.Sage.SB.Idx → EReal := V m c main_arg3

/-- The node that local row `p` of the row block of point `n` is. -/
abbrev rowOf (n : ℕ) (hn : n < cfg0.N) (p : Fin 1024) : Fin 16384 :=
  ⟨1024 * (n / 8) + p.val, by have : cfg0.N = 128 := N_0; omega⟩

/-- The summand of node `r`'s neighbour sum at feature `q`, and of its degree sum. -/
def fA (c : Dev nD) (r : Fin 16384) (q : Fin 64) : Fin 16384 → EReal := fun cc => Aa m c (ix2 r cc) * Xa m c (ix2 cc q)
def fD (c : Dev nD) (r : Fin 16384) : Fin 16384 → EReal := fun cc => Aa m c (ix2 r cc)

/-- The adjacency block and the two feature blocks of a point, at their literal types. -/
abbrev ablk (c : Dev nD) (t : Fin cfg0.N) : Vec Ideal S1024x2048 .f32 := iblk m c 0 t
abbrev xblk (c : Dev nD) (t : Fin cfg0.N) : Vec Ideal S2048x64 .f32 := iblk m c 1 t
abbrev oblk (c : Dev nD) (t : Fin cfg0.N) : Vec Ideal S1024x64 .f32 := iblk m c 2 t

/-- The products the accumulation step of point `n` sums are the neighbour sum's summands of column block `n % 8`. -/
theorem fA_at (c : Dev nD) (n : ℕ) (hn : n < cfg0.N) (p : Fin 1024) (q : Fin 64) (j : ℕ) (hj : j < 8) (hnj : n % 8 = j) (k : Fin 2048) :
    ablk m c ⟨n, hn⟩ (ix2 p k) * xblk m c ⟨n, hn⟩ (ix2 k q) = fA m c (rowOf n hn p) q ⟨2048 * j + k.val, by omega⟩ := by
  subst hnj
  dsimp only [ablk, xblk]
  rw [iblk0_apply, iblk1_apply]
  rfl

theorem fD_at (c : Dev nD) (n : ℕ) (hn : n < cfg0.N) (p : Fin 1024) (j : ℕ) (hj : j < 8) (hnj : n % 8 = j) (k : Fin 2048) :
    ablk m c ⟨n, hn⟩ (ix2 p k) = fD m c (rowOf n hn p) ⟨2048 * j + k.val, by omega⟩ := by
  subst hnj
  dsimp only [ablk]
  rw [iblk0_apply]
  rfl

/-- Within a row block the node of a local row does not change from one point to the next. -/
theorem rowOf_succ (n : ℕ) (hn : n + 1 < cfg0.N) (h0 : ¬(n + 1) % 8 = 0) (p : Fin 1024) :
    rowOf n (Nat.lt_of_succ_lt hn) p = rowOf (n + 1) hn p := Fin.ext (by dsimp only [rowOf]; omega)

/-- After point `n`, in column block `j = n % 8`, the neighbour-sum accumulator holds the ordered chain of the first
    `j + 1` column-block sums. -/
theorem acc_inv (c : Dev nD) : ∀ (n : ℕ) (hn : n < cfg0.N) (j : ℕ) (hj : j < 8), n % 8 = j → ∀ (p : Fin 1024) (q : Fin 64),
    (outsAt m c n hn).2.1 (ix2 p q) = Cert.Sage.chain (fA m c (rowOf n hn p) q) j hj
  | 0, hn, j, hj, hnj, p, q => by
    obtain rfl : j = 0 := by omega
    rw [show outsAt m c 0 hn = _ from outsAt_A m c ⟨0, hn⟩ rfl (by show ¬0 % 8 = 7; decide)]
    dsimp only
    rw [sout_A_0_eq, pay3_apply, pay1_apply, Cert.Sage.chain_zero]
    unfold Cert.Sage.blk
    exact congrArg (0 + ·) (Finset.sum_congr rfl fun k _ => fA_at m c 0 hn p q 0 hj hnj k)
  | n + 1, hn, j, hj, hnj, p, q => by
    have hN : cfg0.N = 128 := N_0
    by_cases h0 : (n + 1) % 8 = 0
    · obtain rfl : j = 0 := by omega
      rw [show outsAt m c (n + 1) hn = _ from outsAt_A m c ⟨n + 1, hn⟩ h0 (by dsimp only; omega)]
      dsimp only
      rw [sout_A_0_eq, pay3_apply, pay1_apply, Cert.Sage.chain_zero]
      unfold Cert.Sage.blk
      exact congrArg (0 + ·) (Finset.sum_congr rfl fun k _ => fA_at m c (n + 1) hn p q 0 hj hnj k)
    · obtain ⟨j', rfl⟩ : ∃ j', j = j' + 1 := ⟨j - 1, by omega⟩
      have ih := acc_inv c n (Nat.lt_of_succ_lt hn) j' (by omega) (by omega) p q
      rw [rowOf_succ n hn h0 p] at ih
      by_cases h1 : (n + 1) % 8 = 7
      · rw [show outsAt m c (n + 1) hn = _ from outsAt_C m c ⟨n + 1, hn⟩ h0 h1]
        dsimp only
        rw [sout_C_0_eq, pay3_apply, Cert.Sage.chain_succ]
        unfold Cert.Sage.blk
        exact congrArg₂ (· + ·) ih (Finset.sum_congr rfl fun k _ => fA_at m c (n + 1) hn p q (j' + 1) hj hnj k)
      · rw [show outsAt m c (n + 1) hn = _ from outsAt_B m c ⟨n + 1, hn⟩ h0 h1]
        dsimp only
        rw [sout_B_0_eq, pay3_apply, Cert.Sage.chain_succ]
        unfold Cert.Sage.blk
        exact congrArg₂ (· + ·) ih (Finset.sum_congr rfl fun k _ => fA_at m c (n + 1) hn p q (j' + 1) hj hnj k)

/-- The same for the degree accumulator: the chain of the adjacency entries alone. -/
theorem deg_inv (c : Dev nD) : ∀ (n : ℕ) (hn : n < cfg0.N) (j : ℕ) (hj : j < 8), n % 8 = j → ∀ (p : Fin 1024),
    (outsAt m c n hn).2.2 (ix2 p 0) = Cert.Sage.chain (fD m c (rowOf n hn p)) j hj
  | 0, hn, j, hj, hnj, p => by
    obtain rfl : j = 0 := by omega
    rw [show outsAt m c 0 hn = _ from outsAt_A m c ⟨0, hn⟩ rfl (by show ¬0 % 8 = 7; decide)]
    dsimp only
    rw [sout_A_1_eq, pay4_apply, pay2_apply, Cert.Sage.chain_zero]
    unfold Cert.Sage.blk
    exact congrArg (0 + ·) (Finset.sum_congr rfl fun k _ => fD_at m c 0 hn p 0 hj hnj k)
  | n + 1, hn, j, hj, hnj, p => by
    have hN : cfg0.N = 128 := N_0
    by_cases h0 : (n + 1) % 8 = 0
    · obtain rfl : j = 0 := by omega
      rw [show outsAt m c (n + 1) hn = _ from outsAt_A m c ⟨n + 1, hn⟩ h0 (by dsimp only; omega)]
      dsimp only
      rw [sout_A_1_eq, pay4_apply, pay2_apply, Cert.Sage.chain_zero]
      unfold Cert.Sage.blk
      exact congrArg (0 + ·) (Finset.sum_congr rfl fun k _ => fD_at m c (n + 1) hn p 0 hj hnj k)
    · obtain ⟨j', rfl⟩ : ∃ j', j = j' + 1 := ⟨j - 1, by omega⟩
      have ih := deg_inv c n (Nat.lt_of_succ_lt hn) j' (by omega) (by omega) p
      rw [rowOf_succ n hn h0 p] at ih
      by_cases h1 : (n + 1) % 8 = 7
      · rw [show outsAt m c (n + 1) hn = _ from outsAt_C m c ⟨n + 1, hn⟩ h0 h1]
        dsimp only
        rw [sout_C_1_eq, pay4_apply, Cert.Sage.chain_succ]
        unfold Cert.Sage.blk
        exact congrArg₂ (· + ·) ih (Finset.sum_congr rfl fun k _ => fD_at m c (n + 1) hn p (j' + 1) hj hnj k)
      · rw [show outsAt m c (n + 1) hn = _ from outsAt_B m c ⟨n + 1, hn⟩ h0 h1]
        dsimp only
        rw [sout_B_1_eq, pay4_apply, Cert.Sage.chain_succ]
        unfold Cert.Sage.blk
        exact congrArg₂ (· + ·) ih (Finset.sum_congr rfl fun k _ => fD_at m c (n + 1) hn p (j' + 1) hj hnj k)

/-- The result array the specification gives for core `c`'s arguments. -/
abbrev Gc (c : Dev nD) : Buf (Elt Ideal) ((c : Thread nD τ).loc main_v0) := Cert.Sage.G (Xa m c) (Aa m c) (Wa m c) (ba m c)

/-- At the last column block of a row block the body stores the specification's rows of that block. -/
theorem out_at (c : Dev nD) (t : Fin cfg0.N) (h1 : t.val % 8 = 7) (p : Fin 1024) (o : Fin 64) :
    (outsAt m c t.val t.isLt).1 (ix2 p o) = Gc m c (ix2 (rowOf t.val t.isLt p) o) := by
  have h0 : ¬t.val % 8 = 0 := by omega
  have hacc := fun k => acc_inv m c t.val t.isLt 7 (by omega) h1 p k
  have hdeg := deg_inv m c t.val t.isLt 7 (by omega) h1 p
  rw [outsAt_C m c t h0 h1] at hacc hdeg ⊢
  dsimp only at hacc hdeg ⊢
  rw [sout_C_0_eq] at hacc
  rw [sout_C_1_eq] at hdeg
  rw [out_C_5_eq, pay5_apply]
  have e1 : (fun k : Fin 64 => oblk m c t (ix2 p k)) = fun k => Xa m c (ix2 (rowOf t.val t.isLt p) k) :=
    funext fun k => iblk2_apply m c t p k
  have e2 : (fun k : Fin 64 => k0_pay3 (ablk m c t) (xblk m c t) (outsAt m c (t.val - 1) (Nat.lt_of_le_of_lt (Nat.sub_le _ _) t.isLt)).2.1 (ix2 p k))
      = Cert.Sage.nbr (Xa m c) (Aa m c) (rowOf t.val t.isLt p) :=
    funext fun k => (hacc k).trans ((Cert.Sage.chain_last _).trans rfl)
  have e3 : k0_pay4 (ablk m c t) (outsAt m c (t.val - 1) (Nat.lt_of_le_of_lt (Nat.sub_le _ _) t.isLt)).2.2 (ix2 p 0)
      = Cert.Sage.dsum (Aa m c) (rowOf t.val t.isLt p) :=
    hdeg.trans ((Cert.Sage.chain_last _).trans rfl)
  show Cert.Sage.rowRes (fun k : Fin 64 => oblk m c t (ix2 p k))
      (fun k : Fin 64 => k0_pay3 (ablk m c t) (xblk m c t) (outsAt m c (t.val - 1) (Nat.lt_of_le_of_lt (Nat.sub_le _ _) t.isLt)).2.1 (ix2 p k))
      (k0_pay4 (ablk m c t) (outsAt m c (t.val - 1) (Nat.lt_of_le_of_lt (Nat.sub_le _ _) t.isLt)).2.2 (ix2 p 0)) (iblk m c 3 t) (iblk m c 4 t) o
    = Cert.Sage.rowRes (fun k => Xa m c (ix2 (rowOf t.val t.isLt p) k)) (Cert.Sage.nbr (Xa m c) (Aa m c) (rowOf t.val t.isLt p))
      (Cert.Sage.dsum (Aa m c) (rowOf t.val t.isLt p)) (Wa m c) (ba m c) o
  rw [e1, e2, e3, iblk3_eq, iblk4_eq]

/-- What a write-back writes is the block of the specification's array. -/
theorem flushed_eq (c : Dev nD) (t : Fin cfg0.N) (hf : (cfg0.win 5).flush t = true) :
    (dats m 0 c).flushed 5 t = ((cfg0.win 5).blk t).view.read (Elt Ideal) (Gc m c) := by
  have h1 : t.val % 8 = 7 := (flush0_5 t).mp hf
  show (cfg0.win 5).cut (grid0.coords t) ((dats m 0 c).after 5 t) = _
  rw [after5]
  funext y
  obtain ⟨p, o, rfl⟩ : ∃ (p : Fin 1024) (o : Fin 64), y = ix2 p o := ⟨y 0, y 1, eq_ix2 y⟩
  rw [oblk5_read]
  exact out_at m c t h1 p o

/-- The row-block write-backs tile the result array, so it ends holding the specification's array. -/
theorem final_eq (c : Dev nD) : (dats m 0 c).arrAt 5 cfg0.N = Gc m c :=
  (dats m 0 c).arrAt_eq_of_cover 5 (Gc m c) (flushed_eq m c) fun i => by
    have hi : (i 0).val < 16384 := (i 0).isLt
    refine ⟨⟨8 * ((i 0).val / 1024) + 7, by have : cfg0.N = 128 := N_0; omega⟩, (flush0_5 _).mpr (by dsimp only; omega), ?_⟩
    rw [mem_oblk5 c]
    show (i 0).val / 1024 = (8 * ((i 0).val / 1024) + 7) / 8
    omega

/-- The run, read: the result array at the specification's array of the arguments, the arguments unchanged. -/
theorem run_value : θ_run defs (onTc (τ := τ) (main (F := Ideal))) ⟨m, fun _ => 0, ρ⟩ (fun r => ∀ c : Dev nD,
      r.2.mem ((c.tc : Thread nD τ).loc main_v0) = Cert.Sage.G (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1.trans (final_eq m c), (h c).2⟩) (run_arrays m ρ)

end Cert.KernelIdeal.Hand

end
-- ==== Proof.RefValue.lean ====
/-
  The reference program's result is the layer of Spec.lean, index by index over the extended reals.

  The reference computes, for node features X [16384, 64], adjacency A [16384, 16384], weights W [128, 64] and
  bias b [64]: the row sums of A, plus one, clamped below by one (the degree, self loop included); A · X + X
  divided by that degree (the mean over the closed neighbourhood); the concatenation [X, mean] along the
  feature axis, times W, plus b; the maximum with zero; and each row divided by the larger of its Euclidean
  norm and ε.

  Read at an index (r, o), every operation is pointwise, a re-indexing, or a finite sum:
    * a row sum is the zero word plus the sum over the row, and the zero word is 0;
    * a product of matrices at (r, o) is the sum over the contracted axis;
    * a column j of the concatenation is X's column j for j < 64 and the mean's column j - 64 from 64 on, so
      the sum over the 128 joined columns is the sum over the first 64 (rows k of W) plus the sum over the
      last 64 (rows 64 + k of W) — addition of extended reals is a commutative monoid, and a finite sum over
      Fin (64 + 64) regroups into the two halves with no side condition;
    * the literals 1 and ε stay the words the program prints, the same words as the specification's.
  So the result at (r, o) is Spec.lean's rowRes of the row's own features, neighbour sum and degree sum.
-/
import proofs.«142667_j78451872628893_1_alg».proof.Defs
import proofs.«142667_j78451872628893_1_alg».proof.Proof.Gen.ReferenceIdeal.Run
import proofs.«142667_j78451872628893_1_alg».proof.Proof.Gen.ReferenceIdeal.Read
import proofs.«142667_j78451872628893_1_alg».proof.Proof.Gen.Pre_finite_inputs
import proofs.«142667_j78451872628893_1_alg».proof.Proof.Spec

noncomputable section

open scoped BigOperators
open Idealize.ShloMosaic Idealize.ShloMosaic.TcCoe Idealize.SL.Sem

namespace Cert.ReferenceIdeal.RefValue

open Cert.ReferenceIdeal Cert.ReferenceIdeal.Gen Cert.ReferenceIdeal.Read Idealize.ShloMosaic.ValueIdx

variable (X : FVec Ideal S16384x64 .f32) (A : FVec Ideal S16384x16384 .f32) (W : FVec Ideal S128x64 .f32)
  (b : FVec Ideal S64 .f32)

/-! ## Where each re-indexing reads -/

theorem idx_v0 (r c : Fin 16384) : idx_main_v0 (ix1 r) c = ix2 r c :=
  funext fun a => Fin.ext (by match a with | ⟨0, _⟩ => rfl | ⟨1, _⟩ => rfl)
theorem idx_v1 (r : Fin 16384) (z : Fin 1) : idx_main_v1 (ix2 r z) = ix1 r :=
  funext fun a => Fin.ext (by match a with | ⟨0, _⟩ => rfl)
theorem lidx_v5 (r : Fin 16384) (k : Fin 64) (c : Fin 16384) : lidx_main_v5 (ix2 r k) c = ix2 r c :=
  funext fun a => Fin.ext (by match a with | ⟨0, _⟩ => rfl | ⟨1, _⟩ => rfl)
theorem ridx_v5 (r : Fin 16384) (k : Fin 64) (c : Fin 16384) : ridx_main_v5 (ix2 r k) c = ix2 c k :=
  funext fun a => Fin.ext (by match a with | ⟨0, _⟩ => rfl | ⟨1, _⟩ => rfl)
theorem idx_v7 (r : Fin 16384) (k : Fin 64) : idx_main_v7 (ix2 r k) = ix2 r (0 : Fin 1) :=
  funext fun a => Fin.ext (by match a with | ⟨0, _⟩ => rfl | ⟨1, _⟩ => rfl)

/-! ## The degree and the neighbourhood mean -/

/-- The row sum of the adjacency is the degree sum: the sum starts from the zero word. -/
theorem v0_at (r : Fin 16384) : val_main_v0 (F := Ideal) A (ix1 r) = Sage.dsum A r := by
  rw [val_main_v0_apply, val_main_cst_apply]
  simp only [Ideal.ofBits_def, Ideal.ofBits_zero_f32, zero_add]
  exact Finset.sum_congr rfl fun c _ => congrArg A (idx_v0 r c)

/-- The clamped degree, as a column. -/
theorem v4_at (r : Fin 16384) (z : Fin 1) :
    val_main_v4 (F := Ideal) A (ix2 r z) = Sage.rowDeg (Sage.dsum A r) := by
  rw [val_main_v4_apply, val_main_call0_v1_apply, val_main_call0_v0_apply, val_main_cst_1_apply, val_main_v3_apply,
    val_main_v1_apply, idx_v1, v0_at, val_main_v2_apply, val_main_cst_0_apply]
  rfl

/-- The product of the adjacency with the features is the neighbour sum. -/
theorem v5_at (r : Fin 16384) (k : Fin 64) : val_main_v5 (F := Ideal) X A (ix2 r k) = Sage.nbr X A r k := by
  rw [val_main_v5_apply]
  exact Finset.sum_congr rfl fun c _ => by rw [lidx_v5, ridx_v5]

/-- The mean over the closed neighbourhood. -/
theorem v8_at (r : Fin 16384) (k : Fin 64) :
    val_main_v8 (F := Ideal) X A (ix2 r k)
      = Sage.rowMean (fun k => X (ix2 r k)) (Sage.nbr X A r) (Sage.dsum A r) k := by
  rw [val_main_v8_apply, val_main_v6_apply, v5_at, val_main_v7_apply, idx_v7, v4_at]
  rfl

/-! ## The concatenation [own features, neighbourhood mean] and the linear layer -/

/-- A column below 64 of the concatenation is the node's own feature. -/
theorem v9_lo (r : Fin 16384) (k : Fin 64) :
    val_main_v9 (F := Ideal) X A (ix2 r (Sage.lo k)) = X (ix2 r k) := by
  unfold val_main_v9
  exact concatenate_pair_apply_left 1 X (val_main_v8 (F := Ideal) X A)
    concatenates_S16384x64_S16384x64_S16384x128_d1 (ix2 r (Sage.lo k)) rfl (ix2 r k) (fun a => by
      match a with
      | ⟨0, _⟩ => rfl
      | ⟨1, _⟩ => rfl)

/-- Column 64 + k of the concatenation is the neighbourhood mean at k. -/
theorem v9_hi (r : Fin 16384) (k : Fin 64) :
    val_main_v9 (F := Ideal) X A (ix2 r (Sage.hi k)) = val_main_v8 (F := Ideal) X A (ix2 r k) := by
  unfold val_main_v9
  exact concatenate_pair_apply_right 1 X (val_main_v8 (F := Ideal) X A)
    concatenates_S16384x64_S16384x64_S16384x128_d1 (ix2 r (Sage.hi k)) rfl rfl (ix2 r k)
    (fun a ha => by
      match a with
      | ⟨0, _⟩ => rfl
      | ⟨1, _⟩ => exact absurd rfl ha)
    (Nat.add_comm _ _)

theorem lidx_v10 (r : Fin 16384) (o : Fin 64) (k : Fin 128) : lidx_main_v10 (ix2 r o) k = ix2 r k :=
  funext fun a => Fin.ext (by match a with | ⟨0, _⟩ => rfl | ⟨1, _⟩ => rfl)
theorem ridx_v10 (r : Fin 16384) (o : Fin 64) (k : Fin 128) : ridx_main_v10 (ix2 r o) k = ix2 k o :=
  funext fun a => Fin.ext (by match a with | ⟨0, _⟩ => rfl | ⟨1, _⟩ => rfl)

/-- The product with the weights over the 128 joined columns is the sum over the first 64 columns plus the sum
    over the last 64: a finite sum in a commutative monoid regroups freely. -/
theorem v10_at (r : Fin 16384) (o : Fin 64) :
    val_main_v10 (F := Ideal) X A W (ix2 r o)
      = (∑ k : Fin 64, X (ix2 r k) * W (ix2 (Sage.lo k) o))
        + ∑ k : Fin 64, Sage.rowMean (fun k => X (ix2 r k)) (Sage.nbr X A r) (Sage.dsum A r) k * W (ix2 (Sage.hi k) o) := by
  rw [val_main_v10_apply]
  simp only [lidx_v10, ridx_v10]
  refine (Fin.sum_univ_add (a := 64) (b := 64)
    (fun k : Fin (64 + 64) => val_main_v9 (F := Ideal) X A (ix2 r k) * W (ix2 k o))).trans
    (congrArg₂ (· + ·) (Finset.sum_congr rfl fun k _ => ?_) (Finset.sum_congr rfl fun k _ => ?_))
  · show val_main_v9 (F := Ideal) X A (ix2 r (Sage.lo k)) * W (ix2 (Sage.lo k) o) = _
    rw [v9_lo]
  · show val_main_v9 (F := Ideal) X A (ix2 r (Sage.hi k)) * W (ix2 (Sage.hi k) o) = _
    rw [v9_hi, v8_at]

/-! ## The bias, the rectifier, the norm and the quotient -/

theorem idx_v12 (r : Fin 16384) (o : Fin 64) : idx_main_v11 (idx_main_v12 (ix2 r o)) = ix1 o :=
  funext fun a => Fin.ext (by match a with | ⟨0, _⟩ => rfl)
theorem idx_c2v2 (r : Fin 16384) (z : Fin 1) : idx_main_call2_v2 (ix2 r z) = ix1 r :=
  funext fun a => Fin.ext (by match a with | ⟨0, _⟩ => rfl)
theorem idx_c2v1 (r : Fin 16384) (k : Fin 64) : idx_main_call2_v1 (ix1 r) k = ix2 r k :=
  funext fun a => Fin.ext (by match a with | ⟨0, _⟩ => rfl | ⟨1, _⟩ => rfl)
theorem idx_v18 (r : Fin 16384) (o : Fin 64) : idx_main_v18 (ix2 r o) = ix2 r (0 : Fin 1) :=
  funext fun a => Fin.ext (by match a with | ⟨0, _⟩ => rfl | ⟨1, _⟩ => rfl)

/-- The bias, spread over the rows. -/
theorem v12_at (r : Fin 16384) (o : Fin 64) : val_main_v12 (F := Ideal) b (ix2 r o) = b (ix1 o) := by
  rw [val_main_v12_apply, val_main_v11_apply, idx_v12]

/-- The rectified linear layer: the maximum with the zero word is the maximum with 0. -/
theorem v14_at (r : Fin 16384) (o : Fin 64) :
    val_main_v14 (F := Ideal) X A W b (ix2 r o)
      = Sage.rowAct (fun k => X (ix2 r k)) (Sage.nbr X A r) (Sage.dsum A r) W b o := by
  rw [val_main_v14_apply, val_main_v13_apply, v10_at, v12_at, val_main_call1_v0_apply, val_main_call1_cst_apply]
  simp only [Ideal.maximumf_def, Ideal.addf_def, Ideal.ofBits_def, Ideal.ofBits_zero_f32]
  rfl

/-- The Euclidean norm of the rectified row, as a column: the sum of squares starts from the zero word. -/
theorem v15_at (r : Fin 16384) (z : Fin 1) :
    val_main_v15 (F := Ideal) X A W b (ix2 r z)
      = Sage.rowNrm (fun k => X (ix2 r k)) (Sage.nbr X A r) (Sage.dsum A r) W b := by
  rw [val_main_v15_apply, val_main_call2_v2_apply, idx_c2v2, val_main_call2_v1_apply, val_main_call2_cst_apply]
  simp only [Ideal.hostUnary_sqrt_def, Ideal.ofBits_def, Ideal.ofBits_zero_f32, zero_add]
  refine congrArg Ideal.sqrt (Finset.sum_congr rfl fun k _ => ?_)
  rw [idx_c2v1, val_main_call2_v0_apply, v14_at]
  rfl

/-- The normalised row. -/
theorem v19_at (r : Fin 16384) (o : Fin 64) :
    val_main_v19 (F := Ideal) X A W b (ix2 r o)
      = Sage.rowRes (fun k => X (ix2 r k)) (Sage.nbr X A r) (Sage.dsum A r) W b o := by
  rw [val_main_v19_apply, v14_at, val_main_v18_apply, idx_v18, val_main_v17_apply, v15_at, val_main_v16_apply,
    val_main_cst_2_apply]
  rfl

/-- The last operation's value is the layer, index by index. -/
theorem val_eq : val_main_v19 (F := Ideal) X A W b = Sage.G X A W b := by
  funext i
  obtain ⟨r, o, rfl⟩ : ∃ (r : Fin 16384) (o : Fin 64), i = ix2 r o := ⟨i 0, i 1, eq_ix2 i⟩
  rw [v19_at, Sage.G_ix2]

/-- The composed term of the 32 operations, as the run states it for the result, is the layer. -/
theorem result_eq :
    Host.divf (F := Ideal) (maximumf (addf (Host.dotGeneral (F := Ideal) dot_S16384x128_S128x64_S16384x64_1_0_0_1_n_n none (concatenate S16384x128 1 [⟨S16384x64, X⟩, ⟨S16384x64, (Host.divf (F := Ideal) (addf (Host.dotGeneral (F := Ideal) dot_S16384x16384_S16384x64_S16384x64_1_0_0_1_n_n none A X) X) (broadcastInDim S16384x64 ![0, 1] bcast_S16384x1_S16384x64_0_1 (maximumf (broadcastInDim S16384x1 ![] bcast_S_S16384x1 (id (constant (F := Ideal) S_ .f32 0x3F800000#32))) (addf (broadcastInDim S16384x1 ![0] bcast_S16384_S16384x1_0 (Host.reduceAdd (F := Ideal) A (constant (F := Ideal) S_ .f32 0x00000000#32) reducesTo_S16384x16384_S16384_d1 h_S_)) (broadcastInDim S16384x1 ![] bcast_S_S16384x1 (constant (F := Ideal) S_ .f32 0x3F800000#32))))))⟩] concatenates_S16384x64_S16384x64_S16384x128_d1) W) (broadcastInDim S16384x64 ![0, 1] bcast_S1x64_S16384x64_0_1 (broadcastInDim S1x64 ![1] bcast_S64_S1x64_1 b))) (broadcastInDim S16384x64 ![] bcast_S_S16384x64 (constant (F := Ideal) S_ .f32 0x00000000#32))) (broadcastInDim S16384x64 ![0, 1] bcast_S16384x1_S16384x64_0_1 (maximumf (Host.sqrt (F := Ideal) (broadcastInDim S16384x1 ![0] bcast_S16384_S16384x1_0 (Host.reduceAdd (F := Ideal) (mulf (maximumf (addf (Host.dotGeneral (F := Ideal) dot_S16384x128_S128x64_S16384x64_1_0_0_1_n_n none (concatenate S16384x128 1 [⟨S16384x64, X⟩, ⟨S16384x64, (Host.divf (F := Ideal) (addf (Host.dotGeneral (F := Ideal) dot_S16384x16384_S16384x64_S16384x64_1_0_0_1_n_n none A X) X) (broadcastInDim S16384x64 ![0, 1] bcast_S16384x1_S16384x64_0_1 (maximumf (broadcastInDim S16384x1 ![] bcast_S_S16384x1 (id (constant (F := Ideal) S_ .f32 0x3F800000#32))) (addf (broadcastInDim S16384x1 ![0] bcast_S16384_S16384x1_0 (Host.reduceAdd (F := Ideal) A (constant (F := Ideal) S_ .f32 0x00000000#32) reducesTo_S16384x16384_S16384_d1 h_S_)) (broadcastInDim S16384x1 ![] bcast_S_S16384x1 (constant (F := Ideal) S_ .f32 0x3F800000#32))))))⟩] concatenates_S16384x64_S16384x64_S16384x128_d1) W) (broadcastInDim S16384x64 ![0, 1] bcast_S1x64_S16384x64_0_1 (broadcastInDim S1x64 ![1] bcast_S64_S1x64_1 b))) (broadcastInDim S16384x64 ![] bcast_S_S16384x64 (constant (F := Ideal) S_ .f32 0x00000000#32))) (maximumf (addf (Host.dotGeneral (F := Ideal) dot_S16384x128_S128x64_S16384x64_1_0_0_1_n_n none (concatenate S16384x128 1 [⟨S16384x64, X⟩, ⟨S16384x64, (Host.divf (F := Ideal) (addf (Host.dotGeneral (F := Ideal) dot_S16384x16384_S16384x64_S16384x64_1_0_0_1_n_n none A X) X) (broadcastInDim S16384x64 ![0, 1] bcast_S16384x1_S16384x64_0_1 (maximumf (broadcastInDim S16384x1 ![] bcast_S_S16384x1 (id (constant (F := Ideal) S_ .f32 0x3F800000#32))) (addf (broadcastInDim S16384x1 ![0] bcast_S16384_S16384x1_0 (Host.reduceAdd (F := Ideal) A (constant (F := Ideal) S_ .f32 0x00000000#32) reducesTo_S16384x16384_S16384_d1 h_S_)) (broadcastInDim S16384x1 ![] bcast_S_S16384x1 (constant (F := Ideal) S_ .f32 0x3F800000#32))))))⟩] concatenates_S16384x64_S16384x64_S16384x128_d1) W) (broadcastInDim S16384x64 ![0, 1] bcast_S1x64_S16384x64_0_1 (broadcastInDim S1x64 ![1] bcast_S64_S1x64_1 b))) (broadcastInDim S16384x64 ![] bcast_S_S16384x64 (constant (F := Ideal) S_ .f32 0x00000000#32)))) (constant (F := Ideal) S_ .f32 0x00000000#32) reducesTo_S16384x64_S16384_d1 h_S_))) (broadcastInDim S16384x1 ![] bcast_S_S16384x1 (constant (F := Ideal) S_ .f32 0x2B8CBCCC#32))))
      = Sage.G X A W b :=
  (val_main_v19_eq (F := Ideal) X A W b).trans (val_eq X A W b)

/-! ## The run -/

/-- Every weakly fair execution ends with the result array at the layer of the launch arguments, the arguments
    unchanged. -/
theorem run_G (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v19)
          = Sage.G (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1.trans (result_eq _ _ _ _), (h c).2⟩)
    (Cert.ReferenceIdeal.Value.run (F := Ideal) m ρ)

/-- The arguments are unchanged by the run. -/
theorem frame_ri : Cert.frame_ReferenceIdeal := fun m ρ _ =>
  (θ_run Cert.ReferenceIdeal.defs _ _).mono (fun _ h c => (h c).2) (Cert.ReferenceIdeal.Value.run (F := Ideal) m ρ)

end Cert.ReferenceIdeal.RefValue

end
-- ==== Proof.lean ====
/-
  The certificate of a GraphSAGE mean-aggregation layer: a fused kernel against its plain reference, over the
  extended reals.

  Both programs compute, for node r with features x = X r ·, neighbour sum a k = ∑ c, A r c · X c k and degree sum
  s = ∑ c, A r c: the clamped degree max 1 (s + 1), the mean (a + x) / degree, the linear layer on [x, mean] plus the
  bias, its rectification, and that row divided by its Euclidean norm floored at ε (Proof/Spec.lean).

  The kernel walks a 16 × 8 grid: row blocks of 1024 nodes, and for each the 8 column blocks of 2048 neighbours in
  order, accumulating the neighbour sum and the degree sum in two scratch buffers that it resets at the first column
  block and reads out at the last, where it finishes the row block and stores it. Over the extended reals a change of
  float format is the identity and addition is associative and commutative, so the ordered chain of column-block sums
  is the full sum, and the product with the concatenation [x, mean] is the sum of the two half products: no finiteness
  of the inputs is used, and the precondition is never opened.

  The frames of the two kernel programs are proved through the launch for windows that share an array: the node
  features are read through two windows (the column block's rows for the neighbour sum, the row block's for the node's
  own features), which hold the two halves of that array's share. The idealization rewrote nothing, so `preserves` is
  trivial.
-/
import proofs.«142667_j78451872628893_1_alg».proof.Defs
import proofs.«142667_j78451872628893_1_alg».proof.Proof.Gen.Kernel
import proofs.«142667_j78451872628893_1_alg».proof.Proof.Gen.KernelIdeal
import proofs.«142667_j78451872628893_1_alg».proof.Proof.Gen.ReferenceIdeal
import proofs.«142667_j78451872628893_1_alg».proof.Proof.Gen.Pre_finite_inputs
import proofs.«142667_j78451872628893_1_alg».proof.Proof.KB.Region
import proofs.«142667_j78451872628893_1_alg».proof.Proof.KI.Value
import proofs.«142667_j78451872628893_1_alg».proof.Proof.RefValue

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Hand.frame (F := Bits) m ρ

theorem frame_ki : Cert.frame_KernelIdeal (hKernelIdeal := Cert.KernelIdeal.Gen.facts) (hPre_finite_inputs := Cert.Pre_finite_inputs.Gen.facts) :=
  fun m ρ _ => Cert.KernelIdeal.Hand.frame (F := Ideal) m ρ

/-- Run from memories that agree on the arguments, both programs end with the specification's array of those arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.Hand.run_value m ρ, ?_⟩
  refine (θ_run Cert.ReferenceIdeal.defs _ _).mono (fun _ h c => ⟨(h c).1.trans ?_, (h c).2⟩)
    (Cert.ReferenceIdeal.RefValue.run_G m' ρ')
  rw [(hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, Cert.ReferenceIdeal.RefValue.frame_ri, trivial, algebraic⟩

end Cert.Proof

end
